-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S256x128 : Shape := ⟨2, ![256, 128]⟩
abbrev S128 : Shape := ⟨1, ![128]⟩
abbrev S256x64 : Shape := ⟨2, ![256, 64]⟩
abbrev S64 : Shape := ⟨1, ![64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg7 : FVec F S800000 .f32) (main_v33 : IVec S_ 1) : IVec S_ 1 :=
  let main_v34 : FVec F S800000 .f32 := Host.absf main_arg7
  let main_cst_12 : FVec F S_ .f32 := constant S_ .f32 0x7F800000#32
  let main_v35 : FVec F S800000 .f32 := broadcastInDim S800000 ![] bcast_S_S800000 main_cst_12
  let main_v36 : IVec S800000 1 := cmpf .olt main_v34 main_v35
  let main_c_13 : IVec S_ 1 := constantI S_ 1 1#1
  let main_v37 : IVec S_ 1 := (fun x v => Host.reduce IntOp.andi x v reducesTo_S800000_S_d0 h_S_) main_v36 main_c_13
  let main_v38 : IVec S_ 1 := andi main_v33 main_v37
  main_v38

def fn_part1 {F : FTy → Type} [FloatOps F] (main_arg4 : FVec F S128 .f32) (main_arg5 : FVec F S256x64 .f32) (main_arg6 : FVec F S64 .f32) (main_arg7 : FVec F S800000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S256x128 .f32) (main_arg2 : FVec F S128 .f32) (main_arg3 : FVec F S128 .f32) (main_arg4 : FVec F S128 .f32) (main_arg5 : FVec F S256x64 .f32) (main_arg6 : FVec F S64 .f32) (main_arg7 : FVec F S800000 .f32) (main_arg8 : IVec S800000 32) (main_arg9 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S50000x128 : Shape := ⟨2, ![50000, 128]⟩
abbrev S256x128 : Shape := ⟨2, ![256, 128]⟩
abbrev S128 : Shape := ⟨1, ![128]⟩
abbrev S256x64 : Shape := ⟨2, ![256, 64]⟩
abbrev S64 : Shape := ⟨1, ![64]⟩
abbrev S800000 : Shape := ⟨1, ![800000]⟩
abbrev S800000x1 : Shape := ⟨2, ![800000, 1]⟩
abbrev S_ : Shape := ⟨0, ![]⟩
abbrev S800000x128 : Shape := ⟨2, ![800000, 128]⟩
abbrev S128x128 : Shape := ⟨2, ![128, 128]⟩
abbrev S2x128 : Shape := ⟨2, ![2, 128]⟩
abbrev S2000x128 : Shape := ⟨2, ![2000, 128]⟩
abbrev S1x128 : Shape := ⟨2, ![1, 128]⟩
abbrev S128x64 : Shape := ⟨2, ![128, 64]⟩
abbrev S50000x64 : Shape := ⟨2, ![50000, 64]⟩
abbrev S2000x64 : Shape := ⟨2, ![2000, 64]⟩
abbrev S1x64 : Shape := ⟨2, ![1, 64]⟩

abbrev nBuf : Space → Nat
  | .hbm => 69
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S256x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256x64, .f32⟩
  | .hbm, ⟨6, _⟩ => ⟨S64, .f32⟩
  | .hbm, ⟨7, _⟩ => ⟨S800000, .f32⟩
  | .hbm, ⟨8, _⟩ => ⟨S800000, .i32⟩
  | .hbm, ⟨9, _⟩ => ⟨S800000, .i32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S128x128, .f32⟩
  | .hbm, ⟨27, _⟩ => ⟨S128x128, .f32⟩
  | .hbm, ⟨28, _⟩ => ⟨S50000x128, .f32⟩
  | .hbm, ⟨29, _⟩ => ⟨S2x128, .f32⟩
  | .hbm, ⟨30, _⟩ => ⟨S1x128, .f32⟩
  | .hbm, ⟨31, _⟩ => ⟨S128, .f32⟩
  | .hbm, ⟨32, _⟩ => ⟨S1x128, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S50000x128, .f32⟩
  | .hbm, ⟨50, _⟩ => ⟨S800000x1, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S128x64, .f32⟩
  | .hbm, ⟨67, _⟩ => ⟨S128x64, .f32⟩
  | .hbm, ⟨68, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S2000x128, .f32⟩
  | .local _ .vmem, ⟨8, _⟩ => ⟨S2000x128, .f32⟩
  | .local _ .vmem, ⟨9, _⟩ => ⟨S2x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S128x64, .f32⟩
  | .local _ .vmem, ⟨24, _⟩ => ⟨S64, .f32⟩
  | .local _ .vmem, ⟨25, _⟩ => ⟨S2000x64, .f32⟩
  | .local _ .vmem, ⟨26, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v37 : BitVec 1 := Scalar.cmpi .eq arg0 c24_i32
  let v38 : BitVec 32 := Scalar.extui v37
  let c0_i32_22 : BitVec 32 := 0#32
  let v39 : BitVec 1 := Scalar.cmpi .ne v38 c0_i32_22
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reduces_S2000x128_S128 : S2000x128.Reduces [0] S128
  shapeCasts_S1x128_S128 : S1x128.ShapeCasts S128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  slices_S2x128_S1x128_0_0 : S2x128.Slices ![0, 0] S1x128
  slices_S2x128_S1x128_1_0 : S2x128.Slices ![1, 0] S1x128
  bcast_S_S128 : S_.BroadcastsInDim S128 (![] : Fin 0 → Fin S128.rank)
  shapeCasts_S128_S128 : S128.ShapeCasts S128
  slices_S256x64_S128x64_0_0 : S256x64.Slices ![0, 0] S128x64
  slices_S256x64_S128x64_128_0 : S256x64.Slices ![128, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x128.size a ≤ S2x128.size a
  hwx0_6 : ∀ i : grid0.Coords, EltTy.bits .f32 = 32 ∨ (Rect.block (s := S2x128) S2x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S2x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v15_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S256x128 : Shape := ⟨2, ![256, 128]⟩
abbrev S128 : Shape := ⟨1, ![128]⟩
abbrev S256x64 : Shape := ⟨2, ![256, 64]⟩
abbrev S64 : Shape := ⟨1, ![64]⟩
abbrev S800000 : Shape := ⟨1, ![800000]⟩
abbrev S800000x1 : Shape := ⟨2, ![800000, 1]⟩
abbrev S_ : Shape := ⟨0, ![]⟩
abbrev S800000x128 : Shape := ⟨2, ![800000, 128]⟩
abbrev S50000x256 : Shape := ⟨2, ![50000, 256]⟩
abbrev S1x128 : Shape := ⟨2, ![1, 128]⟩
abbrev S50000x64 : Shape := ⟨2, ![50000, 64]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S256x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256x64, .f32⟩
  | .hbm, ⟨6, _⟩ => ⟨S64, .f32⟩
  | .hbm, ⟨7, _⟩ => ⟨S800000, .f32⟩
  | .hbm, ⟨8, _⟩ => ⟨S800000, .i32⟩
  | .hbm, ⟨9, _⟩ => ⟨S800000, .i32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S50000x256, .f32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S800000x1, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S800000x128, .f32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S50000x256, .f32⟩
  | .hbm, ⟨81, _⟩ => ⟨S50000x64, .f32⟩
  | .hbm, ⟨82, _⟩ => ⟨S1x64, .f32⟩
  | .hbm, ⟨83, _⟩ => ⟨S50000x64, .f32⟩
  | .hbm, ⟨84, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call0_cst : Ref sig .tc := ⟨.hbm, 61, rfl⟩
abbrev main_call0_v0 : Ref sig .tc := ⟨.hbm, 62, rfl⟩
abbrev main_v43 : Ref sig .tc := ⟨.hbm, 63, rfl⟩
abbrev main_v44 : Ref sig .tc := ⟨.hbm, 64, rfl⟩
abbrev main_c_6 : Ref sig .tc := ⟨.hbm, 65, rfl⟩
abbrev main_v45 : Ref sig .tc := ⟨.hbm, 66, rfl⟩
abbrev main_v46 : Ref sig .tc := ⟨.hbm, 67, rfl⟩
abbrev main_c_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x256_S256x64_S50000x64_1_0_0_1_n_n_wf : DotDims.WF S50000x256 S256x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KB.R0.lean ====
import proofs.«120849_j36893769073013_1_alg».proof.Proof.Gen.Kernel.Launch
import proofs.«120849_j36893769073013_1_alg».proof.Proof.Gen.Kernel.Skeleton
import proofs.«120849_j36893769073013_1_alg».proof.Proof.Gen.Kernel.Points
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The first linear layer with its running column sums: the blocks, the tile, the sums -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of the linear layer's result the body stores at point `t`: the aggregated rows times the upper half of
    the weights, plus the feature rows times the lower half, plus the bias, of the five input blocks there. -/
def hblk (c : Dev nD) (t : Fin cfg0.N) : Vec F S2000x128 .f32 :=
  k0_pay6 (blk0 V c 0 t) (blk0 V c 1 t) (blk0 V c 2 t) (blk0 V c 3 t) (blk0 V c 4 t)

/-- One point's update of the two running sums `s` (column sums of the tile, and of its square): each has the
    point's tile's column sums added. -/
def accStep (c : Dev nD) (t : Fin cfg0.N) (s : Vec F S1x128 .f32 × Vec F S1x128 .f32) : Vec F S1x128 .f32 × Vec F S1x128 .f32 :=
  (k0_pay7 (blk0 V c 0 t) (blk0 V c 1 t) (blk0 V c 2 t) (blk0 V c 3 t) (blk0 V c 4 t) s.1,
   k0_pay1 s.2 (k0_pay8 (blk0 V c 0 t) (blk0 V c 1 t) (blk0 V c 2 t) (blk0 V c 3 t) (blk0 V c 4 t)))

/-- What the two running sums hold after the body at point `n`: from zero at the first point, then each point's
    update of what the point before left. -/
def acc (c : Dev nD) : (n : ℕ) → n < cfg0.N → Vec F S1x128 .f32 × Vec F S1x128 .f32
  | 0, hn => accStep V c ⟨0, hn⟩ (k0_pay4, k0_pay5)
  | n + 1, hn => accStep V c ⟨n + 1, hn⟩ (acc c n (Nat.lt_of_succ_lt hn))

theorem acc_zero (c : Dev nD) (hn : 0 < cfg0.N) : acc V c 0 hn = accStep V c ⟨0, hn⟩ (k0_pay4, k0_pay5) := rfl
theorem acc_succ (c : Dev nD) (n : ℕ) (hn : n + 1 < cfg0.N) :
    acc V c (n + 1) hn = accStep V c ⟨n + 1, hn⟩ (acc V c n (Nat.lt_of_succ_lt hn)) := rfl

/-- The last point. -/
theorem last_lt : 24 < cfg0.N := Nat.lt_of_lt_of_eq (by decide : 24 < 25) N_0.symm

/-- Row `0` and row `1` of the statistics block. -/
abbrev rRow0 : Rect S2x128 := Rect.unit (s := S2x128) ![0, 0] S1x128.size inb_S2x128_S1x128_0_0
abbrev rRow1 : Rect S2x128 := Rect.unit (s := S2x128) ![1, 0] S1x128.size inb_S2x128_S1x128_1_0

/-- The statistics block the last point stores: the sums in row 0, the sums of squares in row 1 (the two row stores,
    last first). -/
def stats0 (c : Dev nD) : Vec F S2x128 .f32 :=
  View.canon [⟨rRow1, k0_pay3 (acc V c 24 last_lt).2⟩, ⟨rRow0, k0_pay2 (acc V c 24 last_lt).1⟩]

/-! ## The invariant between points -/

/-- The two running sums' buffers. -/
abbrev scM0 : Memref sig .tc .vmem S1x128 .f32 := Memref.whole cc0_scratch0
abbrev scM1 : Memref sig .tc .vmem S1x128 .f32 := Memref.whole cc0_scratch1

/-- The core's scoped buffers other than this pipeline's staging buffers and the two running sums, at anything. -/
abbrev restBut (c : Dev nD) : sProp 𝕄 :=
  Pipeline.scopedRestBut (Ix := Unit) (Name := ℕ) (U := UR sig nD τ) (Lvl := ℕ) (Val := Elt F) spec0 c [cc0_scratch0, cc0_scratch1]

/-- Before point `n`: before the first, every scoped buffer that is no staging buffer at anything, beside the
    generator register; afterwards the two running sums owned at what the point before left (`acc`), the other
    such buffers at anything, the generator register. -/
def PhiS (c : Dev nD) : (n : ℕ) → n ≤ cfg0.N → sProp 𝕄
  | 0, _ => Pipeline.ΦA spec0 c
  | n + 1, hn => iprop(owns (c : Thread nD τ) scM0 fullShare (acc V c n hn).1 ∗ owns (c : Thread nD τ) scM1 fullShare (acc V c n hn).2
      ∗ restBut c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM0 fullShare (acc V c n hn).1 ∗ owns (c : Thread nD τ) scM1 fullShare (acc V c n hn).2
      ∗ restBut c ∗ (∃ r, prngReg c r)) := rfl

theorem PhiS_pos (c : Dev nD) (n : ℕ) (h : n ≤ cfg0.N) (hz : n ≠ 0) :
    PhiS V c n h = iprop(owns (c : Thread nD τ) scM0 fullShare (acc V c (n - 1) (by omega)).1 ∗ owns (c : Thread nD τ) scM1 fullShare (acc V c (n - 1) (by omega)).2
      ∗ restBut c ∗ (∃ r, prngReg c r)) := by
  cases n with
  | zero => exact absurd rfl hz
  | succ n => rfl

/-! ## The pipeline's proof data -/

/-- The proof data of the pipeline on core `c`: the arrays as the region finds them; after the body at point `t` each
    input's buffer at its block, the result's at the point's tile, the statistics' at the block the last point stores
    (at the other points the field is not consulted); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => hblk V c t
    | ⟨6, _⟩ => stats0 V c
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
/-- The result window's buffer after the body: the point's tile itself (the one store covers the buffer). -/
theorem after0_5 (c : Dev nD) (t : Fin cfg0.N) : (dat0 V c).after 5 t = hblk V c t := by dsimp only [dat0]
/-- The statistics window's buffer after the body at the last point (and, unconsulted, at every point): the block of
    the two row stores of the sums the last point leaves. -/
theorem after0_6 (c : Dev nD) (t : Fin cfg0.N) : (dat0 V c).after 6 t = stats0 V c := by dsimp only [dat0]

theorem Phi_castSucc (c : Dev nD) (t : Fin cfg0.N) :
    (dat0 V c).Φ t.castSucc = PhiS V c t.val (Nat.le_of_lt t.isLt) := by
  dsimp only [dat0]; simp only [Fin.coe_castSucc]

/-! ## The body's two conditions, and where the statistics window is idle -/

/-- The condition of the body's first `scf.if` (zero the sums): the first point. -/
abbrev cFirst (i : grid0.Coords) : Prop :=
  (Scalar.cmpi .ne (Scalar.extui (Scalar.cmpi .eq (BitVec.ofNat 32 (i 0).val) 0#32)) 0#32) = 1#1
theorem hcFirst : ∀ t : Fin cfg0.N, cFirst (grid0.coords t) ↔ t.val % 25 = 0 :=
  (by decide +kernel : ∀ t : Fin grid0.N, cFirst (grid0.coords t) ↔ t.val % 25 = 0)

/-- The condition of its second (store the sums into the statistics block): the last point. -/
abbrev cLast (i : grid0.Coords) : Prop := k0_cond2 i = 1#1
theorem hcLast : ∀ t : Fin cfg0.N, cLast (grid0.coords t) ↔ t.val % 25 = 24 :=
  (by decide +kernel : ∀ t : Fin grid0.N, cLast (grid0.coords t) ↔ t.val % 25 = 24)

/-- No window but the statistics' is ever idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- The statistics window is idle, and not written back, at every point but the last; live at the last. -/
theorem idle0_6 : ∀ t : Fin cfg0.N, ¬cLast (grid0.coords t) → cfg0.idle 6 (grid0.coords t) = true := by decide +kernel
theorem noFlush0_6 : ∀ t : Fin cfg0.N, ¬cLast (grid0.coords t) → (cfg0.win 6).flush t = false := by decide +kernel
theorem live0_6 : ∀ t : Fin cfg0.N, cLast (grid0.coords t) → cfg0.idle 6 (grid0.coords t) = false := by decide +kernel

/-! ## One store through the whole buffer, one load through it -/

theorem hz2 : (![0, 0] : Fin 2 → Nat) = fun _ => 0 := funext fun a => by fin_cases a <;> rfl
theorem hz1 : (![0] : Fin 1 → Nat) = fun _ => 0 := funext fun a => by fin_cases a <;> rfl

section Whole
variable {sig' : RefSig} {κ : Kind} {sp : Space} {S : Shape} {e : EltTy} {Val : EltTy → Type} [∀ e, Nonempty (Val e)]

/-- A buffer last stored through the rectangle that is all of it reads as that store's payload. -/
theorem read_store_whole (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load through that rectangle reads the buffer. -/
theorem readAt_whole (v : View sig' κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

end Whole

/-- The loads and stores of a run through whole buffers, read. -/
local macro "read_whole" : tactic => `(tactic|
  simp only [read_store_whole (S := S2000x128) _ _ hz2, read_store_whole (S := S1x128) _ _ hz2,
    readAt_whole (S := S2000x128) _ _ hz2, readAt_whole (S := S128x128) _ _ hz2, readAt_whole (S := S128) _ _ hz1,
    readAt_whole (S := S1x128) _ _ hz2, View.readCov_unit_zero (S := S1x128) _ hz2])

/-! ## The body on any whole memrefs, case by case -/

set_option maxHeartbeats 4000000 in
/-- The first point: the inputs at their contents, the result's buffer and the two sums' at anything; the body zeroes
    the sums, leaves the tile in the result's buffer and each sum at the tile's column sums added to zero. -/
theorem run_first (c : Dev nD) (E : Set ℕ) (i : grid0.Coords) (hc1 : cFirst i) (hc2 : ¬cLast i)
    (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S2000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (x0 x1 : Vec F S2000x128 .f32) (x2 x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay6 x0 x1 x2 x3 x4)
            ∗ owns (c : Thread nD τ) arg8 fullShare (k0_pay7 x0 x1 x2 x3 x4 k0_pay4)
            ∗ owns (c : Thread nD τ) arg9 fullShare (k0_pay1 k0_pay5 (k0_pay8 x0 x1 x2 x3 x4))) -∗ K ⟨⟩))
      ⊢ wp frame (wpE (defs₀ (F := F)) Variants.none c none) E (cc0__linear1_stats_kernel i arg1 harg1 arg2 harg2 arg3 harg3 arg4 harg4 arg5 harg5 arg6 harg6 arg7 harg7 arg8 harg8 arg9 harg9) K := by
  simp only [cc0__linear1_stats_kernel_eq_skeleton]; unfold cc0__linear1_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  subst hf0; subst hf1; subst hf2; subst hf3; subst hf4
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro; sl_unfold_words; read_whole
  isplitl [H8]
  · iexists _; isplitr
    swap; · iexact H8
    ipureintro; sl_unfold_words; read_whole
  · iexists _; isplitr
    swap; · iexact H9
    ipureintro; sl_unfold_words; read_whole

set_option maxHeartbeats 4000000 in
/-- A point that is neither the first nor the last: the inputs at their contents, the result's buffer at anything, the
    two sums at `s0`, `s1`; the body leaves the tile in the result's buffer and each sum updated. -/
theorem run_mid (c : Dev nD) (E : Set ℕ) (i : grid0.Coords) (hc1 : ¬cFirst i) (hc2 : ¬cLast i)
    (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S2000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (x0 x1 : Vec F S2000x128 .f32) (x2 x3 : Vec F S128x128 .f32) (x4 : Vec F S128 .f32) (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay6 x0 x1 x2 x3 x4)
            ∗ owns (c : Thread nD τ) arg8 fullShare (k0_pay7 x0 x1 x2 x3 x4 s0)
            ∗ owns (c : Thread nD τ) arg9 fullShare (k0_pay1 s1 (k0_pay8 x0 x1 x2 x3 x4))) -∗ K ⟨⟩))
      ⊢ wp frame (wpE (defs₀ (F := F)) Variants.none c none) E (cc0__linear1_stats_kernel i arg1 harg1 arg2 harg2 arg3 harg3 arg4 harg4 arg5 harg5 arg6 harg6 arg7 harg7 arg8 harg8 arg9 harg9) K := by
  simp only [cc0__linear1_stats_kernel_eq_skeleton]; unfold cc0__linear1_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  subst hf0; subst hf1; subst hf2; subst hf3; subst hf4; subst hf8; subst hf9
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro; sl_unfold_words; read_whole
  isplitl [H8]
  · iexists _; isplitr
    swap; · iexact H8
    ipureintro; sl_unfold_words; read_whole
  · iexists _; isplitr
    swap; · iexact H9
    ipureintro; sl_unfold_words; read_whole

/-- The two row stores of the last point tile the statistics block. -/
theorem cover_stats (p1 p0 : Vec F S1x128 .f32) (y : S2x128.Idx) :
    ∃ pc ∈ ([⟨rRow1, p1⟩, ⟨rRow0, p0⟩] : List (View.Piece (Elt F) S2x128 .f32)), y ∈ pc.1.set :=
  View.cover_of_tiledL [⟨rRow1, p1⟩, ⟨rRow0, p0⟩] S1x128.size (by sl_kernel_rfl) y

set_option maxHeartbeats 4000000 in
/-- The last point: as a middle point, and then the two sums stored into rows 0 and 1 of the statistics block, whose
    buffer the body finds at anything. -/
theorem run_last (c : Dev nD) (E : Set ℕ) (i : grid0.Coords) (hc1 : ¬cFirst i) (hc2 : cLast i)
    (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S2000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (x0 x1 : Vec F S2000x128 .f32) (x2 x3 : Vec F S128x128 .f32) (x4 : Vec F S128 .f32) (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay6 x0 x1 x2 x3 x4)
            ∗ owns (c : Thread nD τ) arg7 fullShare (View.canon [⟨rRow1, k0_pay3 (k0_pay1 s1 (k0_pay8 x0 x1 x2 x3 x4))⟩, ⟨rRow0, k0_pay2 (k0_pay7 x0 x1 x2 x3 x4 s0)⟩])
            ∗ owns (c : Thread nD τ) arg8 fullShare (k0_pay7 x0 x1 x2 x3 x4 s0)
            ∗ owns (c : Thread nD τ) arg9 fullShare (k0_pay1 s1 (k0_pay8 x0 x1 x2 x3 x4))) -∗ K ⟨⟩))
      ⊢ wp frame (wpE (defs₀ (F := F)) Variants.none c none) E (cc0__linear1_stats_kernel i arg1 harg1 arg2 harg2 arg3 harg3 arg4 harg4 arg5 harg5 arg6 harg6 arg7 harg7 arg8 harg8 arg9 harg9) K := by
  simp only [cc0__linear1_stats_kernel_eq_skeleton]; unfold cc0__linear1_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d7, %f7, -, H7⟩, ⟨%f8, %hf8, H8⟩, ⟨%f9, %hf9, H9⟩, Hk⟩
  subst hf0; subst hf1; subst hf2; subst hf3; subst hf4; subst hf8; subst hf9
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro; sl_unfold_words; read_whole
  isplitl [H7]
  · iexists _; isplitr
    swap; · iexact H7
    ipureintro; sl_unfold_words
    rw [View.read_writes_eq_canon _ _ _ (cover_stats _ _)]
    read_whole
  isplitl [H8]
  · iexists _; isplitr
    swap; · iexact H8
    ipureintro; sl_unfold_words; read_whole
  · iexists _; isplitr
    swap; · iexact H9
    ipureintro; sl_unfold_words; read_whole

/-! ## The invariant at the region's two ends -/

/-- The class's invariant with the two running sums' buffers split out as memrefs owned at some contents. -/
theorem PhiA0_eq (c : Dev nD) :
    (Pipeline.ΦA spec0 c : sProp 𝕄)
      = iprop((((∃ d, owns (c : Thread nD τ) scM0 fullShare d) ∗ (∃ d, owns (c : Thread nD τ) scM1 fullShare d)) ∗ restBut c) ∗ (∃ r, prngReg c r)) := by
  unfold Pipeline.ΦA
  rw [Pipeline.scopedRest_split_of_list spec0 c [cc0_scratch0, cc0_scratch1] (by decide) (by decide)]
  simp only [scM0, scM1, owns_whole]
  rfl

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After any point but the first the invariant gives the class's back: the sums' named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, HS1, Hr, Hg⟩
  isplitl [HS0 HS1 Hr]
  · isplitl [HS0 HS1]
    · isplitl [HS0]; · iexists _; iexact HS0
      iexists _; iexact HS1
    iexact Hr
  iexact Hg

/-- The same after the last point. -/
theorem hout0 (c : Dev nD) : (dat0 V c).Φ (Fin.last cfg0.N) ⊢ Pipeline.ΦA spec0 c :=
  Phi_out V c _ (by rw [Fin.val_last]; have : cfg0.N = 25 := N_0; omega)

/-! ## What the body finds in the inputs' buffers -/

/-- Each input's current staging buffer holds its block at every point, fetched there or not. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A_eq0]; try rfl) t d).trans
    (by unfold Dat.fetched Dat.blockOf blk0; rw [A_eq0]; try rfl)
theorem before0_3 (c : Dev nD) (t : Fin cfg0.N) (d) : (dat0 V c).before 3 t d = blk0 V c 3 t :=
  ((dat0 V c).before_in_eq_fetched 3 rfl (fun _ => rfl) (fun _ _ _ => rfl)
    (fun t => by rw [after0_3]; unfold Dat.blockOf blk0; rw [A_eq0]; try rfl) t d).trans
    (by unfold Dat.fetched Dat.blockOf blk0; rw [A_eq0]; try rfl)
theorem before0_4 (c : Dev nD) (t : Fin cfg0.N) (d) : (dat0 V c).before 4 t d = blk0 V c 4 t :=
  ((dat0 V c).before_in_eq_fetched 4 rfl (fun _ => rfl) (fun _ _ _ => rfl)
    (fun t => by rw [after0_4]; unfold Dat.blockOf blk0; rw [A_eq0]; try rfl) t d).trans
    (by unfold Dat.fetched Dat.blockOf blk0; rw [A_eq0]; try rfl)

/-! ## The sums at a point, by whether it is the first -/

theorem acc_first (c : Dev nD) (t : Fin cfg0.N) (h : t.val = 0) : acc V c t.val t.isLt = accStep V c t (k0_pay4, k0_pay5) := by
  obtain ⟨n, hn⟩ := t
  cases n with
  | zero => rfl
  | succ n => exact absurd h (Nat.succ_ne_zero n)

theorem acc_pos (c : Dev nD) (t : Fin cfg0.N) (h : t.val ≠ 0) :
    acc V c t.val t.isLt = accStep V c t (acc V c (t.val - 1) (Nat.lt_of_le_of_lt (Nat.sub_le _ _) t.isLt)) := by
  obtain ⟨n, hn⟩ := t
  cases n with
  | zero => exact absurd rfl h
  | succ n => rfl

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

theorem leaves0_0 (c : Dev nD) (t : Fin cfg0.N) : (dat0 V c).leavesExact 0 t = owns (c : Thread nD τ) (st0_0 t) fullShare (blk0 V c 0 t) := by
  unfold Dat.leavesExact; rw [live0_0 t, after0_0]
theorem leaves0_1 (c : Dev nD) (t : Fin cfg0.N) : (dat0 V c).leavesExact 1 t = owns (c : Thread nD τ) (st0_1 t) fullShare (blk0 V c 1 t) := by
  unfold Dat.leavesExact; rw [live0_1 t, after0_1]
theorem leaves0_2 (c : Dev nD) (t : Fin cfg0.N) : (dat0 V c).leavesExact 2 t = owns (c : Thread nD τ) (st0_2 t) fullShare (blk0 V c 2 t) := by
  unfold Dat.leavesExact; rw [live0_2 t, after0_2]
theorem leaves0_3 (c : Dev nD) (t : Fin cfg0.N) : (dat0 V c).leavesExact 3 t = owns (c : Thread nD τ) (st0_3 t) fullShare (blk0 V c 3 t) := by
  unfold Dat.leavesExact; rw [live0_3 t, after0_3]
theorem leaves0_4 (c : Dev nD) (t : Fin cfg0.N) : (dat0 V c).leavesExact 4 t = owns (c : Thread nD τ) (st0_4 t) fullShare (blk0 V c 4 t) := by
  unfold Dat.leavesExact; rw [live0_4 t, after0_4]
theorem leaves0_5 (c : Dev nD) (t : Fin cfg0.N) : (dat0 V c).leavesExact 5 t = owns (c : Thread nD τ) (st0_5 t) fullShare (hblk V c t) := by
  unfold Dat.leavesExact; rw [live0_5 t, after0_5]
/-- The statistics window where it is idle: handed back as found; -/
theorem leaves0_6_idle (c : Dev nD) (t : Fin cfg0.N) (h : ¬t.val % 25 = 24) :
    (dat0 V c).leavesExact 6 t = iprop(∃ d, owns (c : Thread nD τ) (st0_6 t) fullShare ((dat0 V c).before 6 t d)) :=
  Dat.leavesExact_idle (dat0 V c) 6 t (idle0_6 t fun hc => h ((hcLast t).mp hc)) (noFlush0_6 t fun hc => h ((hcLast t).mp hc))
/-- at the last point: the block of the two row stores. -/
theorem leaves0_6_last (c : Dev nD) (t : Fin cfg0.N) (h : t.val % 25 = 24) :
    (dat0 V c).leavesExact 6 t = owns (c : Thread nD τ) (st0_6 t) fullShare (stats0 V c) := by
  unfold Dat.leavesExact; rw [live0_6 t ((hcLast t).mpr h), after0_6]

set_option maxHeartbeats 4000000 in
/-- The body at any point: the inputs' memrefs hold their blocks; the closed forms say which case the point is in; the
    invariant hands the body the two sums at what the point before left (at anything at the first point) and takes them
    back at this point's; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5]
  have hN : t.val < 25 := lt_of_lt_of_eq t.isLt (show cfg0.N = 25 from N_0)
  by_cases h1 : t.val % 25 = 0
  · have hz : t.val = 0 := by omega
    have h2 : ¬t.val % 25 = 24 := by omega
    rw [leaves0_6_idle V c t h2, acc_first V c t hz]
    unfold accStep; dsimp only
    rw [Phi_castSucc V c t, PhiS_zero V c _ _ hz, PhiA0_eq]
    iintro ⟨⟨⟨⟨⟨%e0, HS0⟩, ⟨%e1, HS1⟩⟩, Hr⟩, Hg⟩, Ho, ⟨%d0, H0⟩, ⟨%d1, H1⟩, ⟨%d2, H2⟩, ⟨%d3, H3⟩, ⟨%d4, H4⟩, ⟨%d5, H5⟩, H6⟩
    iapply (run_first c Set.univ (grid0.coords t) ((hcFirst t).mpr h1) (fun hc => h2 ((hcLast t).mp hc)) _ _ _ _ _ _ _ _ _ _ _ _ _ _ _ _ _ _
      (blk0 V c 0 t) (blk0 V c 1 t) (blk0 V c 2 t) (blk0 V c 3 t) (blk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexists _; iexact HS1
    iintro ⟨H0, H1, H2, H3, H4, H5, HS0, HS1⟩
    isplitl [HS0 HS1 Hr Hg]
    · isplitl [HS0]; · iexact HS0
      isplitl [HS1]; · iexact HS1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun h => h1 (by rw [h])
    rw [acc_pos V c t hz]
    unfold accStep; dsimp only
    rw [Phi_castSucc V c t, PhiS_pos V c _ _ hz]
    by_cases h2 : t.val % 25 = 24
    · rw [leaves0_6_last V c t h2]
      have ht : t.val = 24 := by omega
      have hacc : stats0 V c = View.canon [⟨rRow1, k0_pay3 (k0_pay1 (acc V c (t.val - 1) (Nat.lt_of_le_of_lt (Nat.sub_le _ _) t.isLt)).2
            (k0_pay8 (blk0 V c 0 t) (blk0 V c 1 t) (blk0 V c 2 t) (blk0 V c 3 t) (blk0 V c 4 t)))⟩,
          ⟨rRow0, k0_pay2 (k0_pay7 (blk0 V c 0 t) (blk0 V c 1 t) (blk0 V c 2 t) (blk0 V c 3 t) (blk0 V c 4 t)
            (acc V c (t.val - 1) (Nat.lt_of_le_of_lt (Nat.sub_le _ _) t.isLt)).1)⟩] := by
        obtain ⟨n, hn⟩ := t
        dsimp only at ht
        subst ht
        rfl
      rw [hacc]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
      iapply (run_last c Set.univ (grid0.coords t) (fun hc => h1 ((hcFirst t).mp hc)) ((hcLast t).mpr h2) _ _ _ _ _ _ _ _ _ _ _ _ _ _ _ _ _ _
        (blk0 V c 0 t) (blk0 V c 1 t) (blk0 V c 2 t) (blk0 V c 3 t) (blk0 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves0_6_idle V c t h2]
      iintro ⟨⟨HS0, HS1, Hr, Hg⟩, Ho, ⟨%d0, H0⟩, ⟨%d1, H1⟩, ⟨%d2, H2⟩, ⟨%d3, H3⟩, ⟨%d4, H4⟩, ⟨%d5, H5⟩, H6⟩
      iapply (run_mid c Set.univ (grid0.coords t) (fun hc => h1 ((hcFirst t).mp hc)) (fun hc => h2 ((hcLast t).mp hc)) _ _ _ _ _ _ _ _ _ _ _ _ _ _ _ _ _ _
        (blk0 V c 0 t) (blk0 V c 1 t) (blk0 V c 2 t) (blk0 V c 3 t) (blk0 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body obligation, at every point. -/
theorem body_obligation0 (c : Dev nD) : BodyObligation (dat0 (F := F) V c) (defs₀ (F := F)) Variants.none () Set.univ := fun t => by
  rw [bigSep_W0, bigSep_W0]
  exact sound_body V c t

end Cert.Kernel.Hand

end
-- ==== Proof.KB.R1.lean ====
import proofs.«120849_j36893769073013_1_alg».proof.Proof.Gen.Kernel.Launch
import proofs.«120849_j36893769073013_1_alg».proof.Proof.Gen.Kernel.Skeleton
import proofs.«120849_j36893769073013_1_alg».proof.Proof.Gen.Kernel.Points
import Idealize.ShloMosaic.Lib.Pipeline.FrameBody
import Idealize.ShloMosaic.Lib.Tactic

/-!
# The second kernel region: an affine map and a rectifier, one row tile per grid point

The region reads a [50000,128] array in 25 row tiles of 2000 rows, together with two [128] vectors
(a per-column scale and a per-column shift), and writes a [50000,128] array tile by tile. On a tile
x it leaves max (x * scale + shift) 0, the two vectors spread along the rows.

The tile moves with the grid point and is brought in at every point; each of the two vectors is one
block, brought in at the first point only. The body writes nothing into their buffers, so at every
point each of the three buffers still holds its window's block: for an input whose block index did
not move since the previous point, the previous point's block is this point's.

Everything is stated at a parameter V: the contents of the core's buffers when the region is
entered.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## Blocks of the entry contents -/

/-- Block t of window w: its array, as the region finds it, read through the window's rectangle
    at grid point t. -/
def tile1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## What the body writes -/

/-- The whole of a [2000,128] buffer, as one rectangle. -/
abbrev wholeTile : Rect S2000x128 := Rect.unit (s := S2000x128) ![0, 0] S2000x128.size inb_S2000x128_S2000x128_0_0
/-- The whole of a [128] buffer, as one rectangle. -/
abbrev wholeVec : Rect S128 := Rect.unit (s := S128) ![0] S128.size inb_S128_S128_0

/-- The output buffer after the body, from the three input buffers' contents: one store over the
    whole buffer, of the rectified affine image of what the three loads read. -/
def reluTile (x : Vec F S2000x128 .f32) (a b : Vec F S128 .f32) : Vec F S2000x128 .f32 :=
  View.canon [⟨wholeTile, k1_pay1 (View.ld x wholeTile) (View.ld a wholeVec) (View.ld b wholeVec)⟩]

/-- That one store covers the buffer. -/
theorem reluTile_cover (p : Vec F S2000x128 .f32) (y : S2000x128.Idx) :
    ∃ pc ∈ ([⟨wholeTile, p⟩] : List (View.Piece (Elt F) S2000x128 .f32)), y ∈ pc.1.set :=
  View.cover_of_tiled [⟨wholeTile, p⟩] S2000x128.size (by rfl) y

/-! ## The proof data -/

/-- The region's proof data on core c: the arrays as found; after the body at point t each input
    buffer at its block and the output buffer at the rectified affine image of the three blocks;
    the invariant that of a body keeping nothing between points; nothing owed; full shares. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => reluTile (tile1 V c 0 t) (tile1 V c 1 t) (tile1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_x (c : Dev nD) (t : Fin cfg1.N) : (dat1 V c).after 0 t = tile1 V c 0 t := by dsimp only [dat1]
theorem after1_scale (c : Dev nD) (t : Fin cfg1.N) : (dat1 V c).after 1 t = tile1 V c 1 t := by dsimp only [dat1]
theorem after1_shift (c : Dev nD) (t : Fin cfg1.N) : (dat1 V c).after 2 t = tile1 V c 2 t := by dsimp only [dat1]
theorem after1_out (c : Dev nD) (t : Fin cfg1.N) :
    (dat1 V c).after 3 t = reluTile (tile1 V c 0 t) (tile1 V c 1 t) (tile1 V c 2 t) := by dsimp only [dat1]

/-! ## What the body finds in the input buffers -/

/-- The tile's buffer holds block t of the array at point t (it is brought in at every point). -/
theorem before1_x (c : Dev nD) (t : Fin cfg1.N) (d) : (dat1 V c).before 0 t d = tile1 V c 0 t := by
  rw [(dat1 V c).before_in_eq_fetched 0 rfl (fun _ => rfl) (fun _ _ _ => rfl)
    (fun s => by rw [after1_x]; rfl) t d]
  rfl

/-- The scale's buffer holds the scale at every point, though it is brought in at the first only:
    its block index never moves. -/
theorem before1_scale (c : Dev nD) (t : Fin cfg1.N) (d) : (dat1 V c).before 1 t d = tile1 V c 1 t := by
  rw [(dat1 V c).before_in_eq_fetched 1 rfl (fun _ => rfl) (fun _ _ _ => rfl)
    (fun s => by rw [after1_scale]; rfl) t d]
  rfl

/-- The shift's buffer likewise. -/
theorem before1_shift (c : Dev nD) (t : Fin cfg1.N) (d) : (dat1 V c).before 2 t d = tile1 V c 2 t := by
  rw [(dat1 V c).before_in_eq_fetched 2 rfl (fun _ => rfl) (fun _ _ _ => rfl)
    (fun s => by rw [after1_shift]; rfl) t d]
  rfl

/-! ## The body on whole buffers -/

set_option maxHeartbeats 1000000 in
/-- The body, given the three input buffers whole at contents x, a, b and the output buffer whole
    at anything, runs to a continuation that is handed the inputs back unchanged and the output at
    reluTile x a b: three loads, a load of the output buffer whose value is dropped, one store over
    the whole output buffer. -/
theorem relu_body (c : Dev nD) (E : Set ℕ) (i : grid1.Coords)
    (mx : Memref sig .tc .vmem S2000x128 .f32) (hmx : mx.IsWhole)
    (ma : Memref sig .tc .vmem S128 .f32) (hma : ma.IsWhole)
    (mb : Memref sig .tc .vmem S128 .f32) (hmb : mb.IsWhole)
    (mo : Memref sig .tc .vmem S2000x128 .f32) (hmo : mo.IsWhole)
    (x : Vec F S2000x128 .f32) (a b : Vec F S128 .f32) (K : PUnit → sProp 𝕄) :
    iprop((∃ d, owns (c : Thread nD τ) mo fullShare d)
        ∗ owns (c : Thread nD τ) mx fullShare x
        ∗ owns (c : Thread nD τ) ma fullShare a
        ∗ owns (c : Thread nD τ) mb fullShare b
        ∗ (iprop(owns (c : Thread nD τ) mo fullShare (reluTile x a b)
            ∗ owns (c : Thread nD τ) mx fullShare x
            ∗ owns (c : Thread nD τ) ma fullShare a
            ∗ owns (c : Thread nD τ) mb fullShare b) -∗ K ⟨⟩))
      ⊢ wp frame (wpE (defs₀ (F := F)) Variants.none c none) E
          (cc1__affine_relu_kernel i mx hmx ma hma mb hmb mo hmo) K := by
  rw [cc1__affine_relu_kernel_eq_skeleton]
  unfold cc1__affine_relu_kernel_skel owns
  iintro ⟨⟨%d, %go, -, Ho⟩, ⟨%gx, %ex, Hx⟩, ⟨%ga, %ea, Ha⟩, ⟨%gb, %eb, Hb⟩, Hk⟩
  subst ex ea eb
  sl_exec
  sl_step
  iapply Hk
  isplitl [Ho]
  · iexists _
    isplitr
    rotate_left
    · iexact Ho
    · ipureintro
      exact View.read_writes_eq_canon _ _ _ (reluTile_cover _)
  isplitl [Hx]
  · iexists gx
    isplitr
    · ipureintro; rfl
    · iexact Hx
  isplitl [Ha]
  · iexists ga
    isplitr
    · ipureintro; rfl
    · iexact Ha
  iexists gb
  isplitr
  · ipureintro; rfl
  · iexact Hb

/-! ## The body obligation -/

/-- The body at grid point t, the four windows written out: it is called with the invariant, the
    tallies, and each window's current buffer whole (the inputs' at their blocks, by the three
    lemmas above; the output's at anything), and returns the same with the output's buffer at the
    rectified affine image of the three blocks. The invariant and the tallies are not touched. -/
theorem relu_point (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t))) := by
  have hΦ : ∀ k, (dat1 V c).Φ k = Pipeline.ΦA spec1 c := fun _ => rfl
  have hO : (dat1 V c).owesAt () t.succ = (dat1 V c).owesAt () t.castSucc := rfl
  rw [hΦ, hΦ, hO]
  simp only [before1_x, before1_scale, before1_shift, after1_x, after1_scale, after1_shift, after1_out]
  iintro ⟨HΦ, Hτ, ⟨%d0, Hx⟩, ⟨%d1, Ha⟩, ⟨%d2, Hb⟩, Ho⟩
  iapply (relu_body c Set.univ _ _ _ _ _ _ _ _ _ (tile1 V c 0 t) (tile1 V c 1 t) (tile1 V c 2 t) _)
  isplitl [Ho]
  · icases Ho with ⟨%d3, Ho⟩
    iexists _
    iexact Ho
  isplitl [Hx]
  · iexact Hx
  isplitl [Ha]
  · iexact Ha
  isplitl [Hb]
  · iexact Hb
  iintro ⟨Ho, Hx, Ha, Hb⟩
  isplitl [HΦ]
  · iexact HΦ
  isplitl [Hτ]
  · iexact Hτ
  isplitl [Hx]
  · iexact Hx
  isplitl [Ha]
  · iexact Ha
  isplitl [Hb]
  · iexact Hb
  iexact Ho

/-- The library's body obligation, at every point: its two separating products over the four
    windows written out are the statement above. -/
theorem body_obligation1 (c : Dev nD) :
    BodyObligation (dat1 (F := F) V c) (defs₀ (F := F)) Variants.none () Set.univ := fun t => by
  rw [bigSep_W1, bigSep_W1]
  exact relu_point V c t

end Cert.Kernel.Hand

end
-- ==== Proof.KB.R2.lean ====
/-
  The second linear layer as a pipeline: out = agg2 · W2[:128] + h · W2[128:] + b2, one tile of 2000 rows per grid point,
  25 points.

  Six windows. Windows 0 and 1 are the row tiles of the two 50000×128 operands (the aggregated hidden features and the
  hidden features themselves): tile i of each at point i. Windows 2, 3 and 4 are the two 128×64 halves of the weight
  matrix and the bias vector, each whole: brought in once, at the first point, and left in place. Window 5 is the
  result's row tile, 2000×64, written back at every point.

  The module gives this pipeline's proof data at ARBITRARY contents V of the core's buffers when the region is entered,
  and shows that the kernel body meets the pipeline's obligation at every point: handed the five input buffers at their
  tiles and the output buffer at anything, it leaves the inputs as it found them and the output holding the tile's
  image under the layer.
-/
import proofs.«120849_j36893769073013_1_alg».proof.Proof.Gen.Kernel.Launch
import proofs.«120849_j36893769073013_1_alg».proof.Proof.Gen.Kernel.Skeleton
import proofs.«120849_j36893769073013_1_alg».proof.Proof.Gen.Kernel.Points
import Idealize.ShloMosaic.Lib.Pipeline.Frame
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The tiles -/

/-- The part of window w's array that point t stages, read off the entry contents: rows 2000·t … 2000·t + 1999 of
    an operand or of the result, or all of a weight half or of the bias. -/
def tile2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-! ## What the body reads and writes: every access is of a whole staging buffer -/

abbrev allRows : Rect S2000x128 := Rect.unit (s := S2000x128) ![0, 0] S2000x128.size inb_S2000x128_S2000x128_0_0
abbrev allWeights : Rect S128x64 := Rect.unit (s := S128x64) ![0, 0] S128x64.size inb_S128x64_S128x64_0_0
abbrev allBias : Rect S64 := Rect.unit (s := S64) ![0] S64.size inb_S64_S64_0
abbrev allOut : Rect S2000x64 := Rect.unit (s := S2000x64) ![0, 0] S2000x64.size inb_S2000x64_S2000x64_0_0

/-- The result tile's staging buffer after the body, from the five input buffers: its one store, of the layer's
    arithmetic on what the five loads read. -/
def linear2Tile (a h : Vec F S2000x128 .f32) (wa wh : Vec F S128x64 .f32) (b : Vec F S64 .f32) : Vec F S2000x64 .f32 :=
  View.canon [⟨allOut, k2_pay1 (View.ld a allRows) (View.ld h allRows) (View.ld wa allWeights) (View.ld wh allWeights) (View.ld b allBias)⟩]

/-- The one store is of the whole buffer, so it covers it. -/
theorem linear2Tile_cover (p : Vec F S2000x64 .f32) (y : S2000x64.Idx) :
    ∃ pc ∈ ([⟨allOut, p⟩] : List (View.Piece (Elt F) S2000x64 .f32)), y ∈ pc.1.set :=
  View.cover_of_tiled [⟨allOut, p⟩] S2000x64.size (by rfl) y

/-! ## The proof data -/

/-- The pipeline's proof data on core c: the arrays as the region finds them; after the body at point t every input
    buffer still at its tile and the output buffer at the layer's image of the five tiles; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => tile2 V c 2 t
    | ⟨3, _⟩ => tile2 V c 3 t
    | ⟨4, _⟩ => tile2 V c 4 t
    | ⟨5, _⟩ => linear2Tile (tile2 V c 0 t) (tile2 V c 1 t) (tile2 V c 2 t) (tile2 V c 3 t) (tile2 V c 4 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = tile2 V c 0 t := by dsimp only [dat2]
theorem after2_1 (c : Dev nD) (t : Fin cfg2.N) : (dat2 V c).after 1 t = tile2 V c 1 t := by dsimp only [dat2]
theorem after2_2 (c : Dev nD) (t : Fin cfg2.N) : (dat2 V c).after 2 t = tile2 V c 2 t := by dsimp only [dat2]
theorem after2_3 (c : Dev nD) (t : Fin cfg2.N) : (dat2 V c).after 3 t = tile2 V c 3 t := by dsimp only [dat2]
theorem after2_4 (c : Dev nD) (t : Fin cfg2.N) : (dat2 V c).after 4 t = tile2 V c 4 t := by dsimp only [dat2]
theorem after2_5 (c : Dev nD) (t : Fin cfg2.N) :
    (dat2 V c).after 5 t = linear2Tile (tile2 V c 0 t) (tile2 V c 1 t) (tile2 V c 2 t) (tile2 V c 3 t) (tile2 V c 4 t) := by
  dsimp only [dat2]

/-! ## What each input buffer holds when the body runs

An operand's row tile is brought in afresh at every point. A weight half and the bias are brought in at the first
point only; the body leaves them alone and their block never moves, so at every later point the buffer still holds
what was brought in. Either way the buffer holds the window's tile at the point. -/

theorem before2_0 (c : Dev nD) (t : Fin cfg2.N) (d) : (dat2 V c).before 0 t d = tile2 V c 0 t :=
  ((dat2 V c).before_in_eq_fetched 0 rfl (fun _ => rfl) (fun _ _ _ => rfl)
      (fun t => by rw [after2_0]; unfold Dat.blockOf tile2; rw [A_eq2]; try rfl) t d).trans
    (by unfold Dat.fetched Dat.blockOf tile2; rw [A_eq2]; try rfl)
theorem before2_1 (c : Dev nD) (t : Fin cfg2.N) (d) : (dat2 V c).before 1 t d = tile2 V c 1 t :=
  ((dat2 V c).before_in_eq_fetched 1 rfl (fun _ => rfl) (fun _ _ _ => rfl)
      (fun t => by rw [after2_1]; unfold Dat.blockOf tile2; rw [A_eq2]; try rfl) t d).trans
    (by unfold Dat.fetched Dat.blockOf tile2; rw [A_eq2]; try rfl)
theorem before2_2 (c : Dev nD) (t : Fin cfg2.N) (d) : (dat2 V c).before 2 t d = tile2 V c 2 t :=
  ((dat2 V c).before_in_eq_fetched 2 rfl (fun _ => rfl) (fun _ _ _ => rfl)
      (fun t => by rw [after2_2]; unfold Dat.blockOf tile2; rw [A_eq2]; try rfl) t d).trans
    (by unfold Dat.fetched Dat.blockOf tile2; rw [A_eq2]; try rfl)
theorem before2_3 (c : Dev nD) (t : Fin cfg2.N) (d) : (dat2 V c).before 3 t d = tile2 V c 3 t :=
  ((dat2 V c).before_in_eq_fetched 3 rfl (fun _ => rfl) (fun _ _ _ => rfl)
      (fun t => by rw [after2_3]; unfold Dat.blockOf tile2; rw [A_eq2]; try rfl) t d).trans
    (by unfold Dat.fetched Dat.blockOf tile2; rw [A_eq2]; try rfl)
theorem before2_4 (c : Dev nD) (t : Fin cfg2.N) (d) : (dat2 V c).before 4 t d = tile2 V c 4 t :=
  ((dat2 V c).before_in_eq_fetched 4 rfl (fun _ => rfl) (fun _ _ _ => rfl)
      (fun t => by rw [after2_4]; unfold Dat.blockOf tile2; rw [A_eq2]; try rfl) t d).trans
    (by unfold Dat.fetched Dat.blockOf tile2; rw [A_eq2]; try rfl)

/-! ## The body's triple -/

set_option maxHeartbeats 1000000 in
/-- The body on whole staging buffers, the five inputs' at contents a, h, wa, wh, b and the output's at anything, runs to
    the continuation holding the inputs' as they were and the output's at the layer's image of the five. The load of
    the output buffer the body makes before its store reads whatever is there and the value goes unused. -/
theorem linear2_body (c : Dev nD) (E : Set ℕ)
    (arg1 : Memref sig .tc .vmem S2000x128 .f32) (harg1 : arg1.IsWhole) (arg2 : Memref sig .tc .vmem S2000x128 .f32) (harg2 : arg2.IsWhole)
    (arg3 : Memref sig .tc .vmem S128x64 .f32) (harg3 : arg3.IsWhole) (arg4 : Memref sig .tc .vmem S128x64 .f32) (harg4 : arg4.IsWhole)
    (arg5 : Memref sig .tc .vmem S64 .f32) (harg5 : arg5.IsWhole) (arg6 : Memref sig .tc .vmem S2000x64 .f32) (harg6 : arg6.IsWhole)
    (i : grid2.Coords) (a h : Vec F S2000x128 .f32) (wa wh : Vec F S128x64 .f32) (b : Vec F S64 .f32) (K : PUnit → sProp 𝕄) :
    iprop(owns (c : Thread nD τ) arg1 fullShare a ∗ owns (c : Thread nD τ) arg2 fullShare h
        ∗ owns (c : Thread nD τ) arg3 fullShare wa ∗ owns (c : Thread nD τ) arg4 fullShare wh
        ∗ owns (c : Thread nD τ) arg5 fullShare b ∗ (∃ d, owns (c : Thread nD τ) arg6 fullShare d)
        ∗ (iprop(owns (c : Thread nD τ) arg1 fullShare a ∗ owns (c : Thread nD τ) arg2 fullShare h
            ∗ owns (c : Thread nD τ) arg3 fullShare wa ∗ owns (c : Thread nD τ) arg4 fullShare wh
            ∗ owns (c : Thread nD τ) arg5 fullShare b ∗ owns (c : Thread nD τ) arg6 fullShare (linear2Tile a h wa wh b)) -∗ K ⟨⟩))
      ⊢ wp frame (wpE (defs₀ (F := F)) Variants.none c none) E (cc2__linear2_kernel i arg1 harg1 arg2 harg2 arg3 harg3 arg4 harg4 arg5 harg5 arg6 harg6) K := by
  simp only [cc2__linear2_kernel_eq_skeleton]; unfold cc2__linear2_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (linear2Tile_cover _)

/-! ## The body obligation, at a generic point -/

/-- What the body is called with at point t: the invariant, the core's dues, and each window's current staging
    buffer at what it holds there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their tiles, so the body's triple applies; the invariant and the
    core's dues pass through unread. -/
theorem linear2_body_at (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (linear2_body c Set.univ _ _ _ _ _ _ _ _ _ _ _ _ _ (tile2 V c 0 t) (tile2 V c 1 t) (tile2 V c 2 t) (tile2 V c 3 t) (tile2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact linear2_body_at V c t

end Cert.Kernel.Hand

end
-- ==== Proof.KB.Dats.lean ====
import proofs.«120849_j36893769073013_1_alg».proof.Proof.KB.R0
import proofs.«120849_j36893769073013_1_alg».proof.Proof.KB.R1
import proofs.«120849_j36893769073013_1_alg».proof.Proof.KB.R2
import proofs.«120849_j36893769073013_1_alg».proof.Proof.Gen.Kernel.Regions
import Idealize.ShloMosaic.Lib.Pipeline.FrameSuffix

/-!
# What the three kernel regions leave, and each region's proof data at the contents it is entered from

The valuations between the items of @main are written over unknowns: the contents a region leaves
in the arrays it may change. Here the unknowns are named. A region's arrays end at what the
write-backs of all its grid points leave, computed from the region's proof data at the contents
the region is entered from; those contents in turn depend only on what the regions BEFORE it
left. So the unknowns are filled in stage by stage, each stage written over the earlier ones, and
the whole is then one function of the item number.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The contents the three regions leave, and every region's proof data at its entry contents -/

variable (m : (ℓ : Loc nD τ sig) → Buf (Elt F) ℓ)

/-- A core's buffer contents read at the TensorCore's references: the form a region's proof data take. -/
abbrev atTc (W : Dev nD → Valuation τ sig (Elt F)) :
    (c : Dev nD) → (b : Ref sig .tc) → Buf (Elt F) ((c : Thread nD τ).loc b) := fun c b => W c b

/-! ## Stage by stage: each region's leavings are written over the stages before it only -/

/-- Core c's buffers when the first region returns: its seven arrays at what the write-backs of
    all 25 points leave, every other buffer as the region found it. -/
def exit0 (c : Dev nD) : Valuation τ sig (Elt F) :=
  Pipeline.withArrays spec0 c (Gen.V1 m c) fun w => (dat0 (atTc (Gen.V1 m)) c).arrAt w cfg0.N

theorem exit0_arr (c : Dev nD) (w : Fin cfg0.W) :
    exit0 m c (Proc.devRef .tc (Pipeline.arrRef spec0 w)) = (dat0 (atTc (Gen.V1 m)) c).arrAt w cfg0.N := by
  unfold exit0; exact Pipeline.withArrays_arr spec0 launch0.win.arr_inj c _ _ w
theorem exit0_of_ne (c : Dev nD) (b : Ref sig .tc) (hb : ∀ w, Pipeline.arrRef spec0 w ≠ b) :
    exit0 m c (Proc.devRef .tc b) = Gen.V1 m c (Proc.devRef .tc b) := by
  unfold exit0; exact Pipeline.withArrays_of_ne spec0 c _ _ b hb

/-- The unknowns of the valuations, with only the first region's leavings filled in. -/
def outsUpTo0 : Gen.Outs (F := F) := fun _ r c => exit0 m c (Proc.devRef .tc r)

/-- Core c's buffers when the second region returns, over the first region's leavings. -/
def exit1 (c : Dev nD) : Valuation τ sig (Elt F) :=
  Pipeline.withArrays spec1 c (Gen.V3 m (outsUpTo0 m) c) fun w =>
    (dat1 (atTc (Gen.V3 m (outsUpTo0 m))) c).arrAt w cfg1.N

theorem exit1_arr (c : Dev nD) (w : Fin cfg1.W) :
    exit1 m c (Proc.devRef .tc (Pipeline.arrRef spec1 w))
      = (dat1 (atTc (Gen.V3 m (outsUpTo0 m))) c).arrAt w cfg1.N := by
  unfold exit1; exact Pipeline.withArrays_arr spec1 launch1.win.arr_inj c _ _ w

/-- The unknowns with the first two regions' leavings filled in. -/
def outsUpTo1 : Gen.Outs (F := F) := fun J r c =>
  match J with
  | 4 => exit1 m c (Proc.devRef .tc r)
  | _ => exit0 m c (Proc.devRef .tc r)

/-- Core c's buffers when the third region returns, over the first two regions' leavings. -/
def exit2 (c : Dev nD) : Valuation τ sig (Elt F) :=
  Pipeline.withArrays spec2 c (Gen.V5 m (outsUpTo1 m) c) fun w =>
    (dat2 (atTc (Gen.V5 m (outsUpTo1 m))) c).arrAt w cfg2.N

theorem exit2_arr (c : Dev nD) (w : Fin cfg2.W) :
    exit2 m c (Proc.devRef .tc (Pipeline.arrRef spec2 w))
      = (dat2 (atTc (Gen.V5 m (outsUpTo1 m))) c).arrAt w cfg2.N := by
  unfold exit2; exact Pipeline.withArrays_arr spec2 launch2.win.arr_inj c _ _ w

/-- WHAT THE REGIONS LEAVE: item 2 reads the first region's leavings, item 4 the second's, item 6
    the third's. -/
def outs : Gen.Outs (F := F) := fun J r c =>
  match J with
  | 6 => exit2 m c (Proc.devRef .tc r)
  | 4 => exit1 m c (Proc.devRef .tc r)
  | _ => exit0 m c (Proc.devRef .tc r)

/-- The second region's entry contents read only the first region's leavings. -/
theorem V3_outs (c : Dev nD) : Gen.V3 m (outs m) c = Gen.V3 m (outsUpTo0 m) c := rfl
/-- The third region's entry contents read only the first two regions' leavings. -/
theorem V5_outs (c : Dev nD) : Gen.V5 m (outs m) c = Gen.V5 m (outsUpTo1 m) c := rfl

/-! ## The proof data family -/

/-- Every region's proof data, each at the contents its region is entered from. -/
def pdats : (p : Fin 3) → (c : Dev nD) → Dat τ (Elt F) Unit ℕ (UR sig nD τ) ℕ (cfgs p) c
  | ⟨0, _⟩ => fun c => dat0 (atTc (Gen.V1 m)) c
  | ⟨1, _⟩ => fun c => dat1 (atTc (Gen.V3 m (outs m))) c
  | ⟨2, _⟩ => fun c => dat2 (atTc (Gen.V5 m (outs m))) c

/-! ## Reading the leavings back off the valuations -/

/-- After the first region the linear layer's array holds what its write-backs leave. -/
theorem V2_main_v15_0 (c : Dev nD) :
    Gen.V2 m (outs m) c main_v15_0 = (dat0 (atTc (Gen.V1 m)) c).arrAt 5 cfg0.N := by
  show Function.update (Function.update (Gen.V1 m c) main_v15_0 (outs m 2 main_v15_0 c)) main_v15_1 (outs m 2 main_v15_1 c) main_v15_0 = _
  rw [Function.update_of_ne (StableHlo.devRef_ne_of_ne (by decide)), Function.update_self]
  exact exit0_arr m c 5

/-- After the first region the column sums' array holds what its write-back leaves. -/
theorem V2_main_v15_1 (c : Dev nD) :
    Gen.V2 m (outs m) c main_v15_1 = (dat0 (atTc (Gen.V1 m)) c).arrAt 6 cfg0.N := by
  show Function.update (Function.update (Gen.V1 m c) main_v15_0 (outs m 2 main_v15_0 c)) main_v15_1 (outs m 2 main_v15_1 c) main_v15_1 = _
  rw [Function.update_self]
  exact exit0_arr m c 6

/-- After the second region the rectified array holds what its write-backs leave. -/
theorem V4_main_v32 (c : Dev nD) :
    Gen.V4 m (outs m) c main_v32 = (dat1 (atTc (Gen.V3 m (outs m))) c).arrAt 3 cfg1.N := by
  show Function.update (Gen.V3 m (outs m) c) main_v32 (outs m 4 main_v32 c) main_v32 = _
  rw [Function.update_self]
  exact exit1_arr m c 3

/-- After the third region the result array holds what its write-backs leave. -/
theorem V6_main_v48 (c : Dev nD) :
    Gen.V6 m (outs m) c main_v48 = (dat2 (atTc (Gen.V5 m (outs m))) c).arrAt 5 cfg2.N := by
  show Function.update (Gen.V5 m (outs m) c) main_v48 (outs m 6 main_v48 c) main_v48 = _
  rw [Function.update_self]
  exact exit2_arr m c 5

end Cert.Kernel.Hand

end
-- ==== Proof.KB.Segs.lean ====
import proofs.«120849_j36893769073013_1_alg».proof.Proof.KB.Dats
import Idealize.ShloMosaic.Lib.Pipeline.RegionsLoop
import Idealize.ShloMosaic.Lib.Tactic

/-!
# The three kernel regions as segments of @main's run
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The three regions as segments of the run

Between two items core c holds every unscoped buffer whole at the item's valuation, beside its
generator register at some state and its dues at nothing. A region takes its windows' arrays out
of the buffers at entry and puts them back at exit, at what the write-backs of all its points
leave; every other unscoped buffer goes round the region untouched. -/

/-- No pair of cores is assigned a level: no core owes another anything. -/
abbrev L : GSem nD τ sig → Finset Unit := fun _ => ∅
abbrev lv : GSem nD τ sig → Unit → ℕ := fun _ _ => 0

/-- What rides beside the buffers through every item: the generator register at some state, and
    the core owing nothing. -/
abbrev R (c : Dev nD) : sProp 𝕄 :=
  iprop((∃ r, prngReg c r) ∗ ∃ W, owes (c : Thread nD τ) (0 : CellTallies nD τ sig Unit) W)

/-! ## Four entailments every region shares -/

/-- The generator register, any tables and the scoped buffers no window stages make the invariant
    of a body that keeps nothing between points. -/
theorem keepsNothing_of_parts {gr W : Nat} (win : Fin W → Pipeline.WinSpec sig gr) (c : Dev nD) (T : sProp 𝕄) :
    iprop((∃ r, prngReg c r) ∗ T ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hg, -, Hs⟩
  isplitl [Hs]
  · iexact Hs
  · iexact Hg

/-- That invariant gives the register and those scoped buffers back; a kernel with no semaphore of
    its own holds none at zero. -/
theorem parts_of_keepsNothing {gr W : Nat} (win : Fin W → Pipeline.WinSpec sig gr) (c : Dev nD) :
    (Pipeline.ΦA win c : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) win c) := by
  rw [Pipeline.ownSems0_none]
  unfold Pipeline.ΦA
  iintro ⟨Hs, Hg⟩
  isplitl [Hg]
  · iexact Hg
  isplitr
  · iempintro
  · iexact Hs

section Around

variable (pd : (p : Fin 3) → (c : Dev nD) → Dat τ (Elt F) Unit ℕ (UR sig nD τ) ℕ (cfgs p) c)

set_option backward.isDefEq.respectTransparency.types false in
/-- ENTRY of pipeline p from the unscoped buffers at V: its arrays come out at the proof data's
    entry contents, which are V's; no table; the dues at nothing, within any bound; the register;
    the other unscoped buffers at V. -/
theorem enter (p : Fin 3) (lf : Pipeline.LaunchFacts (nD := nD) (τ := τ) cfgs p) (c : Dev nD)
    (hq : ∀ w, (pd p c).q w = fullShare) (ho : (pd p c).owed 0 = 0) (hr : (pd p c).recorded 0 = Set.univ)
    (V : Valuation τ sig (Elt F)) (hA : ∀ w, (pd p c).A w = V (Pipeline.arrRef (cfgs p).spec w)) :
    iprop(iprop(StableHlo.held (c : Thread nD τ) (Pipeline.ucRefs τ sig) V ∗ R c)
        ∗ Pipeline.ownSems0 (fun k : PEmpty => k.elim) c ∗ levAts L lv)
      ⊢ (|={Set.univ}=> iprop((pd p c).arrays ((pd p c).arrAt · 0)
          ∗ Pipeline.prefHeld (pcfgs (F := F) p).pre c (fun _ => fullShare) (Gen.adm p).1
          ∗ (pd p c).owesAt () 0 ∗ (∃ r, prngReg c r)
          ∗ Pipeline.unscopedRest (Ix := Unit) (Name := ℕ) (U := UR sig nD τ) (Lvl := ℕ) (cfgs p).spec c (fun b => V b)) : sProp 𝕄) := by
  have hsplit := Pipeline.arrays_of_unscopedBufs (p := p) (pcfgs (F := F)) Gen.adm pd lf.win lf.arr_whole c
    ((pd p c).share_full hq) (fun b => V b) hA
  rw [Pipeline.unscopedBufs_held] at hsplit
  iintro ⟨⟨Hbufs, Hg, HO⟩, -, -⟩
  ihave H := hsplit $$ Hbufs
  icases H with ⟨Harr, Hrest⟩
  imodintro
  isplitl [Harr]
  · iexact Harr
  isplitr
  · unfold Pipeline.prefHeld
    rw [show (Finset.univ : Finset (Fin (pcfgs (F := F) p).pre.K)) = ∅ from rfl, BI.bigSep_empty]
    iempintro
  isplitl [HO]
  · unfold Pipeline.Dat.owesAt Pipeline.owesWithin
    rw [ho]
    icases HO with ⟨%W, HO⟩
    iexists W
    isplitr
    · ipureintro; unfold Pipeline.Dat.bound; rw [hr]; exact fun _ _ => Or.inl trivial
    · iexact HO
  isplitl [Hg]
  · iexact Hg
  · iexact Hrest

set_option backward.isDefEq.respectTransparency.types false in
/-- EXIT of pipeline p to the unscoped buffers at V': the arrays at what the write-backs of all
    points leave, which is V' there; the other buffers at V, with which V' agrees off the arrays. -/
theorem leave (p : Fin 3) (lf : Pipeline.LaunchFacts (nD := nD) (τ := τ) cfgs p) (c : Dev nD)
    (hq : ∀ w, (pd p c).q w = fullShare) (ho : (pd p c).owed (Fin.last (cfgs p).N) = 0)
    (V V' : Valuation τ sig (Elt F))
    (hF : ∀ w, (pd p c).arrAt w (cfgs p).N = V' (Pipeline.arrRef (cfgs p).spec w))
    (hrest : ∀ b : Ref sig .tc, b ∉ Finset.univ.image (Pipeline.arrRef (cfgs p).spec) → V' b = V b) :
    iprop((pd p c).arrays ((pd p c).arrAt · (cfgs p).N) ∗ (pd p c).owesAt () (Fin.last (cfgs p).N)
        ∗ (∃ r, prngReg c r)
        ∗ Pipeline.unscopedRest (Ix := Unit) (Name := ℕ) (U := UR sig nD τ) (Lvl := ℕ) (cfgs p).spec c (fun b => V b))
      ⊢ (|={Set.univ}=> iprop(StableHlo.held (c : Thread nD τ) (Pipeline.ucRefs τ sig) V' ∗ R c) : sProp 𝕄) := by
  have hjoin := Pipeline.unscopedBufs_of_arrays (p := p) (pcfgs (F := F)) Gen.adm (Ix := Unit) (Name := ℕ) (U := UR sig nD τ) (Lvl := ℕ)
    lf.win lf.arr_whole c pd ((pd p c).share_full hq) (fun b => V b) (fun b => V' b) ((pd p c).arrAt · (cfgs p).N) hF hrest
  rw [Pipeline.unscopedBufs_held] at hjoin
  iintro ⟨Harr, HO, Hg, Hrest⟩
  imodintro
  isplitl [Harr Hrest]
  · iapply hjoin
    isplitl [Harr]
    · iexact Harr
    · iexact Hrest
  isplitl [Hg]
  · iexact Hg
  unfold Pipeline.Dat.owesAt Pipeline.owesWithin
  rw [ho]
  icases HO with ⟨%W, -, HO⟩
  iexists W
  iexact HO

end Around

/-! ## What each region's exit valuation holds -/

/-- An input array of the first region: never written back, and no item-2 unknown sits at it. -/
theorem exit0_in (c : Dev nD) (w : Fin cfg0.W) (hin : (cfg0.win w).isOut = false)
    (hne : Pipeline.arrRef spec0 w ∉ ([main_v15_0, main_v15_1] : List (Ref sig .tc))) :
    (dat0 (atTc (Gen.V1 m)) c).arrAt w cfg0.N = Gen.V2 m (outs m) c (Pipeline.arrRef spec0 w) :=
  ((dat0 (atTc (Gen.V1 m)) c).arrAt_in w hin _).trans
    ((A_eq0 (atTc (Gen.V1 m)) c w).trans (Gen.V2_of m (outs m) c _ hne).symm)

theorem exit0_arrays (c : Dev nD) (w : Fin cfg0.W) :
    (dat0 (atTc (Gen.V1 m)) c).arrAt w cfg0.N = Gen.V2 m (outs m) c (Pipeline.arrRef spec0 w) :=
  match w with
  | ⟨0, _⟩ => exit0_in m c 0 rfl (by decide)
  | ⟨1, _⟩ => exit0_in m c 1 rfl (by decide)
  | ⟨2, _⟩ => exit0_in m c 2 rfl (by decide)
  | ⟨3, _⟩ => exit0_in m c 3 rfl (by decide)
  | ⟨4, _⟩ => exit0_in m c 4 rfl (by decide)
  | ⟨5, _⟩ => (V2_main_v15_0 m c).symm
  | ⟨6, _⟩ => (V2_main_v15_1 m c).symm

theorem exit0_others (c : Dev nD) (b : Ref sig .tc) (hb : b ∉ Finset.univ.image (Pipeline.arrRef spec0)) :
    Gen.V2 m (outs m) c b = Gen.V1 m c b :=
  Gen.V2_of m (outs m) c b fun h => hb (by
    rcases List.mem_cons.mp h with rfl | h
    · exact Finset.mem_image.mpr ⟨5, Finset.mem_univ _, rfl⟩
    rcases List.mem_cons.mp h with rfl | h
    · exact Finset.mem_image.mpr ⟨6, Finset.mem_univ _, rfl⟩
    · cases h)

theorem exit1_in (c : Dev nD) (w : Fin cfg1.W) (hin : (cfg1.win w).isOut = false)
    (hne : Pipeline.arrRef spec1 w ∉ ([main_v32] : List (Ref sig .tc))) :
    (dat1 (atTc (Gen.V3 m (outs m))) c).arrAt w cfg1.N = Gen.V4 m (outs m) c (Pipeline.arrRef spec1 w) :=
  ((dat1 (atTc (Gen.V3 m (outs m))) c).arrAt_in w hin _).trans
    ((A_eq1 (atTc (Gen.V3 m (outs m))) c w).trans (Gen.V4_of m (outs m) c _ hne).symm)

theorem exit1_arrays (c : Dev nD) (w : Fin cfg1.W) :
    (dat1 (atTc (Gen.V3 m (outs m))) c).arrAt w cfg1.N = Gen.V4 m (outs m) c (Pipeline.arrRef spec1 w) :=
  match w with
  | ⟨0, _⟩ => exit1_in m c 0 rfl (by decide)
  | ⟨1, _⟩ => exit1_in m c 1 rfl (by decide)
  | ⟨2, _⟩ => exit1_in m c 2 rfl (by decide)
  | ⟨3, _⟩ => (V4_main_v32 m c).symm

theorem exit1_others (c : Dev nD) (b : Ref sig .tc) (hb : b ∉ Finset.univ.image (Pipeline.arrRef spec1)) :
    Gen.V4 m (outs m) c b = Gen.V3 m (outs m) c b :=
  Gen.V4_of m (outs m) c b fun h => hb (by
    rcases List.mem_cons.mp h with rfl | h
    · exact Finset.mem_image.mpr ⟨3, Finset.mem_univ _, rfl⟩
    · cases h)

theorem exit2_in (c : Dev nD) (w : Fin cfg2.W) (hin : (cfg2.win w).isOut = false)
    (hne : Pipeline.arrRef spec2 w ∉ ([main_v48] : List (Ref sig .tc))) :
    (dat2 (atTc (Gen.V5 m (outs m))) c).arrAt w cfg2.N = Gen.V6 m (outs m) c (Pipeline.arrRef spec2 w) :=
  ((dat2 (atTc (Gen.V5 m (outs m))) c).arrAt_in w hin _).trans
    ((A_eq2 (atTc (Gen.V5 m (outs m))) c w).trans (Gen.V6_of m (outs m) c _ hne).symm)

theorem exit2_arrays (c : Dev nD) (w : Fin cfg2.W) :
    (dat2 (atTc (Gen.V5 m (outs m))) c).arrAt w cfg2.N = Gen.V6 m (outs m) c (Pipeline.arrRef spec2 w) :=
  match w with
  | ⟨0, _⟩ => exit2_in m c 0 rfl (by decide)
  | ⟨1, _⟩ => exit2_in m c 1 rfl (by decide)
  | ⟨2, _⟩ => exit2_in m c 2 rfl (by decide)
  | ⟨3, _⟩ => exit2_in m c 3 rfl (by decide)
  | ⟨4, _⟩ => exit2_in m c 4 rfl (by decide)
  | ⟨5, _⟩ => (V6_main_v48 m c).symm

theorem exit2_others (c : Dev nD) (b : Ref sig .tc) (hb : b ∉ Finset.univ.image (Pipeline.arrRef spec2)) :
    Gen.V6 m (outs m) c b = Gen.V5 m (outs m) c b :=
  Gen.V6_of m (outs m) c b fun h => hb (by
    rcases List.mem_cons.mp h with rfl | h
    · exact Finset.mem_image.mpr ⟨5, Finset.mem_univ _, rfl⟩
    · cases h)

/-! ## The records -/

set_option backward.isDefEq.respectTransparency.types false in
/-- The first region (row tiles of the linear layer, with running column sums kept in scratch):
    entered from the buffers after the first host stretch, left with the layer's array and the sums'
    array at what the write-backs leave. Its invariant is the body's own; the class invariant is
    what enters it before the first point and what it gives back after the last. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (atTc (Gen.V1 m)) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (atTc (Gen.V1 m) c)
  hentry c := enter (pdats m) 0 launch0 c (fun _ => rfl) rfl rfl (Gen.V1 m c) (fun _ => rfl)
  hin c := (keepsNothing_of_parts spec0 c _).trans (hin0 (atTc (Gen.V1 m)) c)
  hout c := (hout0 (atTc (Gen.V1 m)) c).trans (parts_of_keepsNothing spec0 c)
  hexit c := leave (pdats m) 0 launch0 c (fun _ => rfl) rfl (Gen.V1 m c) (Gen.V2 m (outs m) c)
    (exit0_arrays m c) (exit0_others m c)

set_option backward.isDefEq.respectTransparency.types false in
/-- The second region (affine map and rectifier, tile by tile): entered from the buffers after the
    second host stretch, left with the rectified array at what the write-backs leave. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (atTc (Gen.V3 m (outs m))) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (atTc (Gen.V3 m (outs m)) c)
  hentry c := enter (pdats m) 1 launch1 c (fun _ => rfl) rfl rfl (Gen.V3 m (outs m) c) (fun _ => rfl)
  hin c := keepsNothing_of_parts spec1 c _
  hout c := parts_of_keepsNothing spec1 c
  hexit c := leave (pdats m) 1 launch1 c (fun _ => rfl) rfl (Gen.V3 m (outs m) c) (Gen.V4 m (outs m) c)
    (exit1_arrays m c) (exit1_others m c)

set_option backward.isDefEq.respectTransparency.types false in
/-- The third region (row tiles of the second linear layer): entered from the buffers after the
    third host stretch, left with the result array at what the write-backs leave. -/
def reg2 : Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (atTc (Gen.V5 m (outs m))) c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (atTc (Gen.V5 m (outs m)) c)
  hentry c := enter (pdats m) 2 launch2 c (fun _ => rfl) rfl rfl (Gen.V5 m (outs m) c) (fun _ => rfl)
  hin c := keepsNothing_of_parts spec2 c _
  hout c := parts_of_keepsNothing spec2 c
  hexit c := leave (pdats m) 2 launch2 c (fun _ => rfl) rfl (Gen.V5 m (outs m) c) (Gen.V6 m (outs m) c)
    (exit2_arrays m c) (exit2_others m c)

end Cert.Kernel.Hand

end
-- ==== Proof.KB.Run.lean ====
import proofs.«120849_j36893769073013_1_alg».proof.Proof.KB.Segs

/-!
# @main's run, from the launch to the return
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The run of @main

@main is three host stretches and three kernel regions in turn. Core c goes from item to item
holding every unscoped buffer whole at the item's valuation beside R c. The launch makes the first
such state from the launch memory; the last is read against the final memory, which gives the
result array at its last valuation and every argument array at its launch contents. -/

variable (ρ : Dev nD → PrngReg)

/-- The six items of @main on core c: the host stretches from the valuations before them, the
    regions' records, R c riding along everywhere. -/
abbrev items : Dev nD → List (Pipeline.Seg (pcfgs (F := F)) Gen.adm (pdats m) () defs₀ Variants.none L lv) :=
  Gen.segs m (outs m) Variants.none L lv (fun _ c => R c) () (pdats m) (reg0 m) (reg1 m) (reg2 m)

/-- An unscoped reference of the TensorCore is among those the thread state holds. -/
theorem held_ref (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- Every weakly fair execution of @main from memory m with zero counters terminates, and every
    final memory holds the result array at the last valuation and each argument as launched. -/
theorem run_main : θ_run defs (onTc (τ := τ) (main (F := F))) ⟨m, fun _ => 0, ρ⟩ (fun r => ∀ c : Dev nD,
      r.2.mem ((c.tc : Thread nD τ).loc main_v48) = Gen.V6 m (outs m) c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) Gen.adm (pdats m) () cellOf_inj emb₁ defs₀ Variants.none L lv m ρ main
    (items m)
    (fun c Q => by
      rewrite [main_chain c, Pipeline.Seg.run_eq_chain,
        show (items m c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj)) (hu₀ := ?_)
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outs m) c))
    (hch := fun c => ⟨.rfl, .rfl, .rfl, .rfl, .rfl, .rfl, sep_mono .rfl (by iintro ⟨-, HO⟩; iexact HO)⟩)
    (hinit := ?_)
    (QY := fun c s => s.mem ((c.tc : Thread nD τ).loc main_v48) = Gen.V6 m (outs m) c main_v48
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9))
    (hfin := fun c s' => ?_) (hQ := fun _ h => h)
  · -- the launch element is the pipelines' own; no further ghost state per core
    rw [BI.bigSep_emp_const]
    have hown : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
    iintro Hu
    imodintro
    isplitl [Hu]
    · iapply hown; iexact Hu
    · iempintro
  · -- each core by itself: the unscoped buffers are held at the launch valuation, the register is at
    -- its launch state, nothing is owed
    refine Pipeline.initEach L lv fun c => ?_
    rw [show unscopedBufs c (fun b => m ((c : Thread nD τ).loc b))
        = StableHlo.held (c : Thread nD τ) (Pipeline.ucRefs τ sig) (Gen.V0 m c)
      from Pipeline.unscopedBufs_held c (Gen.V0 m c)]
    iintro ⟨⟨Hbufs, -, HO, -, Hg, -⟩, -⟩
    imodintro
    isplitl [Hbufs]
    · iexact Hbufs
    isplitl [Hg]
    · iexists _; iexact Hg
    · iexists ∅; iexact HO
  · -- the end: every held buffer read off the last valuation
    unfold StableHlo.held
    iintro ⟨Hh, HSI⟩
    ihave Hr := (pointsTo_read_all (Pipeline.ucRefs τ sig) (fun b => ((c : Thread nD τ).1, b)) (Gen.V6 m (outs m) c) s') $$ [Hh HSI]
    · isplitl [Hh] <;> iassumption
    icases Hr with ⟨%h, HSI⟩
    imodintro
    isplitr
    · ipureintro
      exact ⟨h (Proc.devRef .tc main_v48) (held_ref main_v48 (by decide)),
        (h (Proc.devRef .tc main_arg0) (held_ref main_arg0 (by decide))).trans (Gen.V6_main_arg0 m (outs m) c),
        (h (Proc.devRef .tc main_arg1) (held_ref main_arg1 (by decide))).trans (Gen.V6_main_arg1 m (outs m) c),
        (h (Proc.devRef .tc main_arg2) (held_ref main_arg2 (by decide))).trans (Gen.V6_main_arg2 m (outs m) c),
        (h (Proc.devRef .tc main_arg3) (held_ref main_arg3 (by decide))).trans (Gen.V6_main_arg3 m (outs m) c),
        (h (Proc.devRef .tc main_arg4) (held_ref main_arg4 (by decide))).trans (Gen.V6_main_arg4 m (outs m) c),
        (h (Proc.devRef .tc main_arg5) (held_ref main_arg5 (by decide))).trans (Gen.V6_main_arg5 m (outs m) c),
        (h (Proc.devRef .tc main_arg6) (held_ref main_arg6 (by decide))).trans (Gen.V6_main_arg6 m (outs m) c),
        (h (Proc.devRef .tc main_arg7) (held_ref main_arg7 (by decide))).trans (Gen.V6_main_arg7 m (outs m) c),
        (h (Proc.devRef .tc main_arg8) (held_ref main_arg8 (by decide))).trans (Gen.V6_main_arg8 m (outs m) c),
        (h (Proc.devRef .tc main_arg9) (held_ref main_arg9 (by decide))).trans (Gen.V6_main_arg9 m (outs m) c)⟩
    · iexact HSI

/-- THE FRAME, at any F: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs (onTc (τ := τ) (main (F := F))) ⟨m, fun _ => 0, ρ⟩).mono (fun _ h c => (h c).2) (run_main m ρ)

end Cert.Kernel.Hand

end
-- ==== Proof.KI.R0.lean ====
import proofs.«120849_j36893769073013_1_alg».proof.Proof.Gen.KernelIdeal.Launch
import proofs.«120849_j36893769073013_1_alg».proof.Proof.Gen.KernelIdeal.Skeleton
import proofs.«120849_j36893769073013_1_alg».proof.Proof.Gen.KernelIdeal.Points
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The first linear layer with its running column sums: the blocks, the tile, the sums -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of the linear layer's result the body stores at point `t`: the aggregated rows times the upper half of
    the weights, plus the feature rows times the lower half, plus the bias, of the five input blocks there. -/
def hblk (c : Dev nD) (t : Fin cfg0.N) : Vec F S2000x128 .f32 :=
  k0_pay6 (blk0 V c 0 t) (blk0 V c 1 t) (blk0 V c 2 t) (blk0 V c 3 t) (blk0 V c 4 t)

/-- One point's update of the two running sums `s` (column sums of the tile, and of its square): each has the
    point's tile's column sums added. -/
def accStep (c : Dev nD) (t : Fin cfg0.N) (s : Vec F S1x128 .f32 × Vec F S1x128 .f32) : Vec F S1x128 .f32 × Vec F S1x128 .f32 :=
  (k0_pay7 (blk0 V c 0 t) (blk0 V c 1 t) (blk0 V c 2 t) (blk0 V c 3 t) (blk0 V c 4 t) s.1,
   k0_pay1 s.2 (k0_pay8 (blk0 V c 0 t) (blk0 V c 1 t) (blk0 V c 2 t) (blk0 V c 3 t) (blk0 V c 4 t)))

/-- What the two running sums hold after the body at point `n`: from zero at the first point, then each point's
    update of what the point before left. -/
def acc (c : Dev nD) : (n : ℕ) → n < cfg0.N → Vec F S1x128 .f32 × Vec F S1x128 .f32
  | 0, hn => accStep V c ⟨0, hn⟩ (k0_pay4, k0_pay5)
  | n + 1, hn => accStep V c ⟨n + 1, hn⟩ (acc c n (Nat.lt_of_succ_lt hn))

theorem acc_zero (c : Dev nD) (hn : 0 < cfg0.N) : acc V c 0 hn = accStep V c ⟨0, hn⟩ (k0_pay4, k0_pay5) := rfl
theorem acc_succ (c : Dev nD) (n : ℕ) (hn : n + 1 < cfg0.N) :
    acc V c (n + 1) hn = accStep V c ⟨n + 1, hn⟩ (acc V c n (Nat.lt_of_succ_lt hn)) := rfl

/-- The last point. -/
theorem last_lt : 24 < cfg0.N := Nat.lt_of_lt_of_eq (by decide : 24 < 25) N_0.symm

/-- Row `0` and row `1` of the statistics block. -/
abbrev rRow0 : Rect S2x128 := Rect.unit (s := S2x128) ![0, 0] S1x128.size inb_S2x128_S1x128_0_0
abbrev rRow1 : Rect S2x128 := Rect.unit (s := S2x128) ![1, 0] S1x128.size inb_S2x128_S1x128_1_0

/-- The statistics block the last point stores: the sums in row 0, the sums of squares in row 1 (the two row stores,
    last first). -/
def stats0 (c : Dev nD) : Vec F S2x128 .f32 :=
  View.canon [⟨rRow1, k0_pay3 (acc V c 24 last_lt).2⟩, ⟨rRow0, k0_pay2 (acc V c 24 last_lt).1⟩]

/-! ## The invariant between points -/

/-- The two running sums' buffers. -/
abbrev scM0 : Memref sig .tc .vmem S1x128 .f32 := Memref.whole cc0_scratch0
abbrev scM1 : Memref sig .tc .vmem S1x128 .f32 := Memref.whole cc0_scratch1

/-- The core's scoped buffers other than this pipeline's staging buffers and the two running sums, at anything. -/
abbrev restBut (c : Dev nD) : sProp 𝕄 :=
  Pipeline.scopedRestBut (Ix := Unit) (Name := ℕ) (U := UR sig nD τ) (Lvl := ℕ) (Val := Elt F) spec0 c [cc0_scratch0, cc0_scratch1]

/-- Before point `n`: before the first, every scoped buffer that is no staging buffer at anything, beside the
    generator register; afterwards the two running sums owned at what the point before left (`acc`), the other
    such buffers at anything, the generator register. -/
def PhiS (c : Dev nD) : (n : ℕ) → n ≤ cfg0.N → sProp 𝕄
  | 0, _ => Pipeline.ΦA spec0 c
  | n + 1, hn => iprop(owns (c : Thread nD τ) scM0 fullShare (acc V c n hn).1 ∗ owns (c : Thread nD τ) scM1 fullShare (acc V c n hn).2
      ∗ restBut c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM0 fullShare (acc V c n hn).1 ∗ owns (c : Thread nD τ) scM1 fullShare (acc V c n hn).2
      ∗ restBut c ∗ (∃ r, prngReg c r)) := rfl

theorem PhiS_pos (c : Dev nD) (n : ℕ) (h : n ≤ cfg0.N) (hz : n ≠ 0) :
    PhiS V c n h = iprop(owns (c : Thread nD τ) scM0 fullShare (acc V c (n - 1) (by omega)).1 ∗ owns (c : Thread nD τ) scM1 fullShare (acc V c (n - 1) (by omega)).2
      ∗ restBut c ∗ (∃ r, prngReg c r)) := by
  cases n with
  | zero => exact absurd rfl hz
  | succ n => rfl

/-! ## The pipeline's proof data -/

/-- The proof data of the pipeline on core `c`: the arrays as the region finds them; after the body at point `t` each
    input's buffer at its block, the result's at the point's tile, the statistics' at the block the last point stores
    (at the other points the field is not consulted); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => hblk V c t
    | ⟨6, _⟩ => stats0 V c
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
/-- The result window's buffer after the body: the point's tile itself (the one store covers the buffer). -/
theorem after0_5 (c : Dev nD) (t : Fin cfg0.N) : (dat0 V c).after 5 t = hblk V c t := by dsimp only [dat0]
/-- The statistics window's buffer after the body at the last point (and, unconsulted, at every point): the block of
    the two row stores of the sums the last point leaves. -/
theorem after0_6 (c : Dev nD) (t : Fin cfg0.N) : (dat0 V c).after 6 t = stats0 V c := by dsimp only [dat0]

theorem Phi_castSucc (c : Dev nD) (t : Fin cfg0.N) :
    (dat0 V c).Φ t.castSucc = PhiS V c t.val (Nat.le_of_lt t.isLt) := by
  dsimp only [dat0]; simp only [Fin.coe_castSucc]

/-! ## The body's two conditions, and where the statistics window is idle -/

/-- The condition of the body's first `scf.if` (zero the sums): the first point. -/
abbrev cFirst (i : grid0.Coords) : Prop :=
  (Scalar.cmpi .ne (Scalar.extui (Scalar.cmpi .eq (BitVec.ofNat 32 (i 0).val) 0#32)) 0#32) = 1#1
theorem hcFirst : ∀ t : Fin cfg0.N, cFirst (grid0.coords t) ↔ t.val % 25 = 0 :=
  (by decide +kernel : ∀ t : Fin grid0.N, cFirst (grid0.coords t) ↔ t.val % 25 = 0)

/-- The condition of its second (store the sums into the statistics block): the last point. -/
abbrev cLast (i : grid0.Coords) : Prop := k0_cond2 i = 1#1
theorem hcLast : ∀ t : Fin cfg0.N, cLast (grid0.coords t) ↔ t.val % 25 = 24 :=
  (by decide +kernel : ∀ t : Fin grid0.N, cLast (grid0.coords t) ↔ t.val % 25 = 24)

/-- No window but the statistics' is ever idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- The statistics window is idle, and not written back, at every point but the last; live at the last. -/
theorem idle0_6 : ∀ t : Fin cfg0.N, ¬cLast (grid0.coords t) → cfg0.idle 6 (grid0.coords t) = true := by decide +kernel
theorem noFlush0_6 : ∀ t : Fin cfg0.N, ¬cLast (grid0.coords t) → (cfg0.win 6).flush t = false := by decide +kernel
theorem live0_6 : ∀ t : Fin cfg0.N, cLast (grid0.coords t) → cfg0.idle 6 (grid0.coords t) = false := by decide +kernel

/-! ## One store through the whole buffer, one load through it -/

theorem hz2 : (![0, 0] : Fin 2 → Nat) = fun _ => 0 := funext fun a => by fin_cases a <;> rfl
theorem hz1 : (![0] : Fin 1 → Nat) = fun _ => 0 := funext fun a => by fin_cases a <;> rfl

section Whole
variable {sig' : RefSig} {κ : Kind} {sp : Space} {S : Shape} {e : EltTy} {Val : EltTy → Type} [∀ e, Nonempty (Val e)]

/-- A buffer last stored through the rectangle that is all of it reads as that store's payload. -/
theorem read_store_whole (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load through that rectangle reads the buffer. -/
theorem readAt_whole (v : View sig' κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

end Whole

/-- The loads and stores of a run through whole buffers, read. -/
local macro "read_whole" : tactic => `(tactic|
  simp only [read_store_whole (S := S2000x128) _ _ hz2, read_store_whole (S := S1x128) _ _ hz2,
    readAt_whole (S := S2000x128) _ _ hz2, readAt_whole (S := S128x128) _ _ hz2, readAt_whole (S := S128) _ _ hz1,
    readAt_whole (S := S1x128) _ _ hz2, View.readCov_unit_zero (S := S1x128) _ hz2])

/-! ## The body on any whole memrefs, case by case -/

set_option maxHeartbeats 4000000 in
/-- The first point: the inputs at their contents, the result's buffer and the two sums' at anything; the body zeroes
    the sums, leaves the tile in the result's buffer and each sum at the tile's column sums added to zero. -/
theorem run_first (c : Dev nD) (E : Set ℕ) (i : grid0.Coords) (hc1 : cFirst i) (hc2 : ¬cLast i)
    (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S2000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (x0 x1 : Vec F S2000x128 .f32) (x2 x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay6 x0 x1 x2 x3 x4)
            ∗ owns (c : Thread nD τ) arg8 fullShare (k0_pay7 x0 x1 x2 x3 x4 k0_pay4)
            ∗ owns (c : Thread nD τ) arg9 fullShare (k0_pay1 k0_pay5 (k0_pay8 x0 x1 x2 x3 x4))) -∗ K ⟨⟩))
      ⊢ wp frame (wpE (defs₀ (F := F)) Variants.none c none) E (cc0__linear1_stats_kernel i arg1 harg1 arg2 harg2 arg3 harg3 arg4 harg4 arg5 harg5 arg6 harg6 arg7 harg7 arg8 harg8 arg9 harg9) K := by
  simp only [cc0__linear1_stats_kernel_eq_skeleton]; unfold cc0__linear1_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  subst hf0; subst hf1; subst hf2; subst hf3; subst hf4
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro; sl_unfold_words; read_whole
  isplitl [H8]
  · iexists _; isplitr
    swap; · iexact H8
    ipureintro; sl_unfold_words; read_whole
  · iexists _; isplitr
    swap; · iexact H9
    ipureintro; sl_unfold_words; read_whole

set_option maxHeartbeats 4000000 in
/-- A point that is neither the first nor the last: the inputs at their contents, the result's buffer at anything, the
    two sums at `s0`, `s1`; the body leaves the tile in the result's buffer and each sum updated. -/
theorem run_mid (c : Dev nD) (E : Set ℕ) (i : grid0.Coords) (hc1 : ¬cFirst i) (hc2 : ¬cLast i)
    (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S2000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (x0 x1 : Vec F S2000x128 .f32) (x2 x3 : Vec F S128x128 .f32) (x4 : Vec F S128 .f32) (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay6 x0 x1 x2 x3 x4)
            ∗ owns (c : Thread nD τ) arg8 fullShare (k0_pay7 x0 x1 x2 x3 x4 s0)
            ∗ owns (c : Thread nD τ) arg9 fullShare (k0_pay1 s1 (k0_pay8 x0 x1 x2 x3 x4))) -∗ K ⟨⟩))
      ⊢ wp frame (wpE (defs₀ (F := F)) Variants.none c none) E (cc0__linear1_stats_kernel i arg1 harg1 arg2 harg2 arg3 harg3 arg4 harg4 arg5 harg5 arg6 harg6 arg7 harg7 arg8 harg8 arg9 harg9) K := by
  simp only [cc0__linear1_stats_kernel_eq_skeleton]; unfold cc0__linear1_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  subst hf0; subst hf1; subst hf2; subst hf3; subst hf4; subst hf8; subst hf9
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro; sl_unfold_words; read_whole
  isplitl [H8]
  · iexists _; isplitr
    swap; · iexact H8
    ipureintro; sl_unfold_words; read_whole
  · iexists _; isplitr
    swap; · iexact H9
    ipureintro; sl_unfold_words; read_whole

/-- The two row stores of the last point tile the statistics block. -/
theorem cover_stats (p1 p0 : Vec F S1x128 .f32) (y : S2x128.Idx) :
    ∃ pc ∈ ([⟨rRow1, p1⟩, ⟨rRow0, p0⟩] : List (View.Piece (Elt F) S2x128 .f32)), y ∈ pc.1.set :=
  View.cover_of_tiledL [⟨rRow1, p1⟩, ⟨rRow0, p0⟩] S1x128.size (by sl_kernel_rfl) y

set_option maxHeartbeats 4000000 in
/-- The last point: as a middle point, and then the two sums stored into rows 0 and 1 of the statistics block, whose
    buffer the body finds at anything. -/
theorem run_last (c : Dev nD) (E : Set ℕ) (i : grid0.Coords) (hc1 : ¬cFirst i) (hc2 : cLast i)
    (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S2000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole)
    (x0 x1 : Vec F S2000x128 .f32) (x2 x3 : Vec F S128x128 .f32) (x4 : Vec F S128 .f32) (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay6 x0 x1 x2 x3 x4)
            ∗ owns (c : Thread nD τ) arg7 fullShare (View.canon [⟨rRow1, k0_pay3 (k0_pay1 s1 (k0_pay8 x0 x1 x2 x3 x4))⟩, ⟨rRow0, k0_pay2 (k0_pay7 x0 x1 x2 x3 x4 s0)⟩])
            ∗ owns (c : Thread nD τ) arg8 fullShare (k0_pay7 x0 x1 x2 x3 x4 s0)
            ∗ owns (c : Thread nD τ) arg9 fullShare (k0_pay1 s1 (k0_pay8 x0 x1 x2 x3 x4))) -∗ K ⟨⟩))
      ⊢ wp frame (wpE (defs₀ (F := F)) Variants.none c none) E (cc0__linear1_stats_kernel i arg1 harg1 arg2 harg2 arg3 harg3 arg4 harg4 arg5 harg5 arg6 harg6 arg7 harg7 arg8 harg8 arg9 harg9) K := by
  simp only [cc0__linear1_stats_kernel_eq_skeleton]; unfold cc0__linear1_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d7, %f7, -, H7⟩, ⟨%f8, %hf8, H8⟩, ⟨%f9, %hf9, H9⟩, Hk⟩
  subst hf0; subst hf1; subst hf2; subst hf3; subst hf4; subst hf8; subst hf9
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro; sl_unfold_words; read_whole
  isplitl [H7]
  · iexists _; isplitr
    swap; · iexact H7
    ipureintro; sl_unfold_words
    rw [View.read_writes_eq_canon _ _ _ (cover_stats _ _)]
    read_whole
  isplitl [H8]
  · iexists _; isplitr
    swap; · iexact H8
    ipureintro; sl_unfold_words; read_whole
  · iexists _; isplitr
    swap; · iexact H9
    ipureintro; sl_unfold_words; read_whole

/-! ## The invariant at the region's two ends -/

/-- The class's invariant with the two running sums' buffers split out as memrefs owned at some contents. -/
theorem PhiA0_eq (c : Dev nD) :
    (Pipeline.ΦA spec0 c : sProp 𝕄)
      = iprop((((∃ d, owns (c : Thread nD τ) scM0 fullShare d) ∗ (∃ d, owns (c : Thread nD τ) scM1 fullShare d)) ∗ restBut c) ∗ (∃ r, prngReg c r)) := by
  unfold Pipeline.ΦA
  rw [Pipeline.scopedRest_split_of_list spec0 c [cc0_scratch0, cc0_scratch1] (by decide) (by decide)]
  simp only [scM0, scM1, owns_whole]
  rfl

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After any point but the first the invariant gives the class's back: the sums' named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, HS1, Hr, Hg⟩
  isplitl [HS0 HS1 Hr]
  · isplitl [HS0 HS1]
    · isplitl [HS0]; · iexists _; iexact HS0
      iexists _; iexact HS1
    iexact Hr
  iexact Hg

/-- The same after the last point. -/
theorem hout0 (c : Dev nD) : (dat0 V c).Φ (Fin.last cfg0.N) ⊢ Pipeline.ΦA spec0 c :=
  Phi_out V c _ (by rw [Fin.val_last]; have : cfg0.N = 25 := N_0; omega)

/-! ## What the body finds in the inputs' buffers -/

/-- Each input's current staging buffer holds its block at every point, fetched there or not. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A_eq0]; try rfl) t d).trans
    (by unfold Dat.fetched Dat.blockOf blk0; rw [A_eq0]; try rfl)
theorem before0_3 (c : Dev nD) (t : Fin cfg0.N) (d) : (dat0 V c).before 3 t d = blk0 V c 3 t :=
  ((dat0 V c).before_in_eq_fetched 3 rfl (fun _ => rfl) (fun _ _ _ => rfl)
    (fun t => by rw [after0_3]; unfold Dat.blockOf blk0; rw [A_eq0]; try rfl) t d).trans
    (by unfold Dat.fetched Dat.blockOf blk0; rw [A_eq0]; try rfl)
theorem before0_4 (c : Dev nD) (t : Fin cfg0.N) (d) : (dat0 V c).before 4 t d = blk0 V c 4 t :=
  ((dat0 V c).before_in_eq_fetched 4 rfl (fun _ => rfl) (fun _ _ _ => rfl)
    (fun t => by rw [after0_4]; unfold Dat.blockOf blk0; rw [A_eq0]; try rfl) t d).trans
    (by unfold Dat.fetched Dat.blockOf blk0; rw [A_eq0]; try rfl)

/-! ## The sums at a point, by whether it is the first -/

theorem acc_first (c : Dev nD) (t : Fin cfg0.N) (h : t.val = 0) : acc V c t.val t.isLt = accStep V c t (k0_pay4, k0_pay5) := by
  obtain ⟨n, hn⟩ := t
  cases n with
  | zero => rfl
  | succ n => exact absurd h (Nat.succ_ne_zero n)

theorem acc_pos (c : Dev nD) (t : Fin cfg0.N) (h : t.val ≠ 0) :
    acc V c t.val t.isLt = accStep V c t (acc V c (t.val - 1) (Nat.lt_of_le_of_lt (Nat.sub_le _ _) t.isLt)) := by
  obtain ⟨n, hn⟩ := t
  cases n with
  | zero => exact absurd rfl h
  | succ n => rfl

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

theorem leaves0_0 (c : Dev nD) (t : Fin cfg0.N) : (dat0 V c).leavesExact 0 t = owns (c : Thread nD τ) (st0_0 t) fullShare (blk0 V c 0 t) := by
  unfold Dat.leavesExact; rw [live0_0 t, after0_0]
theorem leaves0_1 (c : Dev nD) (t : Fin cfg0.N) : (dat0 V c).leavesExact 1 t = owns (c : Thread nD τ) (st0_1 t) fullShare (blk0 V c 1 t) := by
  unfold Dat.leavesExact; rw [live0_1 t, after0_1]
theorem leaves0_2 (c : Dev nD) (t : Fin cfg0.N) : (dat0 V c).leavesExact 2 t = owns (c : Thread nD τ) (st0_2 t) fullShare (blk0 V c 2 t) := by
  unfold Dat.leavesExact; rw [live0_2 t, after0_2]
theorem leaves0_3 (c : Dev nD) (t : Fin cfg0.N) : (dat0 V c).leavesExact 3 t = owns (c : Thread nD τ) (st0_3 t) fullShare (blk0 V c 3 t) := by
  unfold Dat.leavesExact; rw [live0_3 t, after0_3]
theorem leaves0_4 (c : Dev nD) (t : Fin cfg0.N) : (dat0 V c).leavesExact 4 t = owns (c : Thread nD τ) (st0_4 t) fullShare (blk0 V c 4 t) := by
  unfold Dat.leavesExact; rw [live0_4 t, after0_4]
theorem leaves0_5 (c : Dev nD) (t : Fin cfg0.N) : (dat0 V c).leavesExact 5 t = owns (c : Thread nD τ) (st0_5 t) fullShare (hblk V c t) := by
  unfold Dat.leavesExact; rw [live0_5 t, after0_5]
/-- The statistics window where it is idle: handed back as found; -/
theorem leaves0_6_idle (c : Dev nD) (t : Fin cfg0.N) (h : ¬t.val % 25 = 24) :
    (dat0 V c).leavesExact 6 t = iprop(∃ d, owns (c : Thread nD τ) (st0_6 t) fullShare ((dat0 V c).before 6 t d)) :=
  Dat.leavesExact_idle (dat0 V c) 6 t (idle0_6 t fun hc => h ((hcLast t).mp hc)) (noFlush0_6 t fun hc => h ((hcLast t).mp hc))
/-- at the last point: the block of the two row stores. -/
theorem leaves0_6_last (c : Dev nD) (t : Fin cfg0.N) (h : t.val % 25 = 24) :
    (dat0 V c).leavesExact 6 t = owns (c : Thread nD τ) (st0_6 t) fullShare (stats0 V c) := by
  unfold Dat.leavesExact; rw [live0_6 t ((hcLast t).mpr h), after0_6]

set_option maxHeartbeats 4000000 in
/-- The body at any point: the inputs' memrefs hold their blocks; the closed forms say which case the point is in; the
    invariant hands the body the two sums at what the point before left (at anything at the first point) and takes them
    back at this point's; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5]
  have hN : t.val < 25 := lt_of_lt_of_eq t.isLt (show cfg0.N = 25 from N_0)
  by_cases h1 : t.val % 25 = 0
  · have hz : t.val = 0 := by omega
    have h2 : ¬t.val % 25 = 24 := by omega
    rw [leaves0_6_idle V c t h2, acc_first V c t hz]
    unfold accStep; dsimp only
    rw [Phi_castSucc V c t, PhiS_zero V c _ _ hz, PhiA0_eq]
    iintro ⟨⟨⟨⟨⟨%e0, HS0⟩, ⟨%e1, HS1⟩⟩, Hr⟩, Hg⟩, Ho, ⟨%d0, H0⟩, ⟨%d1, H1⟩, ⟨%d2, H2⟩, ⟨%d3, H3⟩, ⟨%d4, H4⟩, ⟨%d5, H5⟩, H6⟩
    iapply (run_first c Set.univ (grid0.coords t) ((hcFirst t).mpr h1) (fun hc => h2 ((hcLast t).mp hc)) _ _ _ _ _ _ _ _ _ _ _ _ _ _ _ _ _ _
      (blk0 V c 0 t) (blk0 V c 1 t) (blk0 V c 2 t) (blk0 V c 3 t) (blk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexists _; iexact HS1
    iintro ⟨H0, H1, H2, H3, H4, H5, HS0, HS1⟩
    isplitl [HS0 HS1 Hr Hg]
    · isplitl [HS0]; · iexact HS0
      isplitl [HS1]; · iexact HS1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun h => h1 (by rw [h])
    rw [acc_pos V c t hz]
    unfold accStep; dsimp only
    rw [Phi_castSucc V c t, PhiS_pos V c _ _ hz]
    by_cases h2 : t.val % 25 = 24
    · rw [leaves0_6_last V c t h2]
      have ht : t.val = 24 := by omega
      have hacc : stats0 V c = View.canon [⟨rRow1, k0_pay3 (k0_pay1 (acc V c (t.val - 1) (Nat.lt_of_le_of_lt (Nat.sub_le _ _) t.isLt)).2
            (k0_pay8 (blk0 V c 0 t) (blk0 V c 1 t) (blk0 V c 2 t) (blk0 V c 3 t) (blk0 V c 4 t)))⟩,
          ⟨rRow0, k0_pay2 (k0_pay7 (blk0 V c 0 t) (blk0 V c 1 t) (blk0 V c 2 t) (blk0 V c 3 t) (blk0 V c 4 t)
            (acc V c (t.val - 1) (Nat.lt_of_le_of_lt (Nat.sub_le _ _) t.isLt)).1)⟩] := by
        obtain ⟨n, hn⟩ := t
        dsimp only at ht
        subst ht
        rfl
      rw [hacc]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
      iapply (run_last c Set.univ (grid0.coords t) (fun hc => h1 ((hcFirst t).mp hc)) ((hcLast t).mpr h2) _ _ _ _ _ _ _ _ _ _ _ _ _ _ _ _ _ _
        (blk0 V c 0 t) (blk0 V c 1 t) (blk0 V c 2 t) (blk0 V c 3 t) (blk0 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves0_6_idle V c t h2]
      iintro ⟨⟨HS0, HS1, Hr, Hg⟩, Ho, ⟨%d0, H0⟩, ⟨%d1, H1⟩, ⟨%d2, H2⟩, ⟨%d3, H3⟩, ⟨%d4, H4⟩, ⟨%d5, H5⟩, H6⟩
      iapply (run_mid c Set.univ (grid0.coords t) (fun hc => h1 ((hcFirst t).mp hc)) (fun hc => h2 ((hcLast t).mp hc)) _ _ _ _ _ _ _ _ _ _ _ _ _ _ _ _ _ _
        (blk0 V c 0 t) (blk0 V c 1 t) (blk0 V c 2 t) (blk0 V c 3 t) (blk0 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body obligation, at every point. -/
theorem body_obligation0 (c : Dev nD) : BodyObligation (dat0 (F := F) V c) (defs₀ (F := F)) Variants.none () Set.univ := fun t => by
  rw [bigSep_W0, bigSep_W0]
  exact sound_body V c t

end Cert.KernelIdeal.Hand

end
-- ==== Proof.KI.R1.lean ====
import proofs.«120849_j36893769073013_1_alg».proof.Proof.Gen.KernelIdeal.Launch
import proofs.«120849_j36893769073013_1_alg».proof.Proof.Gen.KernelIdeal.Skeleton
import proofs.«120849_j36893769073013_1_alg».proof.Proof.Gen.KernelIdeal.Points
import Idealize.ShloMosaic.Lib.Pipeline.FrameBody
import Idealize.ShloMosaic.Lib.Tactic

/-!
# The second kernel region: an affine map and a rectifier, one row tile per grid point

The region reads a [50000,128] array in 25 row tiles of 2000 rows, together with two [128] vectors
(a per-column scale and a per-column shift), and writes a [50000,128] array tile by tile. On a tile
x it leaves max (x * scale + shift) 0, the two vectors spread along the rows.

The tile moves with the grid point and is brought in at every point; each of the two vectors is one
block, brought in at the first point only. The body writes nothing into their buffers, so at every
point each of the three buffers still holds its window's block: for an input whose block index did
not move since the previous point, the previous point's block is this point's.

Everything is stated at a parameter V: the contents of the core's buffers when the region is
entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## Blocks of the entry contents -/

/-- Block t of window w: its array, as the region finds it, read through the window's rectangle
    at grid point t. -/
def tile1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## What the body writes -/

/-- The whole of a [2000,128] buffer, as one rectangle. -/
abbrev wholeTile : Rect S2000x128 := Rect.unit (s := S2000x128) ![0, 0] S2000x128.size inb_S2000x128_S2000x128_0_0
/-- The whole of a [128] buffer, as one rectangle. -/
abbrev wholeVec : Rect S128 := Rect.unit (s := S128) ![0] S128.size inb_S128_S128_0

/-- The output buffer after the body, from the three input buffers' contents: one store over the
    whole buffer, of the rectified affine image of what the three loads read. -/
def reluTile (x : Vec F S2000x128 .f32) (a b : Vec F S128 .f32) : Vec F S2000x128 .f32 :=
  View.canon [⟨wholeTile, k1_pay1 (View.ld x wholeTile) (View.ld a wholeVec) (View.ld b wholeVec)⟩]

/-- That one store covers the buffer. -/
theorem reluTile_cover (p : Vec F S2000x128 .f32) (y : S2000x128.Idx) :
    ∃ pc ∈ ([⟨wholeTile, p⟩] : List (View.Piece (Elt F) S2000x128 .f32)), y ∈ pc.1.set :=
  View.cover_of_tiled [⟨wholeTile, p⟩] S2000x128.size (by rfl) y

/-! ## The proof data -/

/-- The region's proof data on core c: the arrays as found; after the body at point t each input
    buffer at its block and the output buffer at the rectified affine image of the three blocks;
    the invariant that of a body keeping nothing between points; nothing owed; full shares. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => reluTile (tile1 V c 0 t) (tile1 V c 1 t) (tile1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_x (c : Dev nD) (t : Fin cfg1.N) : (dat1 V c).after 0 t = tile1 V c 0 t := by dsimp only [dat1]
theorem after1_scale (c : Dev nD) (t : Fin cfg1.N) : (dat1 V c).after 1 t = tile1 V c 1 t := by dsimp only [dat1]
theorem after1_shift (c : Dev nD) (t : Fin cfg1.N) : (dat1 V c).after 2 t = tile1 V c 2 t := by dsimp only [dat1]
theorem after1_out (c : Dev nD) (t : Fin cfg1.N) :
    (dat1 V c).after 3 t = reluTile (tile1 V c 0 t) (tile1 V c 1 t) (tile1 V c 2 t) := by dsimp only [dat1]

/-! ## What the body finds in the input buffers -/

/-- The tile's buffer holds block t of the array at point t (it is brought in at every point). -/
theorem before1_x (c : Dev nD) (t : Fin cfg1.N) (d) : (dat1 V c).before 0 t d = tile1 V c 0 t := by
  rw [(dat1 V c).before_in_eq_fetched 0 rfl (fun _ => rfl) (fun _ _ _ => rfl)
    (fun s => by rw [after1_x]; rfl) t d]
  rfl

/-- The scale's buffer holds the scale at every point, though it is brought in at the first only:
    its block index never moves. -/
theorem before1_scale (c : Dev nD) (t : Fin cfg1.N) (d) : (dat1 V c).before 1 t d = tile1 V c 1 t := by
  rw [(dat1 V c).before_in_eq_fetched 1 rfl (fun _ => rfl) (fun _ _ _ => rfl)
    (fun s => by rw [after1_scale]; rfl) t d]
  rfl

/-- The shift's buffer likewise. -/
theorem before1_shift (c : Dev nD) (t : Fin cfg1.N) (d) : (dat1 V c).before 2 t d = tile1 V c 2 t := by
  rw [(dat1 V c).before_in_eq_fetched 2 rfl (fun _ => rfl) (fun _ _ _ => rfl)
    (fun s => by rw [after1_shift]; rfl) t d]
  rfl

/-! ## The body on whole buffers -/

set_option maxHeartbeats 1000000 in
/-- The body, given the three input buffers whole at contents x, a, b and the output buffer whole
    at anything, runs to a continuation that is handed the inputs back unchanged and the output at
    reluTile x a b: three loads, a load of the output buffer whose value is dropped, one store over
    the whole output buffer. -/
theorem relu_body (c : Dev nD) (E : Set ℕ) (i : grid1.Coords)
    (mx : Memref sig .tc .vmem S2000x128 .f32) (hmx : mx.IsWhole)
    (ma : Memref sig .tc .vmem S128 .f32) (hma : ma.IsWhole)
    (mb : Memref sig .tc .vmem S128 .f32) (hmb : mb.IsWhole)
    (mo : Memref sig .tc .vmem S2000x128 .f32) (hmo : mo.IsWhole)
    (x : Vec F S2000x128 .f32) (a b : Vec F S128 .f32) (K : PUnit → sProp 𝕄) :
    iprop((∃ d, owns (c : Thread nD τ) mo fullShare d)
        ∗ owns (c : Thread nD τ) mx fullShare x
        ∗ owns (c : Thread nD τ) ma fullShare a
        ∗ owns (c : Thread nD τ) mb fullShare b
        ∗ (iprop(owns (c : Thread nD τ) mo fullShare (reluTile x a b)
            ∗ owns (c : Thread nD τ) mx fullShare x
            ∗ owns (c : Thread nD τ) ma fullShare a
            ∗ owns (c : Thread nD τ) mb fullShare b) -∗ K ⟨⟩))
      ⊢ wp frame (wpE (defs₀ (F := F)) Variants.none c none) E
          (cc1__affine_relu_kernel i mx hmx ma hma mb hmb mo hmo) K := by
  rw [cc1__affine_relu_kernel_eq_skeleton]
  unfold cc1__affine_relu_kernel_skel owns
  iintro ⟨⟨%d, %go, -, Ho⟩, ⟨%gx, %ex, Hx⟩, ⟨%ga, %ea, Ha⟩, ⟨%gb, %eb, Hb⟩, Hk⟩
  subst ex ea eb
  sl_exec
  sl_step
  iapply Hk
  isplitl [Ho]
  · iexists _
    isplitr
    rotate_left
    · iexact Ho
    · ipureintro
      exact View.read_writes_eq_canon _ _ _ (reluTile_cover _)
  isplitl [Hx]
  · iexists gx
    isplitr
    · ipureintro; rfl
    · iexact Hx
  isplitl [Ha]
  · iexists ga
    isplitr
    · ipureintro; rfl
    · iexact Ha
  iexists gb
  isplitr
  · ipureintro; rfl
  · iexact Hb

/-! ## The body obligation -/

/-- The body at grid point t, the four windows written out: it is called with the invariant, the
    tallies, and each window's current buffer whole (the inputs' at their blocks, by the three
    lemmas above; the output's at anything), and returns the same with the output's buffer at the
    rectified affine image of the three blocks. The invariant and the tallies are not touched. -/
theorem relu_point (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t))) := by
  have hΦ : ∀ k, (dat1 V c).Φ k = Pipeline.ΦA spec1 c := fun _ => rfl
  have hO : (dat1 V c).owesAt () t.succ = (dat1 V c).owesAt () t.castSucc := rfl
  rw [hΦ, hΦ, hO]
  simp only [before1_x, before1_scale, before1_shift, after1_x, after1_scale, after1_shift, after1_out]
  iintro ⟨HΦ, Hτ, ⟨%d0, Hx⟩, ⟨%d1, Ha⟩, ⟨%d2, Hb⟩, Ho⟩
  iapply (relu_body c Set.univ _ _ _ _ _ _ _ _ _ (tile1 V c 0 t) (tile1 V c 1 t) (tile1 V c 2 t) _)
  isplitl [Ho]
  · icases Ho with ⟨%d3, Ho⟩
    iexists _
    iexact Ho
  isplitl [Hx]
  · iexact Hx
  isplitl [Ha]
  · iexact Ha
  isplitl [Hb]
  · iexact Hb
  iintro ⟨Ho, Hx, Ha, Hb⟩
  isplitl [HΦ]
  · iexact HΦ
  isplitl [Hτ]
  · iexact Hτ
  isplitl [Hx]
  · iexact Hx
  isplitl [Ha]
  · iexact Ha
  isplitl [Hb]
  · iexact Hb
  iexact Ho

/-- The library's body obligation, at every point: its two separating products over the four
    windows written out are the statement above. -/
theorem body_obligation1 (c : Dev nD) :
    BodyObligation (dat1 (F := F) V c) (defs₀ (F := F)) Variants.none () Set.univ := fun t => by
  rw [bigSep_W1, bigSep_W1]
  exact relu_point V c t

end Cert.KernelIdeal.Hand

end
-- ==== Proof.KI.R2.lean ====
/-
  The second linear layer as a pipeline: out = agg2 · W2[:128] + h · W2[128:] + b2, one tile of 2000 rows per grid point,
  25 points.

  Six windows. Windows 0 and 1 are the row tiles of the two 50000×128 operands (the aggregated hidden features and the
  hidden features themselves): tile i of each at point i. Windows 2, 3 and 4 are the two 128×64 halves of the weight
  matrix and the bias vector, each whole: brought in once, at the first point, and left in place. Window 5 is the
  result's row tile, 2000×64, written back at every point.

  The module gives this pipeline's proof data at ARBITRARY contents V of the core's buffers when the region is entered,
  and shows that the kernel body meets the pipeline's obligation at every point: handed the five input buffers at their
  tiles and the output buffer at anything, it leaves the inputs as it found them and the output holding the tile's
  image under the layer.
-/
import proofs.«120849_j36893769073013_1_alg».proof.Proof.Gen.KernelIdeal.Launch
import proofs.«120849_j36893769073013_1_alg».proof.Proof.Gen.KernelIdeal.Skeleton
import proofs.«120849_j36893769073013_1_alg».proof.Proof.Gen.KernelIdeal.Points
import Idealize.ShloMosaic.Lib.Pipeline.Frame
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The tiles -/

/-- The part of window w's array that point t stages, read off the entry contents: rows 2000·t … 2000·t + 1999 of
    an operand or of the result, or all of a weight half or of the bias. -/
def tile2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-! ## What the body reads and writes: every access is of a whole staging buffer -/

abbrev allRows : Rect S2000x128 := Rect.unit (s := S2000x128) ![0, 0] S2000x128.size inb_S2000x128_S2000x128_0_0
abbrev allWeights : Rect S128x64 := Rect.unit (s := S128x64) ![0, 0] S128x64.size inb_S128x64_S128x64_0_0
abbrev allBias : Rect S64 := Rect.unit (s := S64) ![0] S64.size inb_S64_S64_0
abbrev allOut : Rect S2000x64 := Rect.unit (s := S2000x64) ![0, 0] S2000x64.size inb_S2000x64_S2000x64_0_0

/-- The result tile's staging buffer after the body, from the five input buffers: its one store, of the layer's
    arithmetic on what the five loads read. -/
def linear2Tile (a h : Vec F S2000x128 .f32) (wa wh : Vec F S128x64 .f32) (b : Vec F S64 .f32) : Vec F S2000x64 .f32 :=
  View.canon [⟨allOut, k2_pay1 (View.ld a allRows) (View.ld h allRows) (View.ld wa allWeights) (View.ld wh allWeights) (View.ld b allBias)⟩]

/-- The one store is of the whole buffer, so it covers it. -/
theorem linear2Tile_cover (p : Vec F S2000x64 .f32) (y : S2000x64.Idx) :
    ∃ pc ∈ ([⟨allOut, p⟩] : List (View.Piece (Elt F) S2000x64 .f32)), y ∈ pc.1.set :=
  View.cover_of_tiled [⟨allOut, p⟩] S2000x64.size (by rfl) y

/-! ## The proof data -/

/-- The pipeline's proof data on core c: the arrays as the region finds them; after the body at point t every input
    buffer still at its tile and the output buffer at the layer's image of the five tiles; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => tile2 V c 2 t
    | ⟨3, _⟩ => tile2 V c 3 t
    | ⟨4, _⟩ => tile2 V c 4 t
    | ⟨5, _⟩ => linear2Tile (tile2 V c 0 t) (tile2 V c 1 t) (tile2 V c 2 t) (tile2 V c 3 t) (tile2 V c 4 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = tile2 V c 0 t := by dsimp only [dat2]
theorem after2_1 (c : Dev nD) (t : Fin cfg2.N) : (dat2 V c).after 1 t = tile2 V c 1 t := by dsimp only [dat2]
theorem after2_2 (c : Dev nD) (t : Fin cfg2.N) : (dat2 V c).after 2 t = tile2 V c 2 t := by dsimp only [dat2]
theorem after2_3 (c : Dev nD) (t : Fin cfg2.N) : (dat2 V c).after 3 t = tile2 V c 3 t := by dsimp only [dat2]
theorem after2_4 (c : Dev nD) (t : Fin cfg2.N) : (dat2 V c).after 4 t = tile2 V c 4 t := by dsimp only [dat2]
theorem after2_5 (c : Dev nD) (t : Fin cfg2.N) :
    (dat2 V c).after 5 t = linear2Tile (tile2 V c 0 t) (tile2 V c 1 t) (tile2 V c 2 t) (tile2 V c 3 t) (tile2 V c 4 t) := by
  dsimp only [dat2]

/-! ## What each input buffer holds when the body runs

An operand's row tile is brought in afresh at every point. A weight half and the bias are brought in at the first
point only; the body leaves them alone and their block never moves, so at every later point the buffer still holds
what was brought in. Either way the buffer holds the window's tile at the point. -/

theorem before2_0 (c : Dev nD) (t : Fin cfg2.N) (d) : (dat2 V c).before 0 t d = tile2 V c 0 t :=
  ((dat2 V c).before_in_eq_fetched 0 rfl (fun _ => rfl) (fun _ _ _ => rfl)
      (fun t => by rw [after2_0]; unfold Dat.blockOf tile2; rw [A_eq2]; try rfl) t d).trans
    (by unfold Dat.fetched Dat.blockOf tile2; rw [A_eq2]; try rfl)
theorem before2_1 (c : Dev nD) (t : Fin cfg2.N) (d) : (dat2 V c).before 1 t d = tile2 V c 1 t :=
  ((dat2 V c).before_in_eq_fetched 1 rfl (fun _ => rfl) (fun _ _ _ => rfl)
      (fun t => by rw [after2_1]; unfold Dat.blockOf tile2; rw [A_eq2]; try rfl) t d).trans
    (by unfold Dat.fetched Dat.blockOf tile2; rw [A_eq2]; try rfl)
theorem before2_2 (c : Dev nD) (t : Fin cfg2.N) (d) : (dat2 V c).before 2 t d = tile2 V c 2 t :=
  ((dat2 V c).before_in_eq_fetched 2 rfl (fun _ => rfl) (fun _ _ _ => rfl)
      (fun t => by rw [after2_2]; unfold Dat.blockOf tile2; rw [A_eq2]; try rfl) t d).trans
    (by unfold Dat.fetched Dat.blockOf tile2; rw [A_eq2]; try rfl)
theorem before2_3 (c : Dev nD) (t : Fin cfg2.N) (d) : (dat2 V c).before 3 t d = tile2 V c 3 t :=
  ((dat2 V c).before_in_eq_fetched 3 rfl (fun _ => rfl) (fun _ _ _ => rfl)
      (fun t => by rw [after2_3]; unfold Dat.blockOf tile2; rw [A_eq2]; try rfl) t d).trans
    (by unfold Dat.fetched Dat.blockOf tile2; rw [A_eq2]; try rfl)
theorem before2_4 (c : Dev nD) (t : Fin cfg2.N) (d) : (dat2 V c).before 4 t d = tile2 V c 4 t :=
  ((dat2 V c).before_in_eq_fetched 4 rfl (fun _ => rfl) (fun _ _ _ => rfl)
      (fun t => by rw [after2_4]; unfold Dat.blockOf tile2; rw [A_eq2]; try rfl) t d).trans
    (by unfold Dat.fetched Dat.blockOf tile2; rw [A_eq2]; try rfl)

/-! ## The body's triple -/

set_option maxHeartbeats 1000000 in
/-- The body on whole staging buffers, the five inputs' at contents a, h, wa, wh, b and the output's at anything, runs to
    the continuation holding the inputs' as they were and the output's at the layer's image of the five. The load of
    the output buffer the body makes before its store reads whatever is there and the value goes unused. -/
theorem linear2_body (c : Dev nD) (E : Set ℕ)
    (arg1 : Memref sig .tc .vmem S2000x128 .f32) (harg1 : arg1.IsWhole) (arg2 : Memref sig .tc .vmem S2000x128 .f32) (harg2 : arg2.IsWhole)
    (arg3 : Memref sig .tc .vmem S128x64 .f32) (harg3 : arg3.IsWhole) (arg4 : Memref sig .tc .vmem S128x64 .f32) (harg4 : arg4.IsWhole)
    (arg5 : Memref sig .tc .vmem S64 .f32) (harg5 : arg5.IsWhole) (arg6 : Memref sig .tc .vmem S2000x64 .f32) (harg6 : arg6.IsWhole)
    (i : grid2.Coords) (a h : Vec F S2000x128 .f32) (wa wh : Vec F S128x64 .f32) (b : Vec F S64 .f32) (K : PUnit → sProp 𝕄) :
    iprop(owns (c : Thread nD τ) arg1 fullShare a ∗ owns (c : Thread nD τ) arg2 fullShare h
        ∗ owns (c : Thread nD τ) arg3 fullShare wa ∗ owns (c : Thread nD τ) arg4 fullShare wh
        ∗ owns (c : Thread nD τ) arg5 fullShare b ∗ (∃ d, owns (c : Thread nD τ) arg6 fullShare d)
        ∗ (iprop(owns (c : Thread nD τ) arg1 fullShare a ∗ owns (c : Thread nD τ) arg2 fullShare h
            ∗ owns (c : Thread nD τ) arg3 fullShare wa ∗ owns (c : Thread nD τ) arg4 fullShare wh
            ∗ owns (c : Thread nD τ) arg5 fullShare b ∗ owns (c : Thread nD τ) arg6 fullShare (linear2Tile a h wa wh b)) -∗ K ⟨⟩))
      ⊢ wp frame (wpE (defs₀ (F := F)) Variants.none c none) E (cc2__linear2_kernel i arg1 harg1 arg2 harg2 arg3 harg3 arg4 harg4 arg5 harg5 arg6 harg6) K := by
  simp only [cc2__linear2_kernel_eq_skeleton]; unfold cc2__linear2_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (linear2Tile_cover _)

/-! ## The body obligation, at a generic point -/

/-- What the body is called with at point t: the invariant, the core's dues, and each window's current staging
    buffer at what it holds there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their tiles, so the body's triple applies; the invariant and the
    core's dues pass through unread. -/
theorem linear2_body_at (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (linear2_body c Set.univ _ _ _ _ _ _ _ _ _ _ _ _ _ (tile2 V c 0 t) (tile2 V c 1 t) (tile2 V c 2 t) (tile2 V c 3 t) (tile2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact linear2_body_at V c t

end Cert.KernelIdeal.Hand

end
-- ==== Proof.KI.Dats.lean ====
import proofs.«120849_j36893769073013_1_alg».proof.Proof.KI.R0
import proofs.«120849_j36893769073013_1_alg».proof.Proof.KI.R1
import proofs.«120849_j36893769073013_1_alg».proof.Proof.KI.R2
import proofs.«120849_j36893769073013_1_alg».proof.Proof.Gen.KernelIdeal.Regions
import Idealize.ShloMosaic.Lib.Pipeline.FrameSuffix

/-!
# What the three kernel regions leave, and each region's proof data at the contents it is entered from

The valuations between the items of @main are written over unknowns: the contents a region leaves
in the arrays it may change. Here the unknowns are named. A region's arrays end at what the
write-backs of all its grid points leave, computed from the region's proof data at the contents
the region is entered from; those contents in turn depend only on what the regions BEFORE it
left. So the unknowns are filled in stage by stage, each stage written over the earlier ones, and
the whole is then one function of the item number.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The contents the three regions leave, and every region's proof data at its entry contents -/

variable (m : (ℓ : Loc nD τ sig) → Buf (Elt F) ℓ)

/-- A core's buffer contents read at the TensorCore's references: the form a region's proof data take. -/
abbrev atTc (W : Dev nD → Valuation τ sig (Elt F)) :
    (c : Dev nD) → (b : Ref sig .tc) → Buf (Elt F) ((c : Thread nD τ).loc b) := fun c b => W c b

/-! ## Stage by stage: each region's leavings are written over the stages before it only -/

/-- Core c's buffers when the first region returns: its seven arrays at what the write-backs of
    all 25 points leave, every other buffer as the region found it. -/
def exit0 (c : Dev nD) : Valuation τ sig (Elt F) :=
  Pipeline.withArrays spec0 c (Gen.V1 m c) fun w => (dat0 (atTc (Gen.V1 m)) c).arrAt w cfg0.N

theorem exit0_arr (c : Dev nD) (w : Fin cfg0.W) :
    exit0 m c (Proc.devRef .tc (Pipeline.arrRef spec0 w)) = (dat0 (atTc (Gen.V1 m)) c).arrAt w cfg0.N := by
  unfold exit0; exact Pipeline.withArrays_arr spec0 launch0.win.arr_inj c _ _ w
theorem exit0_of_ne (c : Dev nD) (b : Ref sig .tc) (hb : ∀ w, Pipeline.arrRef spec0 w ≠ b) :
    exit0 m c (Proc.devRef .tc b) = Gen.V1 m c (Proc.devRef .tc b) := by
  unfold exit0; exact Pipeline.withArrays_of_ne spec0 c _ _ b hb

/-- The unknowns of the valuations, with only the first region's leavings filled in. -/
def outsUpTo0 : Gen.Outs (F := F) := fun _ r c => exit0 m c (Proc.devRef .tc r)

/-- Core c's buffers when the second region returns, over the first region's leavings. -/
def exit1 (c : Dev nD) : Valuation τ sig (Elt F) :=
  Pipeline.withArrays spec1 c (Gen.V3 m (outsUpTo0 m) c) fun w =>
    (dat1 (atTc (Gen.V3 m (outsUpTo0 m))) c).arrAt w cfg1.N

theorem exit1_arr (c : Dev nD) (w : Fin cfg1.W) :
    exit1 m c (Proc.devRef .tc (Pipeline.arrRef spec1 w))
      = (dat1 (atTc (Gen.V3 m (outsUpTo0 m))) c).arrAt w cfg1.N := by
  unfold exit1; exact Pipeline.withArrays_arr spec1 launch1.win.arr_inj c _ _ w

/-- The unknowns with the first two regions' leavings filled in. -/
def outsUpTo1 : Gen.Outs (F := F) := fun J r c =>
  match J with
  | 4 => exit1 m c (Proc.devRef .tc r)
  | _ => exit0 m c (Proc.devRef .tc r)

/-- Core c's buffers when the third region returns, over the first two regions' leavings. -/
def exit2 (c : Dev nD) : Valuation τ sig (Elt F) :=
  Pipeline.withArrays spec2 c (Gen.V5 m (outsUpTo1 m) c) fun w =>
    (dat2 (atTc (Gen.V5 m (outsUpTo1 m))) c).arrAt w cfg2.N

theorem exit2_arr (c : Dev nD) (w : Fin cfg2.W) :
    exit2 m c (Proc.devRef .tc (Pipeline.arrRef spec2 w))
      = (dat2 (atTc (Gen.V5 m (outsUpTo1 m))) c).arrAt w cfg2.N := by
  unfold exit2; exact Pipeline.withArrays_arr spec2 launch2.win.arr_inj c _ _ w

/-- WHAT THE REGIONS LEAVE: item 2 reads the first region's leavings, item 4 the second's, item 6
    the third's. -/
def outs : Gen.Outs (F := F) := fun J r c =>
  match J with
  | 6 => exit2 m c (Proc.devRef .tc r)
  | 4 => exit1 m c (Proc.devRef .tc r)
  | _ => exit0 m c (Proc.devRef .tc r)

/-- The second region's entry contents read only the first region's leavings. -/
theorem V3_outs (c : Dev nD) : Gen.V3 m (outs m) c = Gen.V3 m (outsUpTo0 m) c := rfl
/-- The third region's entry contents read only the first two regions' leavings. -/
theorem V5_outs (c : Dev nD) : Gen.V5 m (outs m) c = Gen.V5 m (outsUpTo1 m) c := rfl

/-! ## The proof data family -/

/-- Every region's proof data, each at the contents its region is entered from. -/
def pdats : (p : Fin 3) → (c : Dev nD) → Dat τ (Elt F) Unit ℕ (UR sig nD τ) ℕ (cfgs p) c
  | ⟨0, _⟩ => fun c => dat0 (atTc (Gen.V1 m)) c
  | ⟨1, _⟩ => fun c => dat1 (atTc (Gen.V3 m (outs m))) c
  | ⟨2, _⟩ => fun c => dat2 (atTc (Gen.V5 m (outs m))) c

/-! ## Reading the leavings back off the valuations -/

/-- After the first region the linear layer's array holds what its write-backs leave. -/
theorem V2_main_v15_0 (c : Dev nD) :
    Gen.V2 m (outs m) c main_v15_0 = (dat0 (atTc (Gen.V1 m)) c).arrAt 5 cfg0.N := by
  show Function.update (Function.update (Gen.V1 m c) main_v15_0 (outs m 2 main_v15_0 c)) main_v15_1 (outs m 2 main_v15_1 c) main_v15_0 = _
  rw [Function.update_of_ne (StableHlo.devRef_ne_of_ne (by decide)), Function.update_self]
  exact exit0_arr m c 5

/-- After the first region the column sums' array holds what its write-back leaves. -/
theorem V2_main_v15_1 (c : Dev nD) :
    Gen.V2 m (outs m) c main_v15_1 = (dat0 (atTc (Gen.V1 m)) c).arrAt 6 cfg0.N := by
  show Function.update (Function.update (Gen.V1 m c) main_v15_0 (outs m 2 main_v15_0 c)) main_v15_1 (outs m 2 main_v15_1 c) main_v15_1 = _
  rw [Function.update_self]
  exact exit0_arr m c 6

/-- After the second region the rectified array holds what its write-backs leave. -/
theorem V4_main_v32 (c : Dev nD) :
    Gen.V4 m (outs m) c main_v32 = (dat1 (atTc (Gen.V3 m (outs m))) c).arrAt 3 cfg1.N := by
  show Function.update (Gen.V3 m (outs m) c) main_v32 (outs m 4 main_v32 c) main_v32 = _
  rw [Function.update_self]
  exact exit1_arr m c 3

/-- After the third region the result array holds what its write-backs leave. -/
theorem V6_main_v48 (c : Dev nD) :
    Gen.V6 m (outs m) c main_v48 = (dat2 (atTc (Gen.V5 m (outs m))) c).arrAt 5 cfg2.N := by
  show Function.update (Gen.V5 m (outs m) c) main_v48 (outs m 6 main_v48 c) main_v48 = _
  rw [Function.update_self]
  exact exit2_arr m c 5

end Cert.KernelIdeal.Hand

end
-- ==== Proof.KI.Segs.lean ====
import proofs.«120849_j36893769073013_1_alg».proof.Proof.KI.Dats
import Idealize.ShloMosaic.Lib.Pipeline.RegionsLoop
import Idealize.ShloMosaic.Lib.Tactic

/-!
# The three kernel regions as segments of @main's run
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The three regions as segments of the run

Between two items core c holds every unscoped buffer whole at the item's valuation, beside its
generator register at some state and its dues at nothing. A region takes its windows' arrays out
of the buffers at entry and puts them back at exit, at what the write-backs of all its points
leave; every other unscoped buffer goes round the region untouched. -/

/-- No pair of cores is assigned a level: no core owes another anything. -/
abbrev L : GSem nD τ sig → Finset Unit := fun _ => ∅
abbrev lv : GSem nD τ sig → Unit → ℕ := fun _ _ => 0

/-- What rides beside the buffers through every item: the generator register at some state, and
    the core owing nothing. -/
abbrev R (c : Dev nD) : sProp 𝕄 :=
  iprop((∃ r, prngReg c r) ∗ ∃ W, owes (c : Thread nD τ) (0 : CellTallies nD τ sig Unit) W)

/-! ## Four entailments every region shares -/

/-- The generator register, any tables and the scoped buffers no window stages make the invariant
    of a body that keeps nothing between points. -/
theorem keepsNothing_of_parts {gr W : Nat} (win : Fin W → Pipeline.WinSpec sig gr) (c : Dev nD) (T : sProp 𝕄) :
    iprop((∃ r, prngReg c r) ∗ T ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hg, -, Hs⟩
  isplitl [Hs]
  · iexact Hs
  · iexact Hg

/-- That invariant gives the register and those scoped buffers back; a kernel with no semaphore of
    its own holds none at zero. -/
theorem parts_of_keepsNothing {gr W : Nat} (win : Fin W → Pipeline.WinSpec sig gr) (c : Dev nD) :
    (Pipeline.ΦA win c : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) win c) := by
  rw [Pipeline.ownSems0_none]
  unfold Pipeline.ΦA
  iintro ⟨Hs, Hg⟩
  isplitl [Hg]
  · iexact Hg
  isplitr
  · iempintro
  · iexact Hs

section Around

variable (pd : (p : Fin 3) → (c : Dev nD) → Dat τ (Elt F) Unit ℕ (UR sig nD τ) ℕ (cfgs p) c)

set_option backward.isDefEq.respectTransparency.types false in
/-- ENTRY of pipeline p from the unscoped buffers at V: its arrays come out at the proof data's
    entry contents, which are V's; no table; the dues at nothing, within any bound; the register;
    the other unscoped buffers at V. -/
theorem enter (p : Fin 3) (lf : Pipeline.LaunchFacts (nD := nD) (τ := τ) cfgs p) (c : Dev nD)
    (hq : ∀ w, (pd p c).q w = fullShare) (ho : (pd p c).owed 0 = 0) (hr : (pd p c).recorded 0 = Set.univ)
    (V : Valuation τ sig (Elt F)) (hA : ∀ w, (pd p c).A w = V (Pipeline.arrRef (cfgs p).spec w)) :
    iprop(iprop(StableHlo.held (c : Thread nD τ) (Pipeline.ucRefs τ sig) V ∗ R c)
        ∗ Pipeline.ownSems0 (fun k : PEmpty => k.elim) c ∗ levAts L lv)
      ⊢ (|={Set.univ}=> iprop((pd p c).arrays ((pd p c).arrAt · 0)
          ∗ Pipeline.prefHeld (pcfgs (F := F) p).pre c (fun _ => fullShare) (Gen.adm p).1
          ∗ (pd p c).owesAt () 0 ∗ (∃ r, prngReg c r)
          ∗ Pipeline.unscopedRest (Ix := Unit) (Name := ℕ) (U := UR sig nD τ) (Lvl := ℕ) (cfgs p).spec c (fun b => V b)) : sProp 𝕄) := by
  have hsplit := Pipeline.arrays_of_unscopedBufs (p := p) (pcfgs (F := F)) Gen.adm pd lf.win lf.arr_whole c
    ((pd p c).share_full hq) (fun b => V b) hA
  rw [Pipeline.unscopedBufs_held] at hsplit
  iintro ⟨⟨Hbufs, Hg, HO⟩, -, -⟩
  ihave H := hsplit $$ Hbufs
  icases H with ⟨Harr, Hrest⟩
  imodintro
  isplitl [Harr]
  · iexact Harr
  isplitr
  · unfold Pipeline.prefHeld
    rw [show (Finset.univ : Finset (Fin (pcfgs (F := F) p).pre.K)) = ∅ from rfl, BI.bigSep_empty]
    iempintro
  isplitl [HO]
  · unfold Pipeline.Dat.owesAt Pipeline.owesWithin
    rw [ho]
    icases HO with ⟨%W, HO⟩
    iexists W
    isplitr
    · ipureintro; unfold Pipeline.Dat.bound; rw [hr]; exact fun _ _ => Or.inl trivial
    · iexact HO
  isplitl [Hg]
  · iexact Hg
  · iexact Hrest

set_option backward.isDefEq.respectTransparency.types false in
/-- EXIT of pipeline p to the unscoped buffers at V': the arrays at what the write-backs of all
    points leave, which is V' there; the other buffers at V, with which V' agrees off the arrays. -/
theorem leave (p : Fin 3) (lf : Pipeline.LaunchFacts (nD := nD) (τ := τ) cfgs p) (c : Dev nD)
    (hq : ∀ w, (pd p c).q w = fullShare) (ho : (pd p c).owed (Fin.last (cfgs p).N) = 0)
    (V V' : Valuation τ sig (Elt F))
    (hF : ∀ w, (pd p c).arrAt w (cfgs p).N = V' (Pipeline.arrRef (cfgs p).spec w))
    (hrest : ∀ b : Ref sig .tc, b ∉ Finset.univ.image (Pipeline.arrRef (cfgs p).spec) → V' b = V b) :
    iprop((pd p c).arrays ((pd p c).arrAt · (cfgs p).N) ∗ (pd p c).owesAt () (Fin.last (cfgs p).N)
        ∗ (∃ r, prngReg c r)
        ∗ Pipeline.unscopedRest (Ix := Unit) (Name := ℕ) (U := UR sig nD τ) (Lvl := ℕ) (cfgs p).spec c (fun b => V b))
      ⊢ (|={Set.univ}=> iprop(StableHlo.held (c : Thread nD τ) (Pipeline.ucRefs τ sig) V' ∗ R c) : sProp 𝕄) := by
  have hjoin := Pipeline.unscopedBufs_of_arrays (p := p) (pcfgs (F := F)) Gen.adm (Ix := Unit) (Name := ℕ) (U := UR sig nD τ) (Lvl := ℕ)
    lf.win lf.arr_whole c pd ((pd p c).share_full hq) (fun b => V b) (fun b => V' b) ((pd p c).arrAt · (cfgs p).N) hF hrest
  rw [Pipeline.unscopedBufs_held] at hjoin
  iintro ⟨Harr, HO, Hg, Hrest⟩
  imodintro
  isplitl [Harr Hrest]
  · iapply hjoin
    isplitl [Harr]
    · iexact Harr
    · iexact Hrest
  isplitl [Hg]
  · iexact Hg
  unfold Pipeline.Dat.owesAt Pipeline.owesWithin
  rw [ho]
  icases HO with ⟨%W, -, HO⟩
  iexists W
  iexact HO

end Around

/-! ## What each region's exit valuation holds -/

/-- An input array of the first region: never written back, and no item-2 unknown sits at it. -/
theorem exit0_in (c : Dev nD) (w : Fin cfg0.W) (hin : (cfg0.win w).isOut = false)
    (hne : Pipeline.arrRef spec0 w ∉ ([main_v15_0, main_v15_1] : List (Ref sig .tc))) :
    (dat0 (atTc (Gen.V1 m)) c).arrAt w cfg0.N = Gen.V2 m (outs m) c (Pipeline.arrRef spec0 w) :=
  ((dat0 (atTc (Gen.V1 m)) c).arrAt_in w hin _).trans
    ((A_eq0 (atTc (Gen.V1 m)) c w).trans (Gen.V2_of m (outs m) c _ hne).symm)

theorem exit0_arrays (c : Dev nD) (w : Fin cfg0.W) :
    (dat0 (atTc (Gen.V1 m)) c).arrAt w cfg0.N = Gen.V2 m (outs m) c (Pipeline.arrRef spec0 w) :=
  match w with
  | ⟨0, _⟩ => exit0_in m c 0 rfl (by decide)
  | ⟨1, _⟩ => exit0_in m c 1 rfl (by decide)
  | ⟨2, _⟩ => exit0_in m c 2 rfl (by decide)
  | ⟨3, _⟩ => exit0_in m c 3 rfl (by decide)
  | ⟨4, _⟩ => exit0_in m c 4 rfl (by decide)
  | ⟨5, _⟩ => (V2_main_v15_0 m c).symm
  | ⟨6, _⟩ => (V2_main_v15_1 m c).symm

theorem exit0_others (c : Dev nD) (b : Ref sig .tc) (hb : b ∉ Finset.univ.image (Pipeline.arrRef spec0)) :
    Gen.V2 m (outs m) c b = Gen.V1 m c b :=
  Gen.V2_of m (outs m) c b fun h => hb (by
    rcases List.mem_cons.mp h with rfl | h
    · exact Finset.mem_image.mpr ⟨5, Finset.mem_univ _, rfl⟩
    rcases List.mem_cons.mp h with rfl | h
    · exact Finset.mem_image.mpr ⟨6, Finset.mem_univ _, rfl⟩
    · cases h)

theorem exit1_in (c : Dev nD) (w : Fin cfg1.W) (hin : (cfg1.win w).isOut = false)
    (hne : Pipeline.arrRef spec1 w ∉ ([main_v32] : List (Ref sig .tc))) :
    (dat1 (atTc (Gen.V3 m (outs m))) c).arrAt w cfg1.N = Gen.V4 m (outs m) c (Pipeline.arrRef spec1 w) :=
  ((dat1 (atTc (Gen.V3 m (outs m))) c).arrAt_in w hin _).trans
    ((A_eq1 (atTc (Gen.V3 m (outs m))) c w).trans (Gen.V4_of m (outs m) c _ hne).symm)

theorem exit1_arrays (c : Dev nD) (w : Fin cfg1.W) :
    (dat1 (atTc (Gen.V3 m (outs m))) c).arrAt w cfg1.N = Gen.V4 m (outs m) c (Pipeline.arrRef spec1 w) :=
  match w with
  | ⟨0, _⟩ => exit1_in m c 0 rfl (by decide)
  | ⟨1, _⟩ => exit1_in m c 1 rfl (by decide)
  | ⟨2, _⟩ => exit1_in m c 2 rfl (by decide)
  | ⟨3, _⟩ => (V4_main_v32 m c).symm

theorem exit1_others (c : Dev nD) (b : Ref sig .tc) (hb : b ∉ Finset.univ.image (Pipeline.arrRef spec1)) :
    Gen.V4 m (outs m) c b = Gen.V3 m (outs m) c b :=
  Gen.V4_of m (outs m) c b fun h => hb (by
    rcases List.mem_cons.mp h with rfl | h
    · exact Finset.mem_image.mpr ⟨3, Finset.mem_univ _, rfl⟩
    · cases h)

theorem exit2_in (c : Dev nD) (w : Fin cfg2.W) (hin : (cfg2.win w).isOut = false)
    (hne : Pipeline.arrRef spec2 w ∉ ([main_v48] : List (Ref sig .tc))) :
    (dat2 (atTc (Gen.V5 m (outs m))) c).arrAt w cfg2.N = Gen.V6 m (outs m) c (Pipeline.arrRef spec2 w) :=
  ((dat2 (atTc (Gen.V5 m (outs m))) c).arrAt_in w hin _).trans
    ((A_eq2 (atTc (Gen.V5 m (outs m))) c w).trans (Gen.V6_of m (outs m) c _ hne).symm)

theorem exit2_arrays (c : Dev nD) (w : Fin cfg2.W) :
    (dat2 (atTc (Gen.V5 m (outs m))) c).arrAt w cfg2.N = Gen.V6 m (outs m) c (Pipeline.arrRef spec2 w) :=
  match w with
  | ⟨0, _⟩ => exit2_in m c 0 rfl (by decide)
  | ⟨1, _⟩ => exit2_in m c 1 rfl (by decide)
  | ⟨2, _⟩ => exit2_in m c 2 rfl (by decide)
  | ⟨3, _⟩ => exit2_in m c 3 rfl (by decide)
  | ⟨4, _⟩ => exit2_in m c 4 rfl (by decide)
  | ⟨5, _⟩ => (V6_main_v48 m c).symm

theorem exit2_others (c : Dev nD) (b : Ref sig .tc) (hb : b ∉ Finset.univ.image (Pipeline.arrRef spec2)) :
    Gen.V6 m (outs m) c b = Gen.V5 m (outs m) c b :=
  Gen.V6_of m (outs m) c b fun h => hb (by
    rcases List.mem_cons.mp h with rfl | h
    · exact Finset.mem_image.mpr ⟨5, Finset.mem_univ _, rfl⟩
    · cases h)

/-! ## The records -/

set_option backward.isDefEq.respectTransparency.types false in
/-- The first region (row tiles of the linear layer, with running column sums kept in scratch):
    entered from the buffers after the first host stretch, left with the layer's array and the sums'
    array at what the write-backs leave. Its invariant is the body's own; the class invariant is
    what enters it before the first point and what it gives back after the last. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (atTc (Gen.V1 m)) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (atTc (Gen.V1 m) c)
  hentry c := enter (pdats m) 0 launch0 c (fun _ => rfl) rfl rfl (Gen.V1 m c) (fun _ => rfl)
  hin c := (keepsNothing_of_parts spec0 c _).trans (hin0 (atTc (Gen.V1 m)) c)
  hout c := (hout0 (atTc (Gen.V1 m)) c).trans (parts_of_keepsNothing spec0 c)
  hexit c := leave (pdats m) 0 launch0 c (fun _ => rfl) rfl (Gen.V1 m c) (Gen.V2 m (outs m) c)
    (exit0_arrays m c) (exit0_others m c)

set_option backward.isDefEq.respectTransparency.types false in
/-- The second region (affine map and rectifier, tile by tile): entered from the buffers after the
    second host stretch, left with the rectified array at what the write-backs leave. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (atTc (Gen.V3 m (outs m))) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (atTc (Gen.V3 m (outs m)) c)
  hentry c := enter (pdats m) 1 launch1 c (fun _ => rfl) rfl rfl (Gen.V3 m (outs m) c) (fun _ => rfl)
  hin c := keepsNothing_of_parts spec1 c _
  hout c := parts_of_keepsNothing spec1 c
  hexit c := leave (pdats m) 1 launch1 c (fun _ => rfl) rfl (Gen.V3 m (outs m) c) (Gen.V4 m (outs m) c)
    (exit1_arrays m c) (exit1_others m c)

set_option backward.isDefEq.respectTransparency.types false in
/-- The third region (row tiles of the second linear layer): entered from the buffers after the
    third host stretch, left with the result array at what the write-backs leave. -/
def reg2 : Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (atTc (Gen.V5 m (outs m))) c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (atTc (Gen.V5 m (outs m)) c)
  hentry c := enter (pdats m) 2 launch2 c (fun _ => rfl) rfl rfl (Gen.V5 m (outs m) c) (fun _ => rfl)
  hin c := keepsNothing_of_parts spec2 c _
  hout c := parts_of_keepsNothing spec2 c
  hexit c := leave (pdats m) 2 launch2 c (fun _ => rfl) rfl (Gen.V5 m (outs m) c) (Gen.V6 m (outs m) c)
    (exit2_arrays m c) (exit2_others m c)

end Cert.KernelIdeal.Hand

end
-- ==== Proof.KI.Run.lean ====
import proofs.«120849_j36893769073013_1_alg».proof.Proof.KI.Segs

/-!
# @main's run, from the launch to the return
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The run of @main

@main is three host stretches and three kernel regions in turn. Core c goes from item to item
holding every unscoped buffer whole at the item's valuation beside R c. The launch makes the first
such state from the launch memory; the last is read against the final memory, which gives the
result array at its last valuation and every argument array at its launch contents. -/

variable (ρ : Dev nD → PrngReg)

/-- The six items of @main on core c: the host stretches from the valuations before them, the
    regions' records, R c riding along everywhere. -/
abbrev items : Dev nD → List (Pipeline.Seg (pcfgs (F := F)) Gen.adm (pdats m) () defs₀ Variants.none L lv) :=
  Gen.segs m (outs m) Variants.none L lv (fun _ c => R c) () (pdats m) (reg0 m) (reg1 m) (reg2 m)

/-- An unscoped reference of the TensorCore is among those the thread state holds. -/
theorem held_ref (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- Every weakly fair execution of @main from memory m with zero counters terminates, and every
    final memory holds the result array at the last valuation and each argument as launched. -/
theorem run_main : θ_run defs (onTc (τ := τ) (main (F := F))) ⟨m, fun _ => 0, ρ⟩ (fun r => ∀ c : Dev nD,
      r.2.mem ((c.tc : Thread nD τ).loc main_v48) = Gen.V6 m (outs m) c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) Gen.adm (pdats m) () cellOf_inj emb₁ defs₀ Variants.none L lv m ρ main
    (items m)
    (fun c Q => by
      rewrite [main_chain c, Pipeline.Seg.run_eq_chain,
        show (items m c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj)) (hu₀ := ?_)
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outs m) c))
    (hch := fun c => ⟨.rfl, .rfl, .rfl, .rfl, .rfl, .rfl, sep_mono .rfl (by iintro ⟨-, HO⟩; iexact HO)⟩)
    (hinit := ?_)
    (QY := fun c s => s.mem ((c.tc : Thread nD τ).loc main_v48) = Gen.V6 m (outs m) c main_v48
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9))
    (hfin := fun c s' => ?_) (hQ := fun _ h => h)
  · -- the launch element is the pipelines' own; no further ghost state per core
    rw [BI.bigSep_emp_const]
    have hown : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
    iintro Hu
    imodintro
    isplitl [Hu]
    · iapply hown; iexact Hu
    · iempintro
  · -- each core by itself: the unscoped buffers are held at the launch valuation, the register is at
    -- its launch state, nothing is owed
    refine Pipeline.initEach L lv fun c => ?_
    rw [show unscopedBufs c (fun b => m ((c : Thread nD τ).loc b))
        = StableHlo.held (c : Thread nD τ) (Pipeline.ucRefs τ sig) (Gen.V0 m c)
      from Pipeline.unscopedBufs_held c (Gen.V0 m c)]
    iintro ⟨⟨Hbufs, -, HO, -, Hg, -⟩, -⟩
    imodintro
    isplitl [Hbufs]
    · iexact Hbufs
    isplitl [Hg]
    · iexists _; iexact Hg
    · iexists ∅; iexact HO
  · -- the end: every held buffer read off the last valuation
    unfold StableHlo.held
    iintro ⟨Hh, HSI⟩
    ihave Hr := (pointsTo_read_all (Pipeline.ucRefs τ sig) (fun b => ((c : Thread nD τ).1, b)) (Gen.V6 m (outs m) c) s') $$ [Hh HSI]
    · isplitl [Hh] <;> iassumption
    icases Hr with ⟨%h, HSI⟩
    imodintro
    isplitr
    · ipureintro
      exact ⟨h (Proc.devRef .tc main_v48) (held_ref main_v48 (by decide)),
        (h (Proc.devRef .tc main_arg0) (held_ref main_arg0 (by decide))).trans (Gen.V6_main_arg0 m (outs m) c),
        (h (Proc.devRef .tc main_arg1) (held_ref main_arg1 (by decide))).trans (Gen.V6_main_arg1 m (outs m) c),
        (h (Proc.devRef .tc main_arg2) (held_ref main_arg2 (by decide))).trans (Gen.V6_main_arg2 m (outs m) c),
        (h (Proc.devRef .tc main_arg3) (held_ref main_arg3 (by decide))).trans (Gen.V6_main_arg3 m (outs m) c),
        (h (Proc.devRef .tc main_arg4) (held_ref main_arg4 (by decide))).trans (Gen.V6_main_arg4 m (outs m) c),
        (h (Proc.devRef .tc main_arg5) (held_ref main_arg5 (by decide))).trans (Gen.V6_main_arg5 m (outs m) c),
        (h (Proc.devRef .tc main_arg6) (held_ref main_arg6 (by decide))).trans (Gen.V6_main_arg6 m (outs m) c),
        (h (Proc.devRef .tc main_arg7) (held_ref main_arg7 (by decide))).trans (Gen.V6_main_arg7 m (outs m) c),
        (h (Proc.devRef .tc main_arg8) (held_ref main_arg8 (by decide))).trans (Gen.V6_main_arg8 m (outs m) c),
        (h (Proc.devRef .tc main_arg9) (held_ref main_arg9 (by decide))).trans (Gen.V6_main_arg9 m (outs m) c)⟩
    · iexact HSI

/-- THE FRAME, at any F: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs (onTc (τ := τ) (main (F := F))) ⟨m, fun _ => 0, ρ⟩).mono (fun _ h c => (h c).2) (run_main m ρ)

end Cert.KernelIdeal.Hand

end
-- ==== Proof.KI.Host.lean ====
/-
  What the host stretches of the kernel's program compute, read off the buffer contents between the regions.

  Between two regions the TensorCore's buffers hold: the launch contents, then each host stretch applied, then what
  a region may change. Here each buffer a region reads is named as a function of what the stretch before it found:
  the sparse aggregation (rows gathered at the source indices, scaled by the edge values, added into the destination
  rows), the two halves of each weight matrix, and the batch statistics turned into a per-column scale and shift.
-/
import proofs.«120849_j36893769073013_1_alg».proof.Proof.Gen.KernelIdeal.Regions
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## The functions -/

/-- The sparse aggregation of a table `x` of 50000 rows: row `src e` (a negative index counted from the end) scaled by
    `vals e`, added into row `dst e`, over the 800000 edges, starting from zeros. -/
def spmm (x : (⟨S50000x128, .f32⟩ : BufTy).Contents (Elt F)) (vals : (⟨S800000, .f32⟩ : BufTy).Contents (Elt F))
    (src dst : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (broadcastInDim S800000x128 ![0, 1] bcast_S800000x1_S800000x128_0_1 (broadcastInDim S800000x1 ![0] bcast_S800000_S800000x1_0 vals))
      (Host.gather gather_S50000x128_S800000x1_S800000x128_1_0_n_n_0_1_1128 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))

/-- Row `0` of the statistics (the column sums) as a vector. -/
def statSum (st : (⟨S2x128, .f32⟩ : BufTy).Contents (Elt F)) : (⟨S128, .f32⟩ : BufTy).Contents (Elt F) :=
  fun i => shapeCast S128 (extractStridedSlice S1x128 ![0, 0] st slices_S2x128_S1x128_0_0) shapeCasts_S1x128_S128 i
/-- Row `1` of the statistics (the column sums of squares) as a vector. -/
def statSumSq (st : (⟨S2x128, .f32⟩ : BufTy).Contents (Elt F)) : (⟨S128, .f32⟩ : BufTy).Contents (Elt F) :=
  fun i => shapeCast S128 (extractStridedSlice S1x128 ![1, 0] st slices_S2x128_S1x128_1_0) shapeCasts_S1x128_S128 i

/-- The number of rows, 50000, on every column. -/
def rowCount : (⟨S128, .f32⟩ : BufTy).Contents (Elt F) := broadcastInDim S128 ![] bcast_S_S128 (constant S_ .f32 0x47435000#32)
/-- The column means: the sums over the number of rows. -/
def colMean (st : (⟨S2x128, .f32⟩ : BufTy).Contents (Elt F)) : (⟨S128, .f32⟩ : BufTy).Contents (Elt F) := Host.divf (statSum st) rowCount
/-- The column variances as the mean of squares less the square of the mean. -/
def colVar (st : (⟨S2x128, .f32⟩ : BufTy).Contents (Elt F)) : (⟨S128, .f32⟩ : BufTy).Contents (Elt F) :=
  subf (Host.divf (statSumSq st) rowCount) (mulf (colMean st) (colMean st))
/-- The per-column scale `gamma / sqrt (var + eps)`. -/
def colScale (st : (⟨S2x128, .f32⟩ : BufTy).Contents (Elt F)) (gamma : (⟨S128, .f32⟩ : BufTy).Contents (Elt F)) : (⟨S128, .f32⟩ : BufTy).Contents (Elt F) :=
  mulf gamma (Host.rsqrt (addf (colVar st) (broadcastInDim S128 ![] bcast_S_S128 (constant S_ .f32 0x3727C5AC#32))))
/-- The per-column shift `beta - mean * scale`. -/
def colShift (st : (⟨S2x128, .f32⟩ : BufTy).Contents (Elt F)) (gamma beta : (⟨S128, .f32⟩ : BufTy).Contents (Elt F)) : (⟨S128, .f32⟩ : BufTy).Contents (Elt F) :=
  subf beta (mulf (colMean st) (colScale st gamma))

variable (m : (ℓ : Loc nD τ sig) → Buf (Elt F) ℓ) (outs : Gen.Outs (F := F))

/-! ## Before region 0: the first aggregation and the halves of the first weight matrix -/

set_option maxHeartbeats 4000000 in
theorem V1_agg (c : Dev nD) : (Gen.V1 m c main_v12 : (⟨S50000x128, .f32⟩ : BufTy).Contents (Elt F))
    = spmm (m ((c.tc : Thread nD τ).loc main_arg0)) (m ((c.tc : Thread nD τ).loc main_arg7)) (m ((c.tc : Thread nD τ).loc main_arg8)) (m ((c.tc : Thread nD τ).loc main_arg9)) := by
  unfold spmm
  dsimp only [Gen.V1, Gen.hostOps0]
  after_results_simp <;> rfl

theorem V1_w1a (c : Dev nD) : (Gen.V1 m c main_v13 : (⟨S128x128, .f32⟩ : BufTy).Contents (Elt F))
    = extractStridedSlice S128x128 ![0, 0] (m ((c.tc : Thread nD τ).loc main_arg1)) slices_S256x128_S128x128_0_0 := by
  dsimp only [Gen.V1, Gen.hostOps0]
  after_results

theorem V1_w1b (c : Dev nD) : (Gen.V1 m c main_v14 : (⟨S128x128, .f32⟩ : BufTy).Contents (Elt F))
    = extractStridedSlice S128x128 ![128, 0] (m ((c.tc : Thread nD τ).loc main_arg1)) slices_S256x128_S128x128_128_0 := by
  dsimp only [Gen.V1, Gen.hostOps0]
  after_results

theorem V1_feat (c : Dev nD) : Gen.V1 m c main_arg0 = m ((c.tc : Thread nD τ).loc main_arg0) :=
  (Gen.V1_of m c main_arg0 (by decide)).trans rfl
theorem V1_b1 (c : Dev nD) : Gen.V1 m c main_arg2 = m ((c.tc : Thread nD τ).loc main_arg2) :=
  (Gen.V1_of m c main_arg2 (by decide)).trans rfl

/-! ## Before region 1: the statistics turned into a scale and a shift -/

theorem V2_gamma (c : Dev nD) : Gen.V2 m outs c main_arg3 = m ((c.tc : Thread nD τ).loc main_arg3) :=
  (Gen.V2_of m outs c main_arg3 (by decide)).trans <| (Gen.V1_of m c main_arg3 (by decide)).trans rfl
theorem V2_beta (c : Dev nD) : Gen.V2 m outs c main_arg4 = m ((c.tc : Thread nD τ).loc main_arg4) :=
  (Gen.V2_of m outs c main_arg4 (by decide)).trans <| (Gen.V1_of m c main_arg4 (by decide)).trans rfl

set_option maxHeartbeats 4000000 in
/-- The scale over what the stretch found at the statistics and at `gamma`. -/
theorem V3_scale' (c : Dev nD) : (Gen.V3 m outs c main_v29 : (⟨S128, .f32⟩ : BufTy).Contents (Elt F))
    = colScale (Gen.V2 m outs c main_v15_1) (Gen.V2 m outs c main_arg3) := by
  unfold colScale colVar colMean rowCount statSum statSumSq
  dsimp only [Gen.V3, Gen.hostOps1]
  after_results_simp <;> rfl

theorem V3_scale (c : Dev nD) : (Gen.V3 m outs c main_v29 : (⟨S128, .f32⟩ : BufTy).Contents (Elt F))
    = colScale (Gen.V2 m outs c main_v15_1) (m ((c.tc : Thread nD τ).loc main_arg3)) :=
  (V3_scale' m outs c).trans (congrArg (colScale (Gen.V2 m outs c main_v15_1)) (V2_gamma m outs c))

set_option maxHeartbeats 4000000 in
/-- The shift over what the stretch found at the statistics, at `gamma` and at `beta`. -/
theorem V3_shift' (c : Dev nD) : (Gen.V3 m outs c main_v31 : (⟨S128, .f32⟩ : BufTy).Contents (Elt F))
    = colShift (Gen.V2 m outs c main_v15_1) (Gen.V2 m outs c main_arg3) (Gen.V2 m outs c main_arg4) := by
  unfold colShift colScale colVar colMean rowCount statSum statSumSq
  dsimp only [Gen.V3, Gen.hostOps1]
  after_results_simp <;> rfl

theorem V3_shift (c : Dev nD) : (Gen.V3 m outs c main_v31 : (⟨S128, .f32⟩ : BufTy).Contents (Elt F))
    = colShift (Gen.V2 m outs c main_v15_1) (m ((c.tc : Thread nD τ).loc main_arg3)) (m ((c.tc : Thread nD τ).loc main_arg4)) := by
  rw [V3_shift' m outs c, V2_gamma m outs c, V2_beta m outs c]

theorem V3_hlin (c : Dev nD) : Gen.V3 m outs c main_v15_0 = Gen.V2 m outs c main_v15_0 :=
  Gen.V3_of m outs c main_v15_0 (by decide)

/-! ## Before region 2: the second aggregation and the halves of the second weight matrix -/

theorem V4_arg (c : Dev nD) (r : Ref sig .tc) (h4 : r ∉ ([main_v32] : List (Ref sig .tc))) (h3 : r ∉ Gen.hostOps1_W)
    (h2 : r ∉ ([main_v15_0, main_v15_1] : List (Ref sig .tc))) (h1 : r ∉ Gen.hostOps0_W) :
    Gen.V4 m outs c r = m ((c.tc : Thread nD τ).loc r) :=
  (Gen.V4_of m outs c r h4).trans <| (Gen.V3_of m outs c r h3).trans <| (Gen.V2_of m outs c r h2).trans <| (Gen.V1_of m c r h1).trans rfl

set_option maxHeartbeats 4000000 in
/-- The second aggregation over what the stretch found at the activations, the edge values and the two index arrays. -/
theorem V5_agg2' (c : Dev nD) : (Gen.V5 m outs c main_v45 : (⟨S50000x128, .f32⟩ : BufTy).Contents (Elt F))
    = spmm (Gen.V4 m outs c main_v32) (Gen.V4 m outs c main_arg7) (Gen.V4 m outs c main_arg8) (Gen.V4 m outs c main_arg9) := by
  unfold spmm
  dsimp only [Gen.V5, Gen.hostOps2]
  after_results_simp <;> rfl

theorem V5_agg2 (c : Dev nD) : (Gen.V5 m outs c main_v45 : (⟨S50000x128, .f32⟩ : BufTy).Contents (Elt F))
    = spmm (Gen.V4 m outs c main_v32) (m ((c.tc : Thread nD τ).loc main_arg7)) (m ((c.tc : Thread nD τ).loc main_arg8)) (m ((c.tc : Thread nD τ).loc main_arg9)) := by
  rw [V5_agg2' m outs c, V4_arg m outs c main_arg7 (by decide) (by decide) (by decide) (by decide),
    V4_arg m outs c main_arg8 (by decide) (by decide) (by decide) (by decide),
    V4_arg m outs c main_arg9 (by decide) (by decide) (by decide) (by decide)]

theorem V5_w2a (c : Dev nD) : (Gen.V5 m outs c main_v46 : (⟨S128x64, .f32⟩ : BufTy).Contents (Elt F))
    = extractStridedSlice S128x64 ![0, 0] (m ((c.tc : Thread nD τ).loc main_arg5)) slices_S256x64_S128x64_0_0 := by
  have e : (Gen.V5 m outs c main_v46 : (⟨S128x64, .f32⟩ : BufTy).Contents (Elt F))
      = extractStridedSlice S128x64 ![0, 0] (Gen.V4 m outs c main_arg5) slices_S256x64_S128x64_0_0 := by
    dsimp only [Gen.V5, Gen.hostOps2]
    after_results
  rw [e, V4_arg m outs c main_arg5 (by decide) (by decide) (by decide) (by decide)]

theorem V5_w2b (c : Dev nD) : (Gen.V5 m outs c main_v47 : (⟨S128x64, .f32⟩ : BufTy).Contents (Elt F))
    = extractStridedSlice S128x64 ![128, 0] (m ((c.tc : Thread nD τ).loc main_arg5)) slices_S256x64_S128x64_128_0 := by
  have e : (Gen.V5 m outs c main_v47 : (⟨S128x64, .f32⟩ : BufTy).Contents (Elt F))
      = extractStridedSlice S128x64 ![128, 0] (Gen.V4 m outs c main_arg5) slices_S256x64_S128x64_128_0 := by
    dsimp only [Gen.V5, Gen.hostOps2]
    after_results
  rw [e, V4_arg m outs c main_arg5 (by decide) (by decide) (by decide) (by decide)]

theorem V5_b2 (c : Dev nD) : Gen.V5 m outs c main_arg6 = m ((c.tc : Thread nD τ).loc main_arg6) :=
  (Gen.V5_of m outs c main_arg6 (by decide)).trans (V4_arg m outs c main_arg6 (by decide) (by decide) (by decide) (by decide))
theorem V5_h (c : Dev nD) : Gen.V5 m outs c main_v32 = Gen.V4 m outs c main_v32 :=
  Gen.V5_of m outs c main_v32 (by decide)

end Cert.KernelIdeal.Hand

end
-- ==== Proof.LibBatchNorm.lean ====
/-
  Batch normalisation on the extended reals, for real-valued data. A column of real data `x` is normalised in two
  spellings: one computes the variance as `E[x²] − mean²` and folds the normalisation into one multiply-add
  `x * scale + shift` with `scale = γ * r`, `shift = β − mean * scale`; the other computes the variance as
  `E[(x − mean)²]` and evaluates `γ * (x − mean) * r + β`; in both `r` is the reciprocal square root of the variance
  plus a positive constant. The two agree, and so do their rectifications `max · 0`. The statements are over the
  scalar operations of the ideal float instance (`Ideal.div`, `Ideal.rsqrt`, and EReal's `+`, `-`, `*`, `max`),
  in the operand orders written above, so that they rewrite the two programs' elementwise operations read at an
  index. Also here: which extended reals are real numbers (closed under the arithmetic used), and the extended
  reals that three float bit patterns denote.
-/
import Idealize.ShloMosaic.PureOps.Ideal
import Idealize.ShloMosaic.PureOps.Ideal.Laws
import Mathlib.Data.EReal.Operations
import Mathlib.Algebra.BigOperators.Group.Finset.Basic
import Mathlib.Algebra.Order.BigOperators.Group.Finset
import Mathlib.Analysis.SpecialFunctions.Sqrt
import Mathlib.Tactic.Ring
import Mathlib.Tactic.FieldSimp
import Mathlib.Tactic.Positivity
import Mathlib.Tactic.NormNum

noncomputable section

namespace Cert.BatchNorm

open Idealize.ShloMosaic
open scoped BigOperators

/-! ## Extended reals that are real numbers -/

/-- An extended real that is (the coercion of) a real number. -/
def IsReal (x : EReal) : Prop := ∃ r : ℝ, x = (r : EReal)

/-- A coerced real is real. -/
theorem isReal_coe (r : ℝ) : IsReal (r : EReal) := ⟨r, rfl⟩

/-- An extended real that is neither infinity is real. -/
theorem isReal_of_ne {x : EReal} (hbot : x ≠ ⊥) (htop : x ≠ ⊤) : IsReal x :=
  ⟨x.toReal, (EReal.coe_toReal htop hbot).symm⟩

/-- A real extended real is neither infinity. -/
theorem IsReal.ne_bot {x : EReal} (h : IsReal x) : x ≠ ⊥ := by
  obtain ⟨r, rfl⟩ := h; exact EReal.coe_ne_bot r

/-- A real extended real is neither infinity. -/
theorem IsReal.ne_top {x : EReal} (h : IsReal x) : x ≠ ⊤ := by
  obtain ⟨r, rfl⟩ := h; exact EReal.coe_ne_top r

/-- Zero is real. -/
theorem isReal_zero : IsReal 0 := ⟨0, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The larger of two reals is real. -/
theorem IsReal.max {x y : EReal} (hx : IsReal x) (hy : IsReal y) : IsReal (max x y) := by
  rcases max_choice x y with h | h <;> rw [h] <;> assumption

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The ideal quotient of a real by a real that is not zero is the real quotient. -/
theorem div_coe_coe (a c : ℝ) (hc : c ≠ 0) : Ideal.div (a : EReal) (c : EReal) = ((a / c : ℝ) : EReal) := by
  rw [Ideal.div_coe hc, ← EReal.coe_mul, mul_one_div]

/-! ## The variance, two ways, over the reals -/

/-- Over the reals: the mean of the squares minus the square of the mean is the mean of the squared deviations. -/
theorem var_eq_real (N : ℕ) (hN : 0 < N) (x : Fin N → ℝ) :
    (∑ n, x n * x n) / (N : ℝ) - ((∑ n, x n) / (N : ℝ)) * ((∑ n, x n) / (N : ℝ))
      = (∑ n, (x n - (∑ m, x m) / (N : ℝ)) * (x n - (∑ m, x m) / (N : ℝ))) / (N : ℝ) := by
  have hN' : (N : ℝ) ≠ 0 := Nat.cast_ne_zero.mpr (Nat.pos_iff_ne_zero.mp hN)
  generalize hμ : (∑ n, x n) / (N : ℝ) = μ
  have hsum : ∑ n, x n = (N : ℝ) * μ := by rw [← hμ]; field_simp
  have hexp : ∑ n, (x n - μ) * (x n - μ)
      = ∑ n, x n * x n - 2 * μ * ∑ n, x n + (N : ℝ) * (μ * μ) := by
    have h1 : ∀ n, (x n - μ) * (x n - μ) = x n * x n - 2 * μ * x n + μ * μ := fun n => by ring
    simp only [h1, Finset.sum_add_distrib, Finset.sum_sub_distrib, ← Finset.mul_sum, Finset.sum_const,
      Finset.card_univ, Fintype.card_fin, nsmul_eq_mul]
    ring
  rw [hexp, hsum]
  field_simp
  ring

/-- Over the reals: the mean of the squared deviations is not negative. -/
theorem var_nonneg_real (N : ℕ) (x : Fin N → ℝ) (μ : ℝ) :
    0 ≤ (∑ n, (x n - μ) * (x n - μ)) / (N : ℝ) :=
  div_nonneg (Finset.sum_nonneg fun n _ => mul_self_nonneg (x n - μ)) (Nat.cast_nonneg N)

/-! ## The variance, two ways, on the extended reals -/

/-- The ideal quotient by `N` of a sum of coerced reals is the coerced real mean. -/
theorem mean_coe (N : ℕ) (hN : 0 < N) (xr : Fin N → ℝ) :
    Ideal.div (∑ n, ((xr n : ℝ) : EReal)) (((N : ℝ) : ℝ) : EReal) = (((∑ n, xr n) / (N : ℝ) : ℝ) : EReal) := by
  have hN' : (N : ℝ) ≠ 0 := Nat.cast_ne_zero.mpr (Nat.pos_iff_ne_zero.mp hN)
  rw [← coe_sum, div_coe_coe _ _ hN']

/-- On the extended reals, for real data: the variance taken as the mean of the squares minus the square of the
mean, and the variance taken as the mean of the squared deviations from the mean, are one real number, and it is
not negative. Sums, products, differences are EReal's; the quotients are the ideal quotient by the real `N`. -/
theorem var_eq (N : ℕ) (hN : 0 < N) (xr : Fin N → ℝ) :
    ∃ v : ℝ, 0 ≤ v ∧
      Ideal.div (∑ n, (xr n : EReal) * (xr n : EReal)) ((N : ℝ) : EReal)
          - Ideal.div (∑ n, (xr n : EReal)) ((N : ℝ) : EReal) * Ideal.div (∑ n, (xr n : EReal)) ((N : ℝ) : EReal)
        = (v : EReal) ∧
      Ideal.div (∑ n, ((xr n : EReal) - Ideal.div (∑ m, (xr m : EReal)) ((N : ℝ) : EReal))
            * ((xr n : EReal) - Ideal.div (∑ m, (xr m : EReal)) ((N : ℝ) : EReal))) ((N : ℝ) : EReal)
        = (v : EReal) := by
  have hN' : (N : ℝ) ≠ 0 := Nat.cast_ne_zero.mpr (Nat.pos_iff_ne_zero.mp hN)
  refine ⟨(∑ n, (xr n - (∑ m, xr m) / (N : ℝ)) * (xr n - (∑ m, xr m) / (N : ℝ))) / (N : ℝ),
    var_nonneg_real N xr _, ?_, ?_⟩
  · rw [mean_coe N hN xr, ← var_eq_real N hN xr]
    simp only [← EReal.coe_mul, ← coe_sum]
    rw [div_coe_coe _ _ hN', ← EReal.coe_sub]
  · rw [mean_coe N hN xr]
    simp only [← EReal.coe_sub, ← EReal.coe_mul, ← coe_sum]
    rw [div_coe_coe _ _ hN']

/-! ## The reciprocal square root -/

/-- The ideal reciprocal square root of a real that is not negative plus a positive real is a real number: the
reciprocal of the real square root of the sum. -/
theorem rsqrt_coe_add (v q : ℝ) (hv : 0 ≤ v) (hq : 0 < q) :
    Ideal.rsqrt ((v : EReal) + (q : EReal)) = (((Real.sqrt (v + q))⁻¹ : ℝ) : EReal) := by
  have hpos : 0 < v + q := add_pos_of_nonneg_of_pos hv hq
  rw [← EReal.coe_add, Ideal.rsqrt_coe, if_neg (not_lt.mpr hpos.le), if_neg hpos.ne']

/-! ## The affine identity -/

/-- For reals `x μ γ β r`, on the extended reals: the folded form `x * scale + shift` with `scale = γ * r` and
`shift = β − μ * scale` is the direct form `γ * (x − μ) * r + β`. -/
theorem affine_eq (x μ γ β r : ℝ) :
    (x : EReal) * ((γ : EReal) * (r : EReal)) + ((β : EReal) - (μ : EReal) * ((γ : EReal) * (r : EReal)))
      = ((γ : EReal) * ((x : EReal) - (μ : EReal))) * (r : EReal) + (β : EReal) := by
  simp only [← EReal.coe_mul, ← EReal.coe_sub, ← EReal.coe_add]
  congr 1
  ring

/-- The same after rectification: the larger of each side and zero. -/
theorem affine_relu_eq (x μ γ β r : ℝ) :
    max ((x : EReal) * ((γ : EReal) * (r : EReal)) + ((β : EReal) - (μ : EReal) * ((γ : EReal) * (r : EReal)))) 0
      = max (((γ : EReal) * ((x : EReal) - (μ : EReal))) * (r : EReal) + (β : EReal)) 0 := by
  rw [affine_eq]

/-! ## Three bit patterns -/

/-- The positive constant added to the variance: the real that the f32 pattern `0x3727C5AC` denotes,
`10995116 · 2⁻⁴⁰` (about `10⁻⁵`). -/
def eps : ℝ := 10995116 / 1099511627776

/-- That constant is positive. -/
theorem eps_pos : 0 < eps := by unfold eps; norm_num

/-- The f32 pattern `0x47435000` denotes the real `50000`. -/
theorem ofBits_50000 : Ideal.ofBits .f32 0x47435000#32 = ((50000 : ℝ) : EReal) := by
  simp [Ideal.ofBits, Ideal.ieee, -EReal.coe_mul]; norm_num

/-- The f32 pattern `0x3727C5AC` denotes the real `10995116 · 2⁻⁴⁰`. -/
theorem ofBits_eps : Ideal.ofBits .f32 0x3727C5AC#32 = ((eps : ℝ) : EReal) := by
  unfold eps
  simp [Ideal.ofBits, Ideal.ieee, -EReal.coe_mul]; norm_num

/-- The f32 pattern of zero denotes zero. -/
theorem ofBits_zero : Ideal.ofBits .f32 0x00000000#32 = 0 := Ideal.ofBits_zero_f32

/-- An extended real that is not one of the two infinities is real. -/
theorem isReal_of_not_top_or_bot {x : EReal} (h : ¬ (x = ⊤ ∨ x = ⊥)) : IsReal x :=
  isReal_of_ne (fun hb => h (Or.inr hb)) (fun ht => h (Or.inl ht))

/-! ## The two normalisations agree -/

/-- One column of batch normalisation followed by rectification, in two spellings, on the extended reals. The data
`x`, the gain `γ` and the offset `β` are real; `c` is the real `N > 0` and `e` a positive real. Folded spelling:
`mean = (∑ x) / c`, `var₁ = (∑ x * x) / c − mean * mean`, `scale = γ * rsqrt (var₁ + e)`,
`shift = β − mean * scale`, result `max (x n * scale + shift) 0`. Direct spelling:
`var₂ = (∑ (x − mean) * (x − mean)) / c`, result `max ((γ * (x n − mean)) * rsqrt (var₂ + e) + β) 0`. The
two results are equal. The intermediate quantities enter through equations, so that any terms equal to them
(definitionally, by `rfl`) can be supplied. -/
theorem bn_relu_agree {N : ℕ} (hN : 0 < N) (x : Fin N → EReal) (hx : ∀ n, IsReal (x n))
    (γ β : EReal) (hγ : IsReal γ) (hβ : IsReal β)
    (c e : EReal) (hc : c = ((N : ℝ) : EReal)) (q : ℝ) (hq : 0 < q) (he : e = (q : EReal))
    (mean var₁ var₂ scale shift : EReal)
    (hmean : mean = Ideal.div (∑ n, x n) c)
    (hvar₁ : var₁ = Ideal.div (∑ n, x n * x n) c - mean * mean)
    (hvar₂ : var₂ = Ideal.div (∑ n, (x n - mean) * (x n - mean)) c)
    (hscale : scale = γ * Ideal.rsqrt (var₁ + e))
    (hshift : shift = β - mean * scale) (n : Fin N) :
    max (x n * scale + shift) 0 = max ((γ * (x n - mean)) * Ideal.rsqrt (var₂ + e) + β) 0 := by
  choose xr hxr using hx
  obtain ⟨g, rfl⟩ := hγ
  obtain ⟨b, rfl⟩ := hβ
  subst hc he
  simp only [hxr] at hmean hvar₁ hvar₂ ⊢
  subst hmean
  obtain ⟨v, hv, h₁, h₂⟩ := var_eq N hN xr
  rw [h₁] at hvar₁
  rw [h₂] at hvar₂
  subst hvar₁ hvar₂ hscale hshift
  rw [rsqrt_coe_add v q hv hq, mean_coe N hN xr]
  exact affine_relu_eq _ _ _ _ _

/-- The same at `N = 50000`, with the divisor, the added constant and the rectification's zero given as the f32
bit patterns `0x47435000` (the real 50000), `0x3727C5AC` (the positive real `eps`) and `0x00000000` (zero). -/
theorem bn_relu_agree_50000 (x : Fin 50000 → EReal) (hx : ∀ n, IsReal (x n))
    (γ β : EReal) (hγ : IsReal γ) (hβ : IsReal β)
    (mean var₁ var₂ scale shift : EReal)
    (hmean : mean = Ideal.div (∑ n, x n) (Ideal.ofBits .f32 0x47435000#32))
    (hvar₁ : var₁ = Ideal.div (∑ n, x n * x n) (Ideal.ofBits .f32 0x47435000#32) - mean * mean)
    (hvar₂ : var₂ = Ideal.div (∑ n, (x n - mean) * (x n - mean)) (Ideal.ofBits .f32 0x47435000#32))
    (hscale : scale = γ * Ideal.rsqrt (var₁ + Ideal.ofBits .f32 0x3727C5AC#32))
    (hshift : shift = β - mean * scale) (n : Fin 50000) :
    max (x n * scale + shift) (Ideal.ofBits .f32 0x00000000#32)
      = max ((γ * (x n - mean)) * Ideal.rsqrt (var₂ + Ideal.ofBits .f32 0x3727C5AC#32) + β)
          (Ideal.ofBits .f32 0x00000000#32) := by
  rw [ofBits_zero]
  have hc : Ideal.ofBits .f32 0x47435000#32 = (((50000 : ℕ) : ℝ) : EReal) := by
    rw [ofBits_50000]; norm_num
  exact bn_relu_agree (N := 50000) (by norm_num) x hx γ β hγ hβ _ _ hc eps eps_pos ofBits_eps
    mean var₁ var₂ scale shift hmean hvar₁ hvar₂ hscale hshift n

/-- In the folded spelling every intermediate quantity is a real number: the mean, the variance (not negative),
the scale and the shift. -/
theorem bn_folded_isReal {N : ℕ} (hN : 0 < N) (x : Fin N → EReal) (hx : ∀ n, IsReal (x n))
    (γ β : EReal) (hγ : IsReal γ) (hβ : IsReal β)
    (c e : EReal) (hc : c = ((N : ℝ) : EReal)) (q : ℝ) (hq : 0 < q) (he : e = (q : EReal))
    (mean var₁ scale shift : EReal)
    (hmean : mean = Ideal.div (∑ n, x n) c)
    (hvar₁ : var₁ = Ideal.div (∑ n, x n * x n) c - mean * mean)
    (hscale : scale = γ * Ideal.rsqrt (var₁ + e))
    (hshift : shift = β - mean * scale) :
    IsReal mean ∧ (∃ v : ℝ, 0 ≤ v ∧ var₁ = (v : EReal)) ∧ IsReal scale ∧ IsReal shift := by
  choose xr hxr using hx
  subst hc he
  simp only [hxr] at hmean hvar₁
  subst hmean
  obtain ⟨v, hv, h₁, -⟩ := var_eq N hN xr
  rw [h₁] at hvar₁
  subst hvar₁
  have hm : IsReal (Ideal.div (∑ n, (xr n : EReal)) ((N : ℝ) : EReal)) := by
    rw [mean_coe N hN xr]; exact isReal_coe _
  have hs : IsReal scale := by
    rw [hscale, rsqrt_coe_add v q hv hq]; exact hγ.mul (isReal_coe _)
  exact ⟨hm, ⟨v, hv, rfl⟩, hs, by rw [hshift]; exact hβ.sub (hm.mul hs)⟩

end Cert.BatchNorm

end
-- ==== Proof.KI.HostIdx.lean ====
/-
  The host stretch between the first and the second region, read at an index on the extended reals: the two rows of
  the statistics as vectors, the column mean, variance, scale and shift entry by entry; the two halves of each weight
  matrix entry by entry; and, for one column, the agreement of the folded normalisation `x * scale + shift` with the
  direct one `γ * (x − mean) * rsqrt (var + eps) + β`, after rectification.
-/
import proofs.«120849_j36893769073013_1_alg».proof.Proof.KI.Host
import proofs.«120849_j36893769073013_1_alg».proof.Proof.LibBatchNorm
import Idealize.ShloMosaic.Lib.IdealHost
import Idealize.ShloMosaic.Lib.ValueIdx
import Idealize.ShloMosaic.Lib.Pipeline.Value

noncomputable section

namespace Cert.KernelIdeal.Hand

open Cert.KernelIdeal Cert.KernelIdeal.Gen Idealize.ShloMosaic
open ValueIdx (ix1 ix2)
open Cert.BatchNorm (IsReal bn_relu_agree_50000)

/-! ## The statistics, row by row -/

/-- Entry `j` of the column sums is entry `(0, j)` of the statistics. -/
theorem statSum_apply (st : FVec Ideal S2x128 .f32) (j : Fin 128) : statSum (F := Ideal) st (ix1 j) = st (ix2 0 j) := by
  unfold statSum
  rw [shapeCast_apply _ shapeCasts_S1x128_S128 (ix1 j) (ix2 0 j)
    (by rw [Shape.rowMajor_val_two, Shape.rowMajor_val_one]; simp)]
  exact extractStridedSlice_apply _ st _ (ix2 0 j) (ix2 0 j) (fun a => by
    match a with
    | ⟨0, _⟩ => rfl
    | ⟨1, _⟩ => simp)

/-- Entry `j` of the column sums of squares is entry `(1, j)` of the statistics. -/
theorem statSumSq_apply (st : FVec Ideal S2x128 .f32) (j : Fin 128) :
    statSumSq (F := Ideal) st (ix1 j) = st (ix2 1 j) := by
  unfold statSumSq
  rw [shapeCast_apply _ shapeCasts_S1x128_S128 (ix1 j) (ix2 0 j)
    (by rw [Shape.rowMajor_val_two, Shape.rowMajor_val_one]; simp)]
  exact extractStridedSlice_apply _ st _ (ix2 0 j) (ix2 1 j) (fun a => by
    match a with
    | ⟨0, _⟩ => rfl
    | ⟨1, _⟩ => simp)

/-! ## Mean, variance, scale and shift, entry by entry -/

/-- The number of rows reads the same word on every column. -/
theorem rowCount_apply (i : S128.Idx) : rowCount (F := Ideal) i = Ideal.ofBits .f32 0x47435000#32 := by
  unfold rowCount
  rw [ValueIdx.broadcastInDim_scalar_apply]
  rfl

/-- The mean of column `j`: its sum over the number of rows. -/
theorem colMean_apply (st : FVec Ideal S2x128 .f32) (j : Fin 128) :
    colMean (F := Ideal) st (ix1 j) = Ideal.div (st (ix2 0 j)) (Ideal.ofBits .f32 0x47435000#32) := by
  unfold colMean
  rw [ValueIdx.hostDivf_apply, statSum_apply, rowCount_apply]

/-- The variance of column `j`: its sum of squares over the number of rows, less the square of its mean. -/
theorem colVar_apply (st : FVec Ideal S2x128 .f32) (j : Fin 128) :
    colVar (F := Ideal) st (ix1 j) = Ideal.div (st (ix2 1 j)) (Ideal.ofBits .f32 0x47435000#32)
      - colMean (F := Ideal) st (ix1 j) * colMean (F := Ideal) st (ix1 j) := by
  unfold colVar
  rw [ValueIdx.subf_apply, ValueIdx.mulf_apply, ValueIdx.hostDivf_apply, statSumSq_apply, rowCount_apply]

/-- The scale of column `j`: the gain times the reciprocal square root of the variance plus the constant. -/
theorem colScale_apply (st : FVec Ideal S2x128 .f32) (γ : FVec Ideal S128 .f32) (j : Fin 128) :
    colScale (F := Ideal) st γ (ix1 j)
      = γ (ix1 j) * Ideal.rsqrt (colVar (F := Ideal) st (ix1 j) + Ideal.ofBits .f32 0x3727C5AC#32) := by
  unfold colScale
  rw [ValueIdx.mulf_apply]
  show γ (ix1 j) * FloatOps.hostUnary .rsqrt (addf (colVar (F := Ideal) st) _ (ix1 j)) = _
  rw [Ideal.hostUnary_rsqrt_def, ValueIdx.addf_apply, ValueIdx.broadcastInDim_scalar_apply]
  rfl

/-- The shift of column `j`: the offset less the mean times the scale. -/
theorem colShift_apply (st : FVec Ideal S2x128 .f32) (γ β : FVec Ideal S128 .f32) (j : Fin 128) :
    colShift (F := Ideal) st γ β (ix1 j)
      = β (ix1 j) - colMean (F := Ideal) st (ix1 j) * colScale (F := Ideal) st γ (ix1 j) := by
  unfold colShift
  rw [ValueIdx.subf_apply, ValueIdx.mulf_apply]

/-! ## The halves of the two weight matrices, entry by entry -/

/-- The upper half of the first weight matrix: row `k` of the half is row `k` of the matrix. -/
theorem w1a_apply (x1 : FVec Ideal S256x128 .f32) (k j : Fin 128) :
    extractStridedSlice S128x128 ![0, 0] x1 slices_S256x128_S128x128_0_0 (ix2 k j)
      = x1 (ix2 ⟨k.val, by omega⟩ j) :=
  extractStridedSlice_apply _ x1 _ (ix2 k j) (ix2 ⟨k.val, by omega⟩ j) (fun a => by
    match a with
    | ⟨0, _⟩ => simp
    | ⟨1, _⟩ => simp)

/-- The lower half of the first weight matrix: row `k` of the half is row `128 + k` of the matrix. -/
theorem w1b_apply (x1 : FVec Ideal S256x128 .f32) (k j : Fin 128) :
    extractStridedSlice S128x128 ![128, 0] x1 slices_S256x128_S128x128_128_0 (ix2 k j)
      = x1 (ix2 ⟨128 + k.val, by omega⟩ j) :=
  extractStridedSlice_apply _ x1 _ (ix2 k j) (ix2 ⟨128 + k.val, by omega⟩ j) (fun a => by
    match a with
    | ⟨0, _⟩ => simp
    | ⟨1, _⟩ => simp)

/-- The upper half of the second weight matrix: row `k` of the half is row `k` of the matrix. -/
theorem w2a_apply (x5 : FVec Ideal S256x64 .f32) (k : Fin 128) (j : Fin 64) :
    extractStridedSlice S128x64 ![0, 0] x5 slices_S256x64_S128x64_0_0 (ix2 k j)
      = x5 (ix2 ⟨k.val, by omega⟩ j) :=
  extractStridedSlice_apply _ x5 _ (ix2 k j) (ix2 ⟨k.val, by omega⟩ j) (fun a => by
    match a with
    | ⟨0, _⟩ => simp
    | ⟨1, _⟩ => simp)

/-- The lower half of the second weight matrix: row `k` of the half is row `128 + k` of the matrix. -/
theorem w2b_apply (x5 : FVec Ideal S256x64 .f32) (k : Fin 128) (j : Fin 64) :
    extractStridedSlice S128x64 ![128, 0] x5 slices_S256x64_S128x64_128_0 (ix2 k j)
      = x5 (ix2 ⟨128 + k.val, by omega⟩ j) :=
  extractStridedSlice_apply _ x5 _ (ix2 k j) (ix2 ⟨128 + k.val, by omega⟩ j) (fun a => by
    match a with
    | ⟨0, _⟩ => simp
    | ⟨1, _⟩ => simp)

/-! ## One column of the normalisation -/

/-- One column of the batch normalisation: the folded form over the scale and shift the statistics give agrees with the
direct form over the column's mean and mean squared deviation, after rectification. `H` is the table of 50000 rows,
`st` the statistics whose row 0 is the column sums of `H` and whose row 1 is the column sums of squares. -/
theorem bn_column (H : FVec Ideal S50000x128 .f32) (hH : ∀ i, IsReal (H i)) (st : FVec Ideal S2x128 .f32)
    (γ β : FVec Ideal S128 .f32) (hγ : ∀ i, IsReal (γ i)) (hβ : ∀ i, IsReal (β i)) (j : Fin 128)
    (h0 : st (ix2 0 j) = ∑ n : Fin 50000, H (ix2 n j))
    (h1 : st (ix2 1 j) = ∑ n : Fin 50000, H (ix2 n j) * H (ix2 n j)) (n : Fin 50000) :
    max (H (ix2 n j) * colScale (F := Ideal) st γ (ix1 j) + colShift (F := Ideal) st γ β (ix1 j))
        (Ideal.ofBits .f32 0x00000000#32)
      = max ((γ (ix1 j) * (H (ix2 n j) - Ideal.div (∑ n' : Fin 50000, H (ix2 n' j)) (Ideal.ofBits .f32 0x47435000#32)))
            * Ideal.rsqrt (Ideal.div (∑ n' : Fin 50000,
                (H (ix2 n' j) - Ideal.div (∑ n'' : Fin 50000, H (ix2 n'' j)) (Ideal.ofBits .f32 0x47435000#32))
                  * (H (ix2 n' j) - Ideal.div (∑ n'' : Fin 50000, H (ix2 n'' j)) (Ideal.ofBits .f32 0x47435000#32)))
                (Ideal.ofBits .f32 0x47435000#32) + Ideal.ofBits .f32 0x3727C5AC#32)
          + β (ix1 j)) (Ideal.ofBits .f32 0x00000000#32) :=
  bn_relu_agree_50000 (fun n => H (ix2 n j)) (fun n => hH _) (γ (ix1 j)) (β (ix1 j)) (hγ _) (hβ _)
    (Ideal.div (∑ n' : Fin 50000, H (ix2 n' j)) (Ideal.ofBits .f32 0x47435000#32))
    (colVar (F := Ideal) st (ix1 j)) _ (colScale (F := Ideal) st γ (ix1 j)) (colShift (F := Ideal) st γ β (ix1 j))
    rfl (by rw [colVar_apply, colMean_apply, h0, h1]) rfl (colScale_apply st γ j)
    (by rw [colShift_apply, colMean_apply, h0]) n

end Cert.KernelIdeal.Hand

end
-- ==== Proof.KI.R0Pay.lean ====
/- Region 0, the payloads read at an index (at the ideal values).

   The first kernel's block computes, from a row tile x of the aggregated features, the same row tile a of the
   features, the two halves wa, wb of the first layer's weight and the bias b,

     L(p, q) = (∑ₖ x(p,k)·wa(k,q) + ∑ₖ a(p,k)·wb(k,q)) + b(q),

   and adds to two running rows the column sums of L and of L·L over the tile's 2000 rows. Here each payload of
   that block is read at an index: the format changes are the identity on the extended reals, each block product
   into a zero accumulator is the sum over the contracted coordinate, a reduction over the row axis is the sum over
   the rows, and the casts between a row [128] and a one-row matrix [1,128] keep the column. -/
import proofs.«120849_j36893769073013_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## The block product [2000,128] × [128,128] at an index -/

/-- The dimension numbers of both block products: rows × contraction times contraction × columns. -/
abbrev tileDot : DotDims S2000x128 S128x128 S2000x128 := dot_S2000x128_S128x128_S2000x128_1_0_0_1_n_n

/-- The left operand is read on the output's row … -/
theorem tileDot_lhs_row (i : S2000x128.Idx) (q : tileDot.contr.Idx) :
    (tileDot.lhsIdx i q 0).val = (i 0).val := by
  unfold DotDims.lhsIdx
  rw [dif_neg (show ¬(0 : Fin S2000x128.rank) ∈ tileDot.lhsBatch by decide),
    dif_pos (show (0 : Fin S2000x128.rank) ∈ tileDot.lhsNonContracting by decide)]
  rfl
/-- … and on the contracted coordinate; -/
theorem tileDot_lhs_col (i : S2000x128.Idx) (q : tileDot.contr.Idx) :
    (tileDot.lhsIdx i q 1).val = (q ⟨0, by decide⟩).val :=
  tileDot.lhsIdx_val_of_single rfl i q
/-- the right operand on the contracted coordinate … -/
theorem tileDot_rhs_row (i : S2000x128.Idx) (q : tileDot.contr.Idx) :
    (tileDot.rhsIdx i q 0).val = (q ⟨0, by decide⟩).val :=
  tileDot.rhsIdx_val_of_single rfl i q
/-- … and on the output's column. -/
theorem tileDot_rhs_col (i : S2000x128.Idx) (q : tileDot.contr.Idx) :
    (tileDot.rhsIdx i q 1).val = (i 1).val := by
  unfold DotDims.rhsIdx
  rw [dif_neg (show ¬(1 : Fin S128x128.rank) ∈ tileDot.rhsBatch by decide),
    dif_pos (show (1 : Fin S128x128.rank) ∈ tileDot.rhsNonContracting by decide)]
  rfl

/-- A block product into the zero accumulator, at row p and column q, is the sum over the 128 contracted
    coordinates of the products. -/
theorem tileProduct_apply {φ₁ φ₂ : FTy} (x : FVec Ideal S2000x128 φ₁) (w : FVec Ideal S128x128 φ₂)
    (p : Fin 2000) (q : Fin 128) :
    matmul tileDot none x w (constant (F := Ideal) S2000x128 .f32 0x00000000#32) (ix2 p q)
      = ∑ k : Fin 128, x (ix2 p k) * w (ix2 k q) := by
  show FloatOps.matmul tileDot none x w (constant (F := Ideal) S2000x128 .f32 0x00000000#32) (ix2 p q) = _
  rw [Ideal.matmul_constant_zero_apply, ← Equiv.sum_comp (ValueIdx.contrEquiv1 tileDot 128 rfl rfl).symm]
  refine Finset.sum_congr rfl fun k _ => ?_
  have hk := ValueIdx.contrEquiv1_symm_val tileDot 128 rfl rfl k
  have el : tileDot.lhsIdx (ix2 p q) ((ValueIdx.contrEquiv1 tileDot 128 rfl rfl).symm k) = ix2 p k :=
    funext fun a => Fin.ext (by
      match a with
      | ⟨0, _⟩ => exact tileDot_lhs_row _ _
      | ⟨1, _⟩ => exact (tileDot_lhs_col _ _).trans hk)
  have er : tileDot.rhsIdx (ix2 p q) ((ValueIdx.contrEquiv1 tileDot 128 rfl rfl).symm k) = ix2 k q :=
    funext fun a => Fin.ext (by
      match a with
      | ⟨0, _⟩ => exact (tileDot_rhs_row _ _).trans hk
      | ⟨1, _⟩ => exact tileDot_rhs_col _ _)
  rw [el, er]

/-! ## The row tile of the first layer's linear map -/

/-- The first layer's linear map on a row tile, at row p and column q: the aggregated features against the upper
    half of the weight plus the features against the lower half, plus the bias. (The casts to the product's
    operand format are the identity at the ideal values, the bias row is broadcast over the rows.) -/
theorem k0_pay6_apply (x a : Vec Ideal S2000x128 .f32) (wa wb : Vec Ideal S128x128 .f32) (b : Vec Ideal S128 .f32)
    (p : Fin 2000) (q : Fin 128) :
    k0_pay6 (F := Ideal) x a wa wb b (ix2 p q)
      = ((∑ k : Fin 128, x (ix2 p k) * wa (ix2 k q)) + (∑ k : Fin 128, a (ix2 p k) * wb (ix2 k q))) + b (ix1 q) := by
  unfold k0_pay6
  simp only [shapeCast_self]
  rw [addf_apply, addf_apply, tileProduct_apply, tileProduct_apply, broadcastTo_1b_ab_apply, shapeCast_a_1a_apply]
  rfl

/-! ## The column sums over a row tile -/

/-- The row index over column q with row r inserted on the reduced axis. -/
theorem rowsLift (q : Fin 128) (r : Fin 2000) :
    reduces_S2000x128_S128.lift (ix1 q) r = ix2 r q :=
  funext fun c => Fin.ext (by
    match c with
    | ⟨0, _⟩ => rfl
    | ⟨1, _⟩ => rfl)

/-- A reduction of a row tile over its rows, from the zero word, at column q: the sum over the 2000 rows. -/
theorem rowsSum_apply (y : FVec Ideal S2000x128 .f32) (hφ : FKind.Formats .f32)
    (hacc : (0x00000000#32 : BitVec 32) = 0x00000000#32) (q : Fin 128) :
    multiReduction (F := Ideal) .add [0] S128 y 0x00000000#32 reduces_S2000x128_S128 hφ hacc (ix1 q)
      = ∑ r : Fin 2000, y (ix2 r q) := by
  refine (Ideal.multiReduction_add_single y 0x00000000#32 reduces_S2000x128_S128 hφ hacc (ix1 q)).trans ?_
  exact Finset.sum_congr rfl fun r _ => congrArg y (rowsLift q r)

/-- The running column sums after a tile: what was there plus the tile's column sums of the linear map. -/
theorem k0_pay7_apply (x a : Vec Ideal S2000x128 .f32) (wa wb : Vec Ideal S128x128 .f32) (b : Vec Ideal S128 .f32)
    (s : Vec Ideal S1x128 .f32) (q : Fin 128) :
    k0_pay7 (F := Ideal) x a wa wb b s (ix2 0 q)
      = s (ix2 0 q) + ∑ r : Fin 2000, k0_pay6 (F := Ideal) x a wa wb b (ix2 r q) := by
  unfold k0_pay7
  simp only [shapeCast_self]
  rw [addf_apply, shapeCast_a_1a_apply, rowsSum_apply]

/-- The tile's column sums of the squared linear map. -/
theorem k0_pay8_apply (x a : Vec Ideal S2000x128 .f32) (wa wb : Vec Ideal S128x128 .f32) (b : Vec Ideal S128 .f32)
    (q : Fin 128) :
    k0_pay8 (F := Ideal) x a wa wb b (ix2 0 q)
      = ∑ r : Fin 2000, k0_pay6 (F := Ideal) x a wa wb b (ix2 r q) * k0_pay6 (F := Ideal) x a wa wb b (ix2 r q) := by
  unfold k0_pay8
  rw [shapeCast_a_1a_apply, rowsSum_apply]
  rfl

/-! ## The running rows' other stores -/

/-- A running row plus a tile's contribution, column by column (the store into the second running row takes the
    tile's column sums of squares for v). -/
theorem k0_pay1_apply (s : Vec Ideal S1x128 .f32) (v : FVec Ideal S1x128 .f32) (j : S1x128.Idx) :
    k0_pay1 (F := Ideal) s v j = s j + v j := by
  unfold k0_pay1
  simp only [shapeCast_self]
  rfl

/-- A running row stored to a row of the statistics: the row itself (cast to a vector and back). -/
theorem k0_pay2_eq (s : Vec Ideal S1x128 .f32) : k0_pay2 (F := Ideal) s = s := by
  unfold k0_pay2
  exact shapeCast_shapeCast s _ _

theorem k0_pay3_eq (s : Vec Ideal S1x128 .f32) : k0_pay3 (F := Ideal) s = s := by
  unfold k0_pay3
  exact shapeCast_shapeCast s _ _

/-- The running rows start at zero. -/
theorem k0_pay4_apply (j : S1x128.Idx) : k0_pay4 (F := Ideal) j = 0 := by
  unfold k0_pay4
  simp only [shapeCast_self]
  exact Ideal.ofBits_zero_f32

theorem k0_pay5_apply (j : S1x128.Idx) : k0_pay5 (F := Ideal) j = 0 := by
  unfold k0_pay5
  simp only [shapeCast_self]
  exact Ideal.ofBits_zero_f32

end Cert.KernelIdeal.Hand

end
-- ==== Proof.LibSums.lean ====
/-
  Finite sums regrouped: a sum over `a + b` indices split at `a`; a sum over `T * R` indices as `T` blocks of
  `R` consecutive indices (index `R * t + r`: the position `r` inside a block is the fast coordinate); and the
  block-by-block partial sums an induction over the blocks needs. Everything holds in any additive commutative
  monoid, so in particular on the extended reals with no finiteness side condition.
-/
import Mathlib.Algebra.BigOperators.Fin
import Mathlib.Algebra.BigOperators.Group.Finset.Basic
import Mathlib.Logic.Equiv.Fin.Basic

namespace Cert.Sums

open scoped BigOperators

variable {M : Type*} [AddCommMonoid M]

/-! ## A sum split in two -/

/-- A sum over `a + b` indices is the sum over the first `a` of them plus the sum over the last `b`. -/
theorem sum_split (a b : ℕ) (f : Fin (a + b) → M) :
    ∑ k, f k = ∑ k : Fin a, f (Fin.castAdd b k) + ∑ k : Fin b, f (Fin.natAdd a k) :=
  Fin.sum_univ_add f

/-- A sum over 256 indices is the sum over the indices `k < 128` plus the sum over the indices `128 + k`. -/
theorem sum_split_128_128 (f : Fin 256 → M) :
    ∑ k, f k = ∑ k : Fin 128, f ⟨k.val, by omega⟩ + ∑ k : Fin 128, f ⟨128 + k.val, by omega⟩ :=
  sum_split 128 128 f

/-! ## A sum cut into blocks -/

/-- Position `r < R` of block `t < T` is an index below `T * R`. -/
theorem block_index_lt {T R t r : ℕ} (ht : t < T) (hr : r < R) : R * t + r < T * R := by
  calc R * t + r < R * t + R := by omega
    _ = R * (t + 1) := (Nat.mul_succ R t).symm
    _ ≤ R * T := Nat.mul_le_mul_left _ ht
    _ = T * R := Nat.mul_comm _ _

/-- A sum over `T * R` indices is the sum over the `T` blocks of the sum over the `R` positions of each block;
position `r` of block `t` is the index `R * t + r`. -/
theorem sum_blocks (T R : ℕ) (f : Fin (T * R) → M) :
    ∑ n, f n = ∑ t : Fin T, ∑ r : Fin R, f ⟨R * t.val + r.val, block_index_lt t.isLt r.isLt⟩ := by
  rw [← (finProdFinEquiv (m := T) (n := R)).sum_comp f, Fintype.sum_prod_type]
  refine Finset.sum_congr rfl fun t _ => Finset.sum_congr rfl fun r _ => ?_
  congr 1
  apply Fin.ext
  simp only [finProdFinEquiv_apply_val]
  omega

/-- A sum over 50000 indices is the sum over 25 blocks of 2000: position `r` of block `t` is `2000 * t + r`. -/
theorem sum_blocks_25_2000 (f : Fin 50000 → M) :
    ∑ n, f n = ∑ t : Fin 25, ∑ r : Fin 2000, f ⟨2000 * t.val + r.val, by omega⟩ :=
  sum_blocks 25 2000 f

/-! ## Partial sums, block by block -/

/-- The sum of the first `n` blocks (`n ≤ T`) of a family over `T * R` indices. -/
def prefixBlocks (T R : ℕ) (f : Fin (T * R) → M) (n : ℕ) (hn : n ≤ T) : M :=
  ∑ t : Fin n, ∑ r : Fin R, f ⟨R * t.val + r.val, block_index_lt (lt_of_lt_of_le t.isLt hn) r.isLt⟩

/-- No block: the partial sum is zero. -/
theorem prefixBlocks_zero (T R : ℕ) (f : Fin (T * R) → M) : prefixBlocks T R f 0 (Nat.zero_le T) = 0 := by
  simp [prefixBlocks]

/-- The sum of the first `n + 1` blocks is the sum of the first `n` blocks plus the sum over block `n`. -/
theorem prefixBlocks_succ (T R : ℕ) (f : Fin (T * R) → M) (n : ℕ) (hn : n < T) :
    prefixBlocks T R f (n + 1) hn
      = prefixBlocks T R f n (Nat.le_of_lt hn) + ∑ r : Fin R, f ⟨R * n + r.val, block_index_lt hn r.isLt⟩ := by
  unfold prefixBlocks
  rw [Fin.sum_univ_castSucc]
  rfl

/-- All `T` blocks: the partial sum is the whole sum. -/
theorem prefixBlocks_all (T R : ℕ) (f : Fin (T * R) → M) : prefixBlocks T R f T (Nat.le_refl T) = ∑ n, f n := by
  rw [sum_blocks T R f]; rfl

/-- A running total that starts at zero and, at block `n`, grows by the sum over block `n`, is after the last
block the sum over all `T * R` indices. -/
theorem sum_of_block_recursion (T R : ℕ) (f : Fin (T * R) → M) (acc : ℕ → M) (h0 : acc 0 = 0)
    (hs : ∀ (n : ℕ) (hn : n < T), acc (n + 1) = acc n + ∑ r : Fin R, f ⟨R * n + r.val, block_index_lt hn r.isLt⟩) :
    acc T = ∑ n, f n := by
  have key : ∀ (n : ℕ) (hn : n ≤ T), acc n = prefixBlocks T R f n hn := by
    intro n
    induction n with
    | zero => intro _; rw [h0, prefixBlocks_zero]
    | succ n ih => intro hn; rw [hs n hn, ih (Nat.le_of_lt hn), prefixBlocks_succ]
  rw [key T (Nat.le_refl T), prefixBlocks_all]

/-- The same over sums indexed by natural numbers: the sum over the first `(n + 1) * R` indices is the sum over the
first `n * R` plus the sum over the `R` indices `R * n + r` of block `n`. -/
theorem sum_range_succ_mul (R n : ℕ) (g : ℕ → M) :
    ∑ i ∈ Finset.range ((n + 1) * R), g i
      = ∑ i ∈ Finset.range (n * R), g i + ∑ r ∈ Finset.range R, g (R * n + r) := by
  rw [Nat.succ_mul, Finset.sum_range_add, Nat.mul_comm n R]

/-- 25 blocks of 2000: a running total that starts at zero and at block `n` grows by the sum over the indices
`2000 * n + r` is, after block 24, the sum over all 50000 indices. -/
theorem sum_of_block_recursion_25_2000 (f : Fin 50000 → M) (acc : ℕ → M) (h0 : acc 0 = 0)
    (hs : ∀ (n : ℕ) (hn : n < 25), acc (n + 1) = acc n + ∑ r : Fin 2000, f ⟨2000 * n + r.val, by omega⟩) :
    acc 25 = ∑ n, f n :=
  sum_of_block_recursion 25 2000 f acc h0 hs

end Cert.Sums
-- ==== Proof.KI.R0Val.lean ====
/- Region 0 read as values (at the ideal values).

   The first region leaves two arrays. The result array is the first layer's linear map of the arrays the region
   finds, row by row:

     L(n, j) = (∑ₖ agg(n,k)·Wa(k,j) + ∑ₖ feat(n,k)·Wb(k,j)) + b(j),

   because each grid point stores the row tile of L over its own 2000 rows and the 25 tiles cover the 50000 rows.
   The statistics array holds in row 0 the column sums ∑ₙ L(n, j) and in row 1 the column sums of squares
   ∑ₙ L(n, j)²: two running rows start at zero, each point adds its tile's column sums, and the last point stores
   them; 25 tiles of 2000 rows regroup into the sum over all rows (addition on the extended reals is commutative
   and associative, no finiteness is used). -/
import proofs.«120849_j36893769073013_1_alg».proof.Proof.KI.R0
import proofs.«120849_j36893769073013_1_alg».proof.Proof.KI.R0Pay
import proofs.«120849_j36893769073013_1_alg».proof.Proof.LibSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

section Value

variable (V : (c : Dev nD) → (b : Ref sig .tc) → Buf (Elt Ideal) ((c : Thread nD τ).loc b))

/-- The grid has 25 points, one per tile of 2000 rows. -/
theorem points0 : cfg0.N = 25 := N_0

/-- Row p of tile t is row 2000·t + p of the array. -/
abbrev tileRow (t : Fin cfg0.N) (p : Fin 2000) : Fin 50000 :=
  ⟨2000 * t.val + p.val, by have := t.isLt; have := points0; omega⟩

/-- The printed index maps, decided over the grid: the three row-tiled windows sit on the point's tile, the others on
    their one block. -/
theorem tileIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

/-! ### Where a block's element sits in its array -/

theorem emb_agg (t : Fin cfg0.N) (p : Fin 2000) (k : Fin 128) :
    ((cfg0.win 0).blk t).view.emb (ix2 p k) = ix2 (tileRow t p) k := by
  obtain ⟨e0, e1, -⟩ := tileIndex t
  funext a; apply Fin.ext
  match a with
  | ⟨0, _⟩ => show win0_0.index t (0 : Fin 2) * 2000 + 1 * p.val = 2000 * t.val + p.val; omega
  | ⟨1, _⟩ => show win0_0.index t (1 : Fin 2) * 128 + 1 * k.val = k.val; omega

theorem emb_feat (t : Fin cfg0.N) (p : Fin 2000) (k : Fin 128) :
    ((cfg0.win 1).blk t).view.emb (ix2 p k) = ix2 (tileRow t p) k := by
  obtain ⟨-, -, e0, e1, -⟩ := tileIndex t
  funext a; apply Fin.ext
  match a with
  | ⟨0, _⟩ => show win0_1.index t (0 : Fin 2) * 2000 + 1 * p.val = 2000 * t.val + p.val; omega
  | ⟨1, _⟩ => show win0_1.index t (1 : Fin 2) * 128 + 1 * k.val = k.val; omega

theorem emb_wa (t : Fin cfg0.N) (k q : Fin 128) :
    ((cfg0.win 2).blk t).view.emb (ix2 k q) = ix2 k q := by
  obtain ⟨-, -, -, -, e0, e1, -⟩ := tileIndex t
  funext a; apply Fin.ext
  match a with
  | ⟨0, _⟩ => show win0_2.index t (0 : Fin 2) * 128 + 1 * k.val = k.val; omega
  | ⟨1, _⟩ => show win0_2.index t (1 : Fin 2) * 128 + 1 * q.val = q.val; omega

theorem emb_wb (t : Fin cfg0.N) (k q : Fin 128) :
    ((cfg0.win 3).blk t).view.emb (ix2 k q) = ix2 k q := by
  obtain ⟨-, -, -, -, -, -, e0, e1, -⟩ := tileIndex t
  funext a; apply Fin.ext
  match a with
  | ⟨0, _⟩ => show win0_3.index t (0 : Fin 2) * 128 + 1 * k.val = k.val; omega
  | ⟨1, _⟩ => show win0_3.index t (1 : Fin 2) * 128 + 1 * q.val = q.val; omega

theorem emb_bias (t : Fin cfg0.N) (q : Fin 128) :
    ((cfg0.win 4).blk t).view.emb (ix1 q) = ix1 q := by
  obtain ⟨-, -, -, -, -, -, -, -, e0, -⟩ := tileIndex t
  funext a; apply Fin.ext
  match a with
  | ⟨0, _⟩ => show win0_4.index t (0 : Fin 1) * 128 + 1 * q.val = q.val; omega

theorem emb_hlin (t : Fin cfg0.N) (p : Fin 2000) (q : Fin 128) :
    ((cfg0.win 5).blk t).view.emb (ix2 p q) = ix2 (tileRow t p) q := by
  obtain ⟨-, -, -, -, -, -, -, -, -, e0, e1, -⟩ := tileIndex t
  funext a; apply Fin.ext
  match a with
  | ⟨0, _⟩ => show win0_5.index t (0 : Fin 2) * 2000 + 1 * p.val = 2000 * t.val + p.val; omega
  | ⟨1, _⟩ => show win0_5.index t (1 : Fin 2) * 128 + 1 * q.val = q.val; omega

/-! ### The first layer's linear map on the whole arrays -/

/-- The five arrays the region reads, as it finds them: the aggregated features, the features, the two halves of the
    first layer's weight, its bias. -/
abbrev aggIn (c : Dev nD) : S50000x128.Idx → EReal := V c main_v12
abbrev featIn (c : Dev nD) : S50000x128.Idx → EReal := V c main_arg0
abbrev wUpper (c : Dev nD) : S128x128.Idx → EReal := V c main_v13
abbrev wLower (c : Dev nD) : S128x128.Idx → EReal := V c main_v14
abbrev biasIn (c : Dev nD) : S128.Idx → EReal := V c main_arg2

/-- Row n, column j of the linear map of those arrays. -/
def linAt (c : Dev nD) (n : Fin 50000) (j : Fin 128) : EReal :=
  ((∑ k : Fin 128, aggIn V c (ix2 n k) * wUpper V c (ix2 k j))
    + (∑ k : Fin 128, featIn V c (ix2 n k) * wLower V c (ix2 k j))) + biasIn V c (ix1 j)

/-- The same as one array. -/
def linArr (c : Dev nD) : S50000x128.Idx → EReal :=
  fun i => linAt V c ⟨(i 0).val, (i 0).isLt⟩ ⟨(i 1).val, (i 1).isLt⟩

theorem linArr_apply (c : Dev nD) (n : Fin 50000) (j : Fin 128) : linArr V c (ix2 n j) = linAt V c n j := rfl

/-- A tile of the linear map whose operands are rows of whole arrays: the tile's row p is the arrays' row n. -/
theorem tile_of_rows (x a : Vec Ideal S2000x128 .f32) (wa wb : Vec Ideal S128x128 .f32) (b : Vec Ideal S128 .f32)
    (X A : S50000x128.Idx → EReal) (WA WB : S128x128.Idx → EReal) (B : S128.Idx → EReal)
    (n : Fin 50000) (p : Fin 2000) (q : Fin 128)
    (hx : ∀ k : Fin 128, x (ix2 p k) = X (ix2 n k)) (ha : ∀ k : Fin 128, a (ix2 p k) = A (ix2 n k))
    (hwa : ∀ k : Fin 128, wa (ix2 k q) = WA (ix2 k q)) (hwb : ∀ k : Fin 128, wb (ix2 k q) = WB (ix2 k q))
    (hb : b (ix1 q) = B (ix1 q)) :
    k0_pay6 (F := Ideal) x a wa wb b (ix2 p q)
      = ((∑ k : Fin 128, X (ix2 n k) * WA (ix2 k q)) + (∑ k : Fin 128, A (ix2 n k) * WB (ix2 k q))) + B (ix1 q) := by
  rw [k0_pay6_apply]
  simp only [hx, ha, hwa, hwb, hb]

/-- The tile the body stores at point t is the point's row tile of the linear map. -/
theorem hblk_apply (c : Dev nD) (t : Fin cfg0.N) (p : Fin 2000) (q : Fin 128) :
    hblk V c t (ix2 p q) = linAt V c (tileRow t p) q := by
  unfold hblk linAt
  exact tile_of_rows _ _ _ _ _ (aggIn V c) (featIn V c) (wUpper V c) (wLower V c) (biasIn V c) (tileRow t p) p q
    (fun k => congrArg (aggIn V c) (emb_agg t p k)) (fun k => congrArg (featIn V c) (emb_feat t p k))
    (fun k => congrArg (wUpper V c) (emb_wa t k q)) (fun k => congrArg (wLower V c) (emb_wb t k q))
    (congrArg (biasIn V c) (emb_bias t q))

/-! ### From the tiles to the array -/

/-- What point t writes back of the result window is its block of the linear map's array. -/
theorem flushed_hlin (c : Dev nD) (t : Fin cfg0.N) :
    (dat0 V c).flushed 5 t = ((cfg0.win 5).blk t).view.read (Elt Ideal) (linArr V c) := by
  show (cfg0.win 5).cut (grid0.coords t) ((dat0 V c).after 5 t) = _
  rw [after0_5]
  funext y
  obtain ⟨p, q, rfl⟩ : ∃ (p : Fin 2000) (q : Fin 128), y = ix2 p q := ⟨y 0, y 1, eq_ix2 y⟩
  show hblk V c t (ix2 p q) = linArr V c (((cfg0.win 5).blk t).view.emb (ix2 p q))
  rw [emb_hlin, linArr_apply, hblk_apply]

/-- An index of the result array is in point t's block iff each coordinate is in the block's range on its axis. -/
theorem mem_hlin (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v15_0).slice (win0_5.rect t)).set ↔ _
  rw [View.set_slice_whole, Rect.mem_set_unit]
  exact Iff.rfl

/-- Every row of the result is in the block of the point whose tile holds it. -/
theorem cover_hlin (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 2000, by have := points0; omega⟩
  obtain ⟨-, -, -, -, -, -, -, -, -, e0, e1, -⟩ := tileIndex t
  have ht : t.val = (i 0).val / 2000 := rfl
  refine ⟨t, flush0_5 t, ?_⟩
  rw [mem_hlin]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The result array after the region is the linear map of the arrays the region found. -/
theorem hlin_eq (c : Dev nD) : (dat0 V c).arrAt 5 cfg0.N = linArr V c :=
  (dat0 V c).arrAt_eq_of_cover 5 (linArr V c) (fun t _ => flushed_hlin V c t) cover_hlin

theorem hlin_apply (c : Dev nD) (n : Fin 50000) (j : Fin 128) :
    (dat0 V c).arrAt 5 cfg0.N (ix2 n j)
      = ((∑ k : Fin 128, aggIn V c (ix2 n k) * wUpper V c (ix2 k j))
          + (∑ k : Fin 128, featIn V c (ix2 n k) * wLower V c (ix2 k j))) + biasIn V c (ix1 j) := by
  rw [hlin_eq]; rfl

/-! ### The running column sums, point by point -/

/-- The first running row after the first point: the first tile's column sums. -/
theorem acc_zero_fst (c : Dev nD) (h : 0 < cfg0.N) (q : Fin 128) :
    (acc V c 0 h).1 (ix2 0 q) = 0 + ∑ r : Fin 2000, hblk V c ⟨0, h⟩ (ix2 r q) := by
  refine (k0_pay7_apply _ _ _ _ _ _ q).trans ?_
  show k0_pay4 (F := Ideal) (ix2 0 q) + _ = _
  rw [k0_pay4_apply]
  rfl

/-- After a later point: what the point before left plus the point's tile's column sums. -/
theorem acc_succ_fst (c : Dev nD) (n : ℕ) (h : n + 1 < cfg0.N) (q : Fin 128) :
    (acc V c (n + 1) h).1 (ix2 0 q)
      = (acc V c n (Nat.lt_of_succ_lt h)).1 (ix2 0 q) + ∑ r : Fin 2000, hblk V c ⟨n + 1, h⟩ (ix2 r q) :=
  k0_pay7_apply _ _ _ _ _ _ q

/-- The second running row likewise, with the squares. -/
theorem acc_zero_snd (c : Dev nD) (h : 0 < cfg0.N) (q : Fin 128) :
    (acc V c 0 h).2 (ix2 0 q) = 0 + ∑ r : Fin 2000, hblk V c ⟨0, h⟩ (ix2 r q) * hblk V c ⟨0, h⟩ (ix2 r q) := by
  refine (k0_pay1_apply _ _ _).trans ?_
  show k0_pay5 (F := Ideal) (ix2 0 q) + _ = _
  rw [k0_pay5_apply, k0_pay8_apply]
  rfl

theorem acc_succ_snd (c : Dev nD) (n : ℕ) (h : n + 1 < cfg0.N) (q : Fin 128) :
    (acc V c (n + 1) h).2 (ix2 0 q)
      = (acc V c n (Nat.lt_of_succ_lt h)).2 (ix2 0 q)
        + ∑ r : Fin 2000, hblk V c ⟨n + 1, h⟩ (ix2 r q) * hblk V c ⟨n + 1, h⟩ (ix2 r q) := by
  refine (k0_pay1_apply _ _ _).trans ?_
  rw [k0_pay8_apply]
  rfl

/-- The running rows before point n, at column q (zero before the first point). -/
def sumBefore (c : Dev nD) (q : Fin 128) : ℕ → EReal
  | 0 => 0
  | n + 1 => if h : n < cfg0.N then (acc V c n h).1 (ix2 0 q) else 0

def sqBefore (c : Dev nD) (q : Fin 128) : ℕ → EReal
  | 0 => 0
  | n + 1 => if h : n < cfg0.N then (acc V c n h).2 (ix2 0 q) else 0

/-- After the last point the first running row holds the column sums of the linear map over all 50000 rows. -/
theorem acc_last_fst (c : Dev nD) (q : Fin 128) :
    (acc V c 24 last_lt).1 (ix2 0 q) = ∑ n : Fin 50000, linAt V c n q := by
  have key := Cert.Sums.sum_of_block_recursion_25_2000 (fun n : Fin 50000 => linAt V c n q) (sumBefore V c q) rfl
    (fun n hn => by
      have hN : n < cfg0.N := by have := points0; omega
      cases n with
      | zero =>
        show (if h : 0 < cfg0.N then (acc V c 0 h).1 (ix2 0 q) else 0) = 0 + _
        rw [dif_pos hN, acc_zero_fst]
        exact congrArg (0 + ·) (Finset.sum_congr rfl fun r _ => hblk_apply V c ⟨0, hN⟩ r q)
      | succ m =>
        have hm : m < cfg0.N := Nat.lt_of_succ_lt hN
        show (if h : m + 1 < cfg0.N then (acc V c (m + 1) h).1 (ix2 0 q) else 0)
          = (if h : m < cfg0.N then (acc V c m h).1 (ix2 0 q) else 0) + _
        rw [dif_pos hN, dif_pos hm, acc_succ_fst]
        exact congrArg (_ + ·) (Finset.sum_congr rfl fun r _ => hblk_apply V c ⟨m + 1, hN⟩ r q))
  refine Eq.trans ?_ key
  show _ = if h : 24 < cfg0.N then (acc V c 24 h).1 (ix2 0 q) else 0
  rw [dif_pos last_lt]

theorem acc_last_snd (c : Dev nD) (q : Fin 128) :
    (acc V c 24 last_lt).2 (ix2 0 q) = ∑ n : Fin 50000, linAt V c n q * linAt V c n q := by
  have key := Cert.Sums.sum_of_block_recursion_25_2000 (fun n : Fin 50000 => linAt V c n q * linAt V c n q) (sqBefore V c q) rfl
    (fun n hn => by
      have hN : n < cfg0.N := by have := points0; omega
      cases n with
      | zero =>
        show (if h : 0 < cfg0.N then (acc V c 0 h).2 (ix2 0 q) else 0) = 0 + _
        rw [dif_pos hN, acc_zero_snd]
        exact congrArg (0 + ·) (Finset.sum_congr rfl fun r _ => by rw [hblk_apply V c ⟨0, hN⟩ r q])
      | succ m =>
        have hm : m < cfg0.N := Nat.lt_of_succ_lt hN
        show (if h : m + 1 < cfg0.N then (acc V c (m + 1) h).2 (ix2 0 q) else 0)
          = (if h : m < cfg0.N then (acc V c m h).2 (ix2 0 q) else 0) + _
        rw [dif_pos hN, dif_pos hm, acc_succ_snd]
        exact congrArg (_ + ·) (Finset.sum_congr rfl fun r _ => by rw [hblk_apply V c ⟨m + 1, hN⟩ r q]))
  refine Eq.trans ?_ key
  show _ = if h : 24 < cfg0.N then (acc V c 24 h).2 (ix2 0 q) else 0
  rw [dif_pos last_lt]

/-! ### The statistics block -/

theorem emb_stats (t : Fin cfg0.N) (y : S2x128.Idx) : ((cfg0.win 6).blk t).view.emb y = y := by
  obtain ⟨-, -, -, -, -, -, -, -, -, -, -, e0, e1⟩ := tileIndex t
  funext a; apply Fin.ext
  match a with
  | ⟨0, _⟩ => show win0_6.index t (0 : Fin 2) * 2 + 1 * (y 0).val = (y 0).val; omega
  | ⟨1, _⟩ => show win0_6.index t (1 : Fin 2) * 128 + 1 * (y 1).val = (y 1).val; omega

/-- What a point writes back of the statistics window (only the last one does) is the block of the two row stores. -/
theorem flushed_stats (c : Dev nD) (t : Fin cfg0.N) :
    (dat0 V c).flushed 6 t = ((cfg0.win 6).blk t).view.read (Elt Ideal) (stats0 V c) := by
  show (cfg0.win 6).cut (grid0.coords t) ((dat0 V c).after 6 t) = _
  rw [after0_6]
  funext y
  show stats0 V c y = stats0 V c (((cfg0.win 6).blk t).view.emb y)
  rw [emb_stats]

theorem mem_stats (t : Fin cfg0.N) (i : S2x128.Idx) :
    i ∈ ((cfg0.win 6).blk t).view.set ↔ ∀ a : Fin 2, win0_6.index t a * S2x128.size a ≤ (i a).val ∧ (i a).val < win0_6.index t a * S2x128.size a + S2x128.size a := by
  show i ∈ ((View.whole main_v15_1).slice (win0_6.rect t)).set ↔ _
  rw [View.set_slice_whole, Rect.mem_set_unit]
  exact Iff.rfl

/-- The last point's block is the whole statistics array. -/
theorem stats_cover (i : S2x128.Idx) :
    ∃ t : Fin cfg0.N, (cfg0.win 6).flush t = true ∧ i ∈ ((cfg0.win 6).blk t).view.set := by
  have hi0 : (i 0).val < 2 := (i 0).isLt
  have hi1 : (i 1).val < 128 := (i 1).isLt
  let t : Fin cfg0.N := ⟨24, last_lt⟩
  obtain ⟨-, -, -, -, -, -, -, -, -, -, -, e0, e1⟩ := tileIndex t
  refine ⟨t, (flush0_6 t).mpr rfl, ?_⟩
  rw [mem_stats]
  intro a
  match a with
  | ⟨0, _⟩ => show win0_6.index t (0 : Fin 2) * 2 ≤ (i 0).val ∧ (i 0).val < win0_6.index t (0 : Fin 2) * 2 + 2; omega
  | ⟨1, _⟩ => show win0_6.index t (1 : Fin 2) * 128 ≤ (i 1).val ∧ (i 1).val < win0_6.index t (1 : Fin 2) * 128 + 128; omega

/-- The statistics array after the region is that block. -/
theorem stats_eq (c : Dev nD) : (dat0 V c).arrAt 6 cfg0.N = stats0 V c :=
  (dat0 V c).arrAt_eq_of_cover 6 (stats0 V c) (fun t _ => flushed_stats V c t) stats_cover

/-- Its row 1 is the later of the two row stores: the second running row. -/
theorem stats0_row1 (c : Dev nD) (j : Fin 128) :
    stats0 V c (ix2 (1 : Fin 2) j) = (acc V c 24 last_lt).2 (ix2 (0 : Fin 1) j) := by
  unfold stats0
  have e : rRow1.emb (ix2 (0 : Fin 1) j) = ix2 (1 : Fin 2) j := by
    funext a; apply Fin.ext
    match a with
    | ⟨0, _⟩ => rfl
    | ⟨1, _⟩ => show 0 + 1 * j.val = j.val; omega
  rw [← e, View.canon_cons_emb, k0_pay3_eq]

/-- Its row 0 is off the later store and under the earlier: the first running row. -/
theorem stats0_row0 (c : Dev nD) (j : Fin 128) :
    stats0 V c (ix2 (0 : Fin 2) j) = (acc V c 24 last_lt).1 (ix2 (0 : Fin 1) j) := by
  unfold stats0
  have hn : ix2 (0 : Fin 2) j ∉ rRow1.set := by
    rw [Rect.mem_set_unit]
    intro h
    have h0 : (1 : ℕ) ≤ 0 := (h 0).1
    omega
  have e : rRow0.emb (ix2 (0 : Fin 1) j) = ix2 (0 : Fin 2) j := by
    funext a; apply Fin.ext
    match a with
    | ⟨0, _⟩ => rfl
    | ⟨1, _⟩ => show 0 + 1 * j.val = j.val; omega
  rw [View.canon_cons_of_not_mem]
  · rw [← e, View.canon_cons_emb, k0_pay2_eq]
  · exact hn

/-! ### The two arrays the region leaves -/

/-- The result array and the statistics array after the region, as arrays of extended reals. -/
abbrev hlinOut (c : Dev nD) : S50000x128.Idx → EReal := (dat0 V c).arrAt 5 cfg0.N
abbrev statsOut (c : Dev nD) : S2x128.Idx → EReal := (dat0 V c).arrAt 6 cfg0.N

/-- Row 0 of the statistics: the column sums of the linear map. -/
theorem stats0_lin (c : Dev nD) (j : Fin 128) :
    @Eq EReal ((dat0 V c).arrAt 6 cfg0.N (ix2 (0 : Fin 2) j)) (∑ n : Fin 50000, linAt V c n j) := by
  rw [stats_eq]
  exact (stats0_row0 V c j).trans (acc_last_fst V c j)

/-- Row 1 of the statistics: the column sums of its square. -/
theorem stats1_lin (c : Dev nD) (j : Fin 128) :
    @Eq EReal ((dat0 V c).arrAt 6 cfg0.N (ix2 (1 : Fin 2) j)) (∑ n : Fin 50000, linAt V c n j * linAt V c n j) := by
  rw [stats_eq]
  exact (stats0_row1 V c j).trans (acc_last_snd V c j)

/-- The same over the result array the region leaves. -/
theorem stats0_apply (c : Dev nD) (j : Fin 128) :
    @Eq EReal ((dat0 V c).arrAt 6 cfg0.N (ix2 (0 : Fin 2) j)) (∑ n : Fin 50000, hlinOut V c (ix2 n j)) := by
  rw [stats0_lin]
  exact Finset.sum_congr rfl fun n _ => ((congrFun (hlin_eq V c) (ix2 n j)).trans (linArr_apply V c n j)).symm

theorem stats1_apply (c : Dev nD) (j : Fin 128) :
    @Eq EReal ((dat0 V c).arrAt 6 cfg0.N (ix2 (1 : Fin 2) j)) (∑ n : Fin 50000, hlinOut V c (ix2 n j) * hlinOut V c (ix2 n j)) := by
  rw [stats1_lin]
  refine Finset.sum_congr rfl fun n _ => ?_
  have e : hlinOut V c (ix2 n j) = linAt V c n j := (congrFun (hlin_eq V c) (ix2 n j)).trans (linArr_apply V c n j)
  rw [e]

end Value

end Cert.KernelIdeal.Hand

end
-- ==== Proof.KI.R1Val.lean ====
import proofs.«120849_j36893769073013_1_alg».proof.Proof.KI.R1
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-!
# The second kernel region at the extended reals: the array it leaves, entry by entry

At row n, column j the region leaves max (x n j * scale j + shift j) 0, where x, scale and shift
are the three input arrays as the region finds them.

First one entry of the body's result on a tile; then the passage from tiles to the array: what a
grid point writes back is its block of one function of the input arrays, and the 25 blocks of 2000
rows cover the 50000 rows.
-/

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx

/-! ## One element of the body's result -/

/-- The body's result at row p, column q of a tile: the tile's entry times the scale's, plus the
    shift's, cut off below at zero. Both vectors are first laid out as one row and that row
    repeated over the 2000 rows; the constant zero is the zero word at every entry. -/
theorem relu_pay_apply (x : Vec Ideal S2000x128 .f32) (a b : Vec Ideal S128 .f32) (p : Fin 2000) (q : Fin 128) :
    k1_pay1 x a b (ix2 p q) = max (x (ix2 p q) * a (ix1 q) + b (ix1 q)) 0 := by
  unfold k1_pay1
  simp only [maximumf_apply, addf_apply, mulf_apply, broadcast_apply, shapeCast_self,
    broadcastTo_1b_ab_apply, shapeCast_a_1a_apply]
  exact congrArg (max _) Ideal.ofBits_zero_f32

/-! ## The array the region leaves -/

/-- The rectified affine image of a [50000,128] array under a per-column scale and shift. -/
def reluArr (X : S50000x128.Idx → Ideal .f32) (a b : S128.Idx → Ideal .f32) : S50000x128.Idx → Ideal .f32 :=
  fun i => max (X i * a (ix1 (i 1)) + b (ix1 (i 1))) 0

theorem zero_offsets2 : (![0, 0] : Fin 2 → Nat) = fun _ => 0 := funext fun a => by fin_cases a <;> rfl
theorem zero_offsets1 : (![0] : Fin 1 → Nat) = fun _ => 0 := funext fun a => by fin_cases a <;> rfl

/-- The printed index maps over the grid: the input tile and the output tile are block (t, 0) at
    point t, and each vector is its only block. -/
theorem index_facts1 : ∀ t : Fin cfg1.N,
    win1_0.index t (0 : Fin 2) = t.val ∧ win1_0.index t (1 : Fin 2) = 0
    ∧ win1_1.index t (0 : Fin 1) = 0 ∧ win1_2.index t (0 : Fin 1) = 0
    ∧ win1_3.index t (0 : Fin 2) = t.val ∧ win1_3.index t (1 : Fin 2) = 0 :=
  (by decide +kernel : ∀ t : Fin grid1.N, _)

-- the core's buffer contents when the region is entered, at the extended reals
variable (V : (c : Dev nD) → (b : Ref sig .tc) → Buf (Elt Ideal) ((c : Thread nD τ).loc b))

/-- What point t writes back is block t of the rectified affine image of the arrays as found:
    the output tile and the input tile are the same rows of their arrays, and each vector's only
    block is the vector. -/
theorem flushed1_out (c : Dev nD) (t : Fin cfg1.N) :
    (dat1 (F := Ideal) V c).flushed 3 t
      = ((cfg1.win 3).blk t).view.read (Elt Ideal) (reluArr (V c main_v15_0) (V c main_v29) (V c main_v31)) := by
  show (cfg1.win 3).cut (grid1.coords t) ((dat1 (F := Ideal) V c).after 3 t) = _
  rw [after1_out]
  unfold reluTile
  rw [View.canon_unit_zero zero_offsets2]
  simp only [View.ld_unit_zero (S := S2000x128) zero_offsets2, View.ld_unit_zero (S := S128) zero_offsets1]
  obtain ⟨e00, e01, e1, e2, e30, e31⟩ := index_facts1 t
  funext y
  obtain ⟨p, q, rfl⟩ : ∃ (p : Fin 2000) (q : Fin 128), y = ix2 p q := ⟨y 0, y 1, eq_ix2 y⟩
  show k1_pay1 (tile1 V c 0 t) (tile1 V c 1 t) (tile1 V c 2 t) (ix2 p q)
    = reluArr (V c main_v15_0) (V c main_v29) (V c main_v31) (((cfg1.win 3).blk t).view.emb (ix2 p q))
  rw [relu_pay_apply]
  have hx : tile1 V c 0 t (ix2 p q) = V c main_v15_0 (((cfg1.win 3).blk t).view.emb (ix2 p q)) := by
    show V c main_v15_0 (((cfg1.win 0).blk t).view.emb (ix2 p q)) = _
    refine congrArg (V c main_v15_0) (funext fun a => Fin.ext ?_)
    match a with
    | ⟨0, _⟩ =>
      show win1_0.index t (0 : Fin 2) * 2000 + 1 * p.val = win1_3.index t (0 : Fin 2) * 2000 + 1 * p.val
      omega
    | ⟨1, _⟩ =>
      show win1_0.index t (1 : Fin 2) * 128 + 1 * q.val = win1_3.index t (1 : Fin 2) * 128 + 1 * q.val
      omega
  have ha : tile1 V c 1 t (ix1 q) = V c main_v29 (ix1 (((cfg1.win 3).blk t).view.emb (ix2 p q) 1)) := by
    show V c main_v29 (((cfg1.win 1).blk t).view.emb (ix1 q)) = _
    refine congrArg (V c main_v29) (funext fun a => Fin.ext ?_)
    match a with
    | ⟨0, _⟩ =>
      show win1_1.index t (0 : Fin 1) * 128 + 1 * q.val = win1_3.index t (1 : Fin 2) * 128 + 1 * q.val
      omega
  have hb : tile1 V c 2 t (ix1 q) = V c main_v31 (ix1 (((cfg1.win 3).blk t).view.emb (ix2 p q) 1)) := by
    show V c main_v31 (((cfg1.win 2).blk t).view.emb (ix1 q)) = _
    refine congrArg (V c main_v31) (funext fun a => Fin.ext ?_)
    match a with
    | ⟨0, _⟩ =>
      show win1_2.index t (0 : Fin 1) * 128 + 1 * q.val = win1_3.index t (1 : Fin 2) * 128 + 1 * q.val
      omega
  rw [hx, ha, hb]
  rfl

/-- An index of the output array lies in point t's block iff each coordinate lies in the block's
    range on its axis. -/
theorem mem_block1_out (t : Fin cfg1.N) (i : S50000x128.Idx) :
    i ∈ ((cfg1.win 3).blk t).view.set
      ↔ ∀ a : Fin 2, win1_3.index t a * S2000x128.size a ≤ (i a).val
          ∧ (i a).val < win1_3.index t a * S2000x128.size a + S2000x128.size a := by
  show i ∈ ((View.whole main_v32).slice (win1_3.rect t)).set ↔ _
  rw [View.set_slice_whole, Rect.mem_set_unit]
  exact Iff.rfl

/-- Every row lies in some point's block: row n in that of point n / 2000. -/
theorem cover1_out (i : S50000x128.Idx) :
    ∃ t : Fin cfg1.N, (cfg1.win 3).flush t = true ∧ i ∈ ((cfg1.win 3).blk t).view.set := by
  have hr : (i 0).val < 50000 := (i 0).isLt
  have hc : (i 1).val < 128 := (i 1).isLt
  refine ⟨⟨(i 0).val / 2000, by rw [show cfg1.N = 25 from N_1]; omega⟩, flush1_3 _, ?_⟩
  rw [mem_block1_out]
  obtain ⟨-, -, -, -, e30, e31⟩ := index_facts1 ⟨(i 0).val / 2000, by rw [show cfg1.N = 25 from N_1]; omega⟩
  intro a
  match a with
  | ⟨0, _⟩ =>
    show win1_3.index _ (0 : Fin 2) * 2000 ≤ (i 0).val ∧ (i 0).val < win1_3.index _ (0 : Fin 2) * 2000 + 2000
    rw [e30]
    show (i 0).val / 2000 * 2000 ≤ (i 0).val ∧ (i 0).val < (i 0).val / 2000 * 2000 + 2000
    omega
  | ⟨1, _⟩ =>
    show win1_3.index _ (1 : Fin 2) * 128 ≤ (i 1).val ∧ (i 1).val < win1_3.index _ (1 : Fin 2) * 128 + 128
    rw [e31]
    omega

/-- The output array after the run is the rectified affine image of the arrays as found. -/
theorem arr1_out (c : Dev nD) :
    (dat1 (F := Ideal) V c).arrAt 3 cfg1.N = reluArr (V c main_v15_0) (V c main_v29) (V c main_v31) :=
  (dat1 (F := Ideal) V c).arrAt_eq_of_cover 3 _ (fun t _ => flushed1_out V c t) cover1_out

/-- The output array after the run, entry by entry. -/
theorem h_apply (c : Dev nD) (n : Fin 50000) (j : Fin 128) :
    (dat1 (F := Ideal) V c).arrAt 3 cfg1.N (ix2 n j)
      = max (α := Ideal .f32)
          (HAdd.hAdd (α := Ideal .f32) (β := Ideal .f32) (γ := Ideal .f32)
            (HMul.hMul (α := Ideal .f32) (β := Ideal .f32) (γ := Ideal .f32)
              (V c main_v15_0 (ix2 n j)) (V c main_v29 (ix1 j)))
            (V c main_v31 (ix1 j)))
          0 := by
  rw [arr1_out]
  rfl

end Cert.KernelIdeal.Hand

end
-- ==== Proof.KI.R2Val.lean ====
/-
  The value the second linear layer's region leaves in its result array, at the ideal values: entry (n, j) is row n of
  agg2 against column j of W2[:128], plus row n of h against column j of W2[128:], plus b2 at j — over the arrays as the
  region finds them.

  First the body's arithmetic on one 2000-row tile, entry by entry: two contractions over the 128 columns into zero
  accumulators (the narrowing of the operands to bf16 is the identity on extended reals), added, plus the bias along
  the rows. Then from the tiles to the array: point t writes back rows 2000·t … 2000·t + 1999, the operand tiles at t
  are those same rows, the weights and the bias are whole, and the 25 tiles fill the 50000 rows.
-/
import proofs.«120849_j36893769073013_1_alg».proof.Proof.KI.R2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The layer's arithmetic on one tile, entry by entry

The body's value is two products of a 2000×128 tile with a 128×64 weight half, each contracted over the 128 columns
into a zero accumulator, their sum, and the bias added to every row. At the ideal values the narrowing of the
operands to bf16 changes nothing, and a product into the zero accumulator is the plain sum over the contracted index. -/

/-- The tile-by-weights product's index maps, axis by axis: the left operand is read at (row of the result,
    contracted index), the right at (contracted index, column of the result). -/
theorem lhs_tileDot_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_tileDot_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_tileDot_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_tileDot_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- A tile times a weight half into the zero accumulator, at row p and column q: the sum over the 128 contracted
    positions of the tile's row-p entries times the weights' column-q entries. -/
theorem tileDot_apply {φ₁ φ₂ : FTy} (x : FVec Ideal S2000x128 φ₁) (w : FVec Ideal S128x64 φ₂) (p : Fin 2000) (q : Fin 64) :
    matmul dot_S2000x128_S128x64_S2000x64_1_0_0_1_n_n none x w (constant (F := Ideal) S2000x64 .f32 0x00000000#32) (ix2 p q)
      = ∑ k : Fin 128, x (ix2 p k) * w (ix2 k q) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact lhs_tileDot_0 _ _
    | ⟨1, _⟩ => exact (lhs_tileDot_1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (rhs_tileDot_0 _ _).trans hk
    | ⟨1, _⟩ => exact rhs_tileDot_1 _ _)
  rw [el, er]

/-- The body's value at row p and column q of the tile: the two contractions over the 128 columns, added, plus the
    bias at q. -/
theorem linear2_apply (a h : Vec Ideal S2000x128 .f32) (wa wh : Vec Ideal S128x64 .f32) (b : Vec Ideal S64 .f32)
    (p : Fin 2000) (q : Fin 64) :
    k2_pay1 (F := Ideal) a h wa wh b (ix2 p q)
      = ((∑ k : Fin 128, a (ix2 p k) * wa (ix2 k q)) + (∑ k : Fin 128, h (ix2 p k) * wh (ix2 k q))) + b (ix1 q) := by
  unfold k2_pay1
  simp only [shapeCast_self]
  rw [addf_apply, addf_apply, tileDot_apply, tileDot_apply, broadcastTo_1b_ab_apply, shapeCast_a_1a_apply]
  rfl

/-! ## From the tiles to the array

Point t of the grid writes back rows 2000·t … 2000·t + 1999 of the result, and the 25 tiles fill the 50000 rows. The
operand tiles at point t are the same rows of the operands; the weight halves and the bias are whole. So what every
point writes back is that point's rows of ONE function of the five arrays, and the array ends holding that function. -/

-- the core's buffer contents when the region is entered, at the ideal values
variable (V : (c : Dev nD) → (b : Ref sig .tc) → Buf (Elt Ideal) ((c : Thread nD τ).loc b))

/-- The layer on whole arrays: entry (n, j) of agg2 · W2[:128] + h · W2[128:] + b2. -/
def linear2Array (A H : Vec Ideal S50000x128 .f32) (WA WH : Vec Ideal S128x64 .f32) (B : Vec Ideal S64 .f32) :
    Vec Ideal S50000x64 .f32 :=
  fun i => ((∑ k : Fin 128, A (ix2 (i 0) k) * WA (ix2 k (i 1))) + (∑ k : Fin 128, H (ix2 (i 0) k) * WH (ix2 k (i 1))))
    + B (ix1 (i 1))

theorem zeros2 : (![0, 0] : Fin 2 → Nat) = fun _ => 0 := funext fun a => by fin_cases a <;> rfl
theorem zeros1 : (![0] : Fin 1 → Nat) = fun _ => 0 := funext fun a => by fin_cases a <;> rfl

/-- The index maps over the grid: the operands' tiles move with the result's, down the rows, one tile per point; the
    weight halves and the bias stay at their one block. -/
theorem tile_indices : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- What point t writes back is rows 2000·t … of the layer on the arrays as the region finds them. -/
theorem flushed5_eq (c : Dev nD) (t : Fin cfg2.N) :
    (dat2 (F := Ideal) V c).flushed 5 t = ((cfg2.win 5).blk t).view.read (Elt Ideal)
      (linear2Array (V c main_v45) (V c main_v32) (V c main_v46) (V c main_v47) (V c main_arg6)) := by
  show (cfg2.win 5).cut (grid2.coords t) ((dat2 (F := Ideal) V c).after 5 t) = _
  rw [after2_5]
  unfold linear2Tile allOut allRows allWeights allBias
  rw [View.canon_unit_zero zeros2]
  simp only [View.ld_unit_zero (S := S2000x128) zeros2, View.ld_unit_zero (S := S128x64) zeros2, View.ld_unit_zero (S := S64) zeros1]
  obtain ⟨e00, e01, e10, e11, e20, e21, e30, e31, e40, e50, e51⟩ := tile_indices t
  funext y
  obtain ⟨p, q, rfl⟩ : ∃ (p : Fin 2000) (q : Fin 64), y = ix2 p q := ⟨y 0, y 1, eq_ix2 y⟩
  refine (linear2_apply (tile2 V c 0 t) (tile2 V c 1 t) (tile2 V c 2 t) (tile2 V c 3 t) (tile2 V c 4 t) p q).trans ?_
  show _ = linear2Array (V c main_v45) (V c main_v32) (V c main_v46) (V c main_v47) (V c main_arg6)
    (((cfg2.win 5).blk t).view.emb (ix2 p q))
  unfold linear2Array
  -- a tile's entry is the array's entry at the same row of the result's tile; a weight's or the bias's is the array's own
  have rowsA : ∀ k : Fin 128, ((cfg2.win 0).blk t).view.emb (ix2 p k)
      = (ix2 ((((cfg2.win 5).blk t).view.emb (ix2 p q)) 0) k : S50000x128.Idx) := fun k => by
    funext a; apply Fin.ext
    match a with
    | ⟨0, _⟩ => show win2_0.index t (0 : Fin 2) * 2000 + 1 * p.val = win2_5.index t (0 : Fin 2) * 2000 + 1 * p.val; omega
    | ⟨1, _⟩ => show win2_0.index t (1 : Fin 2) * 128 + 1 * k.val = k.val; omega
  have rowsH : ∀ k : Fin 128, ((cfg2.win 1).blk t).view.emb (ix2 p k)
      = (ix2 ((((cfg2.win 5).blk t).view.emb (ix2 p q)) 0) k : S50000x128.Idx) := fun k => by
    funext a; apply Fin.ext
    match a with
    | ⟨0, _⟩ => show win2_1.index t (0 : Fin 2) * 2000 + 1 * p.val = win2_5.index t (0 : Fin 2) * 2000 + 1 * p.val; omega
    | ⟨1, _⟩ => show win2_1.index t (1 : Fin 2) * 128 + 1 * k.val = k.val; omega
  have colsA : ∀ k : Fin 128, ((cfg2.win 2).blk t).view.emb (ix2 k q)
      = (ix2 k ((((cfg2.win 5).blk t).view.emb (ix2 p q)) 1) : S128x64.Idx) := fun k => by
    funext a; apply Fin.ext
    match a with
    | ⟨0, _⟩ => show win2_2.index t (0 : Fin 2) * 128 + 1 * k.val = k.val; omega
    | ⟨1, _⟩ => show win2_2.index t (1 : Fin 2) * 64 + 1 * q.val = win2_5.index t (1 : Fin 2) * 64 + 1 * q.val; omega
  have colsH : ∀ k : Fin 128, ((cfg2.win 3).blk t).view.emb (ix2 k q)
      = (ix2 k ((((cfg2.win 5).blk t).view.emb (ix2 p q)) 1) : S128x64.Idx) := fun k => by
    funext a; apply Fin.ext
    match a with
    | ⟨0, _⟩ => show win2_3.index t (0 : Fin 2) * 128 + 1 * k.val = k.val; omega
    | ⟨1, _⟩ => show win2_3.index t (1 : Fin 2) * 64 + 1 * q.val = win2_5.index t (1 : Fin 2) * 64 + 1 * q.val; omega
  have colB : ((cfg2.win 4).blk t).view.emb (ix1 q)
      = (ix1 ((((cfg2.win 5).blk t).view.emb (ix2 p q)) 1) : S64.Idx) := by
    funext a; apply Fin.ext
    match a with
    | ⟨0, _⟩ => show win2_4.index t (0 : Fin 1) * 64 + 1 * q.val = win2_5.index t (1 : Fin 2) * 64 + 1 * q.val; omega
  refine congrArg₂ (· + ·) (congrArg₂ (· + ·) (Finset.sum_congr rfl fun k _ => ?_) (Finset.sum_congr rfl fun k _ => ?_)) ?_
  · exact congrArg₂ (· * ·) (congrArg (V c main_v45) (rowsA k)) (congrArg (V c main_v46) (colsA k))
  · exact congrArg₂ (· * ·) (congrArg (V c main_v32) (rowsH k)) (congrArg (V c main_v47) (colsH k))
  · exact congrArg (V c main_arg6) colB

/-- An index of the result lies in point t's tile iff each coordinate lies in the tile's range on its axis. -/
theorem mem_tile5 (t : Fin cfg2.N) (i : S50000x64.Idx) :
    i ∈ ((cfg2.win 5).blk t).view.set ↔ ∀ a : Fin 2, win2_5.index t a * S2000x64.size a ≤ (i a).val
      ∧ (i a).val < win2_5.index t a * S2000x64.size a + S2000x64.size a := by
  show i ∈ ((View.whole main_v48).slice (win2_5.rect t)).set ↔ _
  rw [View.set_slice_whole, Rect.mem_set_unit]
  exact Iff.rfl

/-- The tiles fill the result: row n is in the tile of point n / 2000, and every point writes its tile back. -/
theorem tiles_cover (i : S50000x64.Idx) :
    ∃ t : Fin cfg2.N, (cfg2.win 5).flush t = true ∧ i ∈ ((cfg2.win 5).blk t).view.set := by
  have hi0 : (i 0).val < 50000 := idx2_lt0 i
  have hi1 : (i 1).val < 64 := idx2_lt1 i
  obtain ⟨t, ht⟩ : ∃ t : Fin cfg2.N, t.val = (i 0).val / 2000 :=
    ⟨⟨(i 0).val / 2000, Nat.lt_of_lt_of_eq (by omega) N_2.symm⟩, rfl⟩
  obtain ⟨-, -, -, -, -, -, -, -, -, e50, e51⟩ := tile_indices t
  refine ⟨t, flush2_5 t, ?_⟩
  rw [mem_tile5]
  intro a
  match a with
  | ⟨0, _⟩ =>
    show win2_5.index t (0 : Fin 2) * 2000 ≤ (i 0).val ∧ (i 0).val < win2_5.index t (0 : Fin 2) * 2000 + 2000
    omega
  | ⟨1, _⟩ =>
    show win2_5.index t (1 : Fin 2) * 64 ≤ (i 1).val ∧ (i 1).val < win2_5.index t (1 : Fin 2) * 64 + 64
    omega

/-- The result array after the region: the layer on the arrays as the region found them. -/
theorem out_array (c : Dev nD) :
    (dat2 (F := Ideal) V c).arrAt 5 cfg2.N
      = linear2Array (V c main_v45) (V c main_v32) (V c main_v46) (V c main_v47) (V c main_arg6) :=
  (dat2 (F := Ideal) V c).arrAt_eq_of_cover 5 _ (fun t _ => flushed5_eq V c t) tiles_cover

/-- The layer on whole arrays, read at row n and column j. -/
theorem linear2Array_apply (A H : Vec Ideal S50000x128 .f32) (WA WH : Vec Ideal S128x64 .f32) (B : Vec Ideal S64 .f32)
    (n : Fin 50000) (j : Fin 64) :
    linear2Array A H WA WH B (ix2 n j)
      = ((∑ k : Fin 128, A (ix2 n k) * WA (ix2 k j)) + (∑ k : Fin 128, H (ix2 n k) * WH (ix2 k j))) + B (ix1 j) := rfl

/-- Entry (n, j) of the result after the region: the layer on the arrays as the region found them, at (n, j) — row n of
    agg2 against column j of the first weight half, plus row n of h against column j of the second, plus the bias at j
    (the sums written out by the lemma above). -/
theorem out_apply (c : Dev nD) (n : Fin 50000) (j : Fin 64) :
    (dat2 (F := Ideal) V c).arrAt 5 cfg2.N (ValueIdx.ix2 n j)
      = linear2Array (V c main_v45) (V c main_v32) (V c main_v46) (V c main_v47) (V c main_arg6) (ValueIdx.ix2 n j) :=
  congrFun (out_array V c) (ix2 n j)

end Cert.KernelIdeal.Hand

end
-- ==== Proof.FinitePre.lean ====
/-
  Every float input is a real number. The precondition is a conjunction, over the eight float arrays, of
  "every entry's absolute value is below plus infinity"; on the extended reals `max x (-x) < ⊤` says that `x` is
  neither infinity, hence a real number.
-/
import proofs.«120849_j36893769073013_1_alg».proof.Pre_finite_inputs
import proofs.«120849_j36893769073013_1_alg».proof.Proof.LibBatchNorm
import Idealize.ShloMosaic.Lib.ReduceAll
import Idealize.ShloMosaic.Lib.ValueIdx
import Idealize.ShloMosaic.Lib.StableHlo.Predicate

noncomputable section

namespace Cert.FinitePre

open Idealize.ShloMosaic Cert.Pre_finite_inputs Cert.BatchNorm

/-- The rank-0 shape has one index. -/
instance : Subsingleton S_.Idx := ⟨fun a b => funext fun d => d.elim0⟩

/-- The f32 pattern `0x7F800000` denotes plus infinity. -/
theorem ofBits_inf : Ideal.ofBits .f32 0x7F800000#32 = (⊤ : EReal) := by simp [Ideal.ofBits, Ideal.ieee]

/-- An extended real whose absolute value `max x (-x)` compares below plus infinity is a real number. -/
theorem isReal_of_abs_lt_inf (x : EReal)
    (h : Ideal.cmp .olt (max x (-x)) (Ideal.ofBits .f32 0x7F800000#32) = 1#1) : IsReal x := by
  rw [ofBits_inf] at h
  have hlt : max x (-x) < ⊤ := by
    have := (StableHlo.Predicate.ofBool_eq_one_iff _).1 h
    exact of_decide_eq_true this
  refine isReal_of_ne ?_ ?_
  · rintro rfl
    simp at hlt
  · rintro rfl
    simp at hlt

/-- One array: if the conjunction over all entries of "absolute value below plus infinity" is true, every entry is
a real number. -/
theorem isReal_of_all {s : Shape} {axes : List (Fin s.rank)} (x : FVec Ideal s .f32)
    (hb : S_.BroadcastsInDim s (![] : Fin 0 → Fin s.rank)) (hr : s.ReducesTo axes S_) (hS : 0 < S_.numel)
    (e : Host.reduce IntOp.andi
          (cmpf .olt (Host.absf x) (broadcastInDim s ![] hb (constant (F := Ideal) S_ .f32 0x7F800000#32)))
          (constantI S_ 1 1#1) hr hS ValueIdx.ix0 = 1#1)
    (i : s.Idx) : IsReal (x i) :=
  isReal_of_abs_lt_inf (x i) (Host.reduce_andi_all _ _ hr hS ValueIdx.ix0 e i)

/-- The precondition gives: every entry of each of the eight float arrays is a real number. -/
theorem finite_of_pre [Cert.Pre_finite_inputs.Facts]
    (x0 : FVec Ideal S50000x128 .f32) (x1 : FVec Ideal S256x128 .f32) (x2 : FVec Ideal S128 .f32)
    (x3 : FVec Ideal S128 .f32) (x4 : FVec Ideal S128 .f32) (x5 : FVec Ideal S256x64 .f32)
    (x6 : FVec Ideal S64 .f32) (x7 : FVec Ideal S800000 .f32) (x8 : IVec S800000 32) (x9 : IVec S800000 32)
    (h : Cert.Pre_finite_inputs.fn (F := Ideal) x0 x1 x2 x3 x4 x5 x6 x7 x8 x9 = fun _ => 1#1) :
    (∀ i, IsReal (x0 i)) ∧ (∀ i, IsReal (x1 i)) ∧ (∀ i, IsReal (x2 i)) ∧ (∀ i, IsReal (x3 i)) ∧
      (∀ i, IsReal (x4 i)) ∧ (∀ i, IsReal (x5 i)) ∧ (∀ i, IsReal (x6 i)) ∧ (∀ i, IsReal (x7 i)) := by
  have h0 := congrFun h ValueIdx.ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all x0 _ _ _ e0, isReal_of_all x1 _ _ _ e1, isReal_of_all x2 _ _ _ e2,
    isReal_of_all x3 _ _ _ e3, isReal_of_all x4 _ _ _ e4, isReal_of_all x5 _ _ _ e5,
    isReal_of_all x6 _ _ _ e6, isReal_of_all x7 _ _ _ e7⟩

end Cert.FinitePre

end
-- ==== Proof.LibReal.lean ====
/-
  Real-valued arrays over the extended reals.

  An extended real is REAL when it is neither +∞ nor -∞; an array is real when every element is. The exact
  (idealized) operations keep real arrays real: products and sums of reals are real, so are maxima and selections,
  a gather only moves elements, and finite sums (a matrix product, an accumulating scatter) of reals are real.
  The reciprocal square root of a positive real is real.
-/
import Idealize.ShloMosaic.PureOps.Ideal
import Idealize.ShloMosaic.PureOps.Ideal.Laws
import Idealize.ShloMosaic.PureOps.Contract
import Idealize.ShloMosaic.Lib.ValueIdx
import Idealize.ShloMosaic.Lib.IdealHost

noncomputable section

namespace Cert.RealVal

open Idealize.ShloMosaic

open scoped BigOperators

/-- Every element is a real number: neither +∞ nor -∞. -/
def IsReal {ι : Type} (v : ι → EReal) : Prop := ∀ i, v i ≠ ⊤ ∧ v i ≠ ⊥

theorem IsReal.exists_real {ι : Type} {v : ι → EReal} (h : IsReal v) (i : ι) : ∃ r : ℝ, v i = (r : EReal) :=
  ⟨(v i).toReal, (EReal.coe_toReal (h i).1 (h i).2).symm⟩

/-! ### One extended real -/

/-- One extended real is real: neither +∞ nor -∞. -/
def Real1 (x : EReal) : Prop := x ≠ ⊤ ∧ x ≠ ⊥

theorem isReal_iff {ι : Type} {v : ι → EReal} : IsReal v ↔ ∀ i, Real1 (v i) := Iff.rfl

theorem real1_coe (r : ℝ) : Real1 (r : EReal) := ⟨EReal.coe_ne_top r, EReal.coe_ne_bot r⟩

theorem Real1.exists_coe {x : EReal} (h : Real1 x) : ∃ r : ℝ, x = (r : EReal) :=
  ⟨x.toReal, (EReal.coe_toReal h.1 h.2).symm⟩

theorem real1_zero : Real1 (0 : EReal) := by
  have := real1_coe 0
  rwa [EReal.coe_zero] at this

theorem real1_one : Real1 (1 : EReal) := by
  have := real1_coe 1
  rwa [EReal.coe_one] at this

/-- The sum of two reals is real. -/
theorem Real1.add {a b : EReal} (ha : Real1 a) (hb : Real1 b) : Real1 (a + b) := by
  obtain ⟨r, rfl⟩ := ha.exists_coe
  obtain ⟨q, rfl⟩ := hb.exists_coe
  rw [← EReal.coe_add]
  exact real1_coe _

/-- The product of two reals is real. -/
theorem Real1.mul {a b : EReal} (ha : Real1 a) (hb : Real1 b) : Real1 (a * b) := by
  obtain ⟨r, rfl⟩ := ha.exists_coe
  obtain ⟨q, rfl⟩ := hb.exists_coe
  rw [← EReal.coe_mul]
  exact real1_coe _

/-- The maximum of two reals is one of them. -/
theorem Real1.max {a b : EReal} (ha : Real1 a) (hb : Real1 b) : Real1 (max a b) := by
  rcases max_choice a b with h | h <;> rw [h] <;> assumption

/-- A finite sum of reals is real. -/
theorem real1_sum {κ : Type} (s : Finset κ) (f : κ → EReal) (h : ∀ k ∈ s, Real1 (f k)) : Real1 (∑ k ∈ s, f k) :=
  Finset.sum_induction f Real1 (fun _ _ ha hb => ha.add hb) real1_zero h

/-- The reciprocal square root of a positive real is the real `(√r)⁻¹`. -/
theorem Real1.rsqrt {x : EReal} (hx : Real1 x) (hpos : 0 < x) : Real1 (Ideal.rsqrt x) := by
  obtain ⟨r, rfl⟩ := hx.exists_coe
  have hr : 0 < r := by exact_mod_cast hpos
  rw [Ideal.rsqrt_coe, if_neg (not_lt.mpr hr.le), if_neg hr.ne']
  exact real1_coe _

/-! ### Arrays: the operations of a host program, generic in the shapes -/

section Arrays
variable {s t : Shape} {φ : FTy}

/-- The zero word's splat is the array of zeros. -/
theorem constant_zero_apply (s : Shape) (i : s.Idx) : constant (F := Ideal) s .f32 0x00000000#32 i = 0 :=
  Ideal.ofBits_zero_f32

/-- The word 0x3F800000's splat is the array of ones. -/
theorem constant_one_apply (s : Shape) (i : s.Idx) : constant (F := Ideal) s .f32 0x3F800000#32 i = 1 :=
  Ideal.ofBits_one_f32

theorem isReal_constant_zero (s : Shape) : IsReal (constant (F := Ideal) s .f32 0x00000000#32) := fun i => by
  rw [constant_zero_apply]; exact real1_zero

theorem isReal_constant_one (s : Shape) : IsReal (constant (F := Ideal) s .f32 0x3F800000#32) := fun i => by
  rw [constant_one_apply]; exact real1_one

/-- A broadcast's element is an element of its operand: whatever holds of every operand element holds of
    every result element. -/
theorem broadcastInDim_forall {α : Type} (P : α → Prop) (dims : Fin s.rank → Fin t.rank) (h : s.BroadcastsInDim t dims)
    {x : s.Idx → α} (hx : ∀ i, P (x i)) : ∀ j, P (broadcastInDim t dims h x j) :=
  fun _ => hx _

theorem isReal_broadcastInDim (dims : Fin s.rank → Fin t.rank) (h : s.BroadcastsInDim t dims) {x : s.Idx → EReal}
    (hx : IsReal x) : IsReal (broadcastInDim t dims h x) :=
  broadcastInDim_forall Real1 dims h hx

theorem isReal_mulf {x y : FVec Ideal s φ} (hx : IsReal x) (hy : IsReal y) : IsReal (mulf x y) :=
  fun i => Real1.mul (hx i) (hy i)

theorem isReal_addf {x y : FVec Ideal s φ} (hx : IsReal x) (hy : IsReal y) : IsReal (addf x y) :=
  fun i => Real1.add (hx i) (hy i)

theorem isReal_maximumf {x y : FVec Ideal s φ} (hx : IsReal x) (hy : IsReal y) : IsReal (maximumf x y) :=
  fun i => Real1.max (hx i) (hy i)

/-- A maximum is at least its right operand. -/
theorem le_maximumf_right (x y : FVec Ideal s φ) (i : s.Idx) : y i ≤ maximumf x y i := le_max_right _ _

/-- A selection's element is an element of one of the two branches. -/
theorem isReal_select (c : IVec s 1) {a b : s.Idx → EReal} (ha : IsReal a) (hb : IsReal b) : IsReal (select c a b) :=
  fun i => by
    show Real1 (Scalar.select (c i) (a i) (b i))
    unfold Scalar.select
    split
    · exact ha i
    · exact hb i

/-- The host's reciprocal square root of an array of positive reals is real. -/
theorem isReal_hostRsqrt {x : FVec Ideal s φ} (hx : IsReal x) (hpos : ∀ i, 0 < x i) : IsReal (Host.rsqrt x) :=
  fun i => Real1.rsqrt (hx i) (hpos i)

/-- A gather's element is an element of its operand. -/
theorem isReal_gather {si : Shape} {w : Nat} (d : GatherDims s si t) {x : s.Idx → EReal} (hx : IsReal x) (idx : IVec si w) :
    IsReal (Host.gather d x idx) :=
  fun _ => hx _

/-- An accumulating scatter's element is the operand's plus a finite sum of update elements. -/
theorem isReal_scatterAdd {si u : Shape} {w : Nat} (d : ScatterDims s si u) {x : FVec Ideal s φ} (hx : IsReal x)
    (idx : IVec si w) {upd : FVec Ideal u φ} (hu : IsReal upd) : IsReal (Host.scatterAdd d x idx upd) :=
  fun i => by
    have e : Host.scatterAdd d x idx upd i = Ideal.hostScatterAdd d x idx upd i := rfl
    rw [e]
    unfold Ideal.hostScatterAdd
    exact Real1.add (hx i) (real1_sum _ _ fun j _ => hu j)

/-- An accumulating scatter of elements that are not negative is at least its operand. -/
theorem le_scatterAdd {si u : Shape} {w : Nat} (d : ScatterDims s si u) (x : FVec Ideal s φ)
    (idx : IVec si w) {upd : FVec Ideal u φ} (hu : ∀ j, 0 ≤ upd j) (i : s.Idx) : x i ≤ Host.scatterAdd d x idx upd i := by
  have e : Host.scatterAdd d x idx upd i = Ideal.hostScatterAdd d x idx upd i := rfl
  rw [e]
  unfold Ideal.hostScatterAdd
  exact le_add_of_nonneg_right (Finset.sum_nonneg fun j _ => hu j)

/-- A matrix product's element is a finite sum of products. -/
theorem isReal_dotGeneral {sl sr so : Shape} {φ₁ φ₂ : FTy} (d : DotDims sl sr so) (prec : Option ContractPrecision)
    {lhs : FVec Ideal sl φ₁} (hl : IsReal lhs) {rhs : FVec Ideal sr φ₂} (hr : IsReal rhs) :
    IsReal (Host.dotGeneral d prec lhs rhs) :=
  fun j => by
    show Real1 (FloatOps.dotGeneral d prec .single lhs rhs j)
    rw [Ideal.dotGeneral_apply]
    exact real1_sum _ _ fun k _ => Real1.mul (hl _) (hr _)

end Arrays

end Cert.RealVal

end
-- ==== Proof.RefSide.lean ====
/-
  The reference side, index by index. The host program's value is read one operation at a time by the generated
  stage functions; here the stages are composed into the specification of the two-layer graph network:
  each layer's linear map is a sum over the aggregated columns plus a sum over the node's own columns plus the bias,
  the batch statistics are column sums over the rows divided by the row count, the activation is the normalised
  value clipped at zero, and the two aggregations are one function of their table. From real inputs the first
  aggregation and the first linear map are real-valued.
-/
import proofs.«120849_j36893769073013_1_alg».proof.Proof.Gen.ReferenceIdeal.Run
import proofs.«120849_j36893769073013_1_alg».proof.Proof.Gen.ReferenceIdeal.Read
import proofs.«120849_j36893769073013_1_alg».proof.Proof.LibReal
import Mathlib.Algebra.BigOperators.Fin

noncomputable section

namespace Cert.ReferenceIdeal.RefValue

open Cert.ReferenceIdeal Cert.ReferenceIdeal.Gen Cert.ReferenceIdeal.Read Idealize.ShloMosaic Idealize.ShloMosaic.ValueIdx
  Cert.RealVal
open scoped BigOperators

/-! ## Two arrays joined along their columns, read at an index -/

section Cat
variable {α : Type} {N C1 C2 C : Nat}
  (h : Shape.Concatenates [(⟨2, ![N, C1]⟩ : Shape), ⟨2, ![N, C2]⟩] ⟨2, ![N, C]⟩ 1)
  (x : (⟨2, ![N, C1]⟩ : Shape).Idx → α) (y : (⟨2, ![N, C2]⟩ : Shape).Idx → α)

/-- At an index whose column lies in the first piece the join is the first piece, same row and column. -/
theorem concat_cols_left (j : (⟨2, ![N, C]⟩ : Shape).Idx) (n : Fin N) (k : Fin C1)
    (h0 : (j 0).val = n.val) (h1 : (j 1).val = k.val) :
    concatenate (⟨2, ![N, C]⟩ : Shape) 1 [⟨⟨2, ![N, C1]⟩, x⟩, ⟨⟨2, ![N, C2]⟩, y⟩] h j = x (ix2 n k) :=
  concatenate_pair_apply_left 1 x y h j rfl (ix2 n k) (fun b => by
    match b with
    | ⟨0, _⟩ => exact h0.symm
    | ⟨1, _⟩ => exact h1.symm)

/-- At an index whose column lies past the first piece the join is the second piece, the first piece's width less. -/
theorem concat_cols_right (j : (⟨2, ![N, C]⟩ : Shape).Idx) (n : Fin N) (k : Fin C2)
    (h0 : (j 0).val = n.val) (h1 : k.val + C1 = (j 1).val) :
    concatenate (⟨2, ![N, C]⟩ : Shape) 1 [⟨⟨2, ![N, C1]⟩, x⟩, ⟨⟨2, ![N, C2]⟩, y⟩] h j = y (ix2 n k) :=
  concatenate_pair_apply_right 1 x y h j rfl rfl (ix2 n k)
    (fun b hb => by
      match b with
      | ⟨0, _⟩ => exact h0.symm
      | ⟨1, _⟩ => exact absurd rfl hb)
    h1

end Cat

/-- The join of two real arrays is real: each element is an element of one of the two. -/
theorem isReal_concat_cols {N C1 C2 C : Nat} (hC : C = C1 + C2)
    (h : Shape.Concatenates [(⟨2, ![N, C1]⟩ : Shape), ⟨2, ![N, C2]⟩] ⟨2, ![N, C]⟩ 1)
    {x : (⟨2, ![N, C1]⟩ : Shape).Idx → EReal} {y : (⟨2, ![N, C2]⟩ : Shape).Idx → EReal} (hx : IsReal x) (hy : IsReal y) :
    IsReal (concatenate (⟨2, ![N, C]⟩ : Shape) 1 [⟨⟨2, ![N, C1]⟩, x⟩, ⟨⟨2, ![N, C2]⟩, y⟩] h) := fun i => by
  by_cases hlt : (i 1).val < C1
  · rw [concat_cols_left h x y i (i 0) ⟨(i 1).val, hlt⟩ rfl rfl]
    exact hx _
  · have hb : (i 1).val < C := idx2_lt1 i
    rw [concat_cols_right h x y i (i 0) ⟨(i 1).val - C1, by omega⟩ rfl (by show (i 1).val - C1 + C1 = (i 1).val; omega)]
    exact hy _

/-- A sum over 256 columns is the sum over the first 128 plus the sum over the last 128. -/
theorem sum_halves {M : Type} [AddCommMonoid M] (f : Fin 256 → M) :
    ∑ k, f k = (∑ k : Fin 128, f ⟨k.val, by omega⟩) + ∑ k : Fin 128, f ⟨128 + k.val, by omega⟩ :=
  Fin.sum_univ_add (a := 128) (b := 128) f

/-! ## The aggregation: one function of the table, the edge values and the two edge index arrays -/

section Spmm
variable {F : FTy → Type} [FloatOps F]

/-- Gather the table's rows at the source nodes (a negative index wrapped by the row count), scale row e by the
    edge value e, and add the rows into a zero table at the destination nodes. -/
def spmm (x : (⟨S50000x128, .f32⟩ : BufTy).Contents (Elt F)) (x7 : (⟨S800000, .f32⟩ : BufTy).Contents (Elt F))
    (x8 x9 : (⟨S800000, .i32⟩ : BufTy).Contents (Elt F)) : (⟨S50000x128, .f32⟩ : BufTy).Contents (Elt F) :=
  Host.scatterAdd scatter_S50000x128_S800000x1_S800000x128_1_0_0_1 (val_main_v10 (F := F)) (val_main_v11 (F := F) x9)
    (mulf (val_main_v8 (F := F) x7)
      (Host.gather gather_S50000x128_S800000x1_S800000x128_1_0_n_n_0_1_1128 x (val_main_v6 (F := F) x8)))

/-- The first layer's aggregation is the aggregation of the features. -/
theorem agg_eq_spmm (x0 : (⟨S50000x128, .f32⟩ : BufTy).Contents (Elt F)) (x7 : (⟨S800000, .f32⟩ : BufTy).Contents (Elt F))
    (x8 x9 : (⟨S800000, .i32⟩ : BufTy).Contents (Elt F)) :
    val_main_v12 (F := F) x0 x7 x8 x9 = spmm x0 x7 x8 x9 := rfl

/-- The second layer's aggregation is the aggregation of the first layer's activations. -/
theorem agg2_eq_spmm (x0 : (⟨S50000x128, .f32⟩ : BufTy).Contents (Elt F)) (x1 : (⟨S256x128, .f32⟩ : BufTy).Contents (Elt F))
    (x2 x3 x4 : (⟨S128, .f32⟩ : BufTy).Contents (Elt F)) (x7 : (⟨S800000, .f32⟩ : BufTy).Contents (Elt F))
    (x8 x9 : (⟨S800000, .i32⟩ : BufTy).Contents (Elt F)) :
    val_main_v56 (F := F) x0 x1 x2 x3 x4 x7 x8 x9
      = spmm (val_main_v43 (F := F) x0 x1 x2 x3 x4 x7 x8 x9) x7 x8 x9 := rfl

end Spmm

/-! ## The stages at an index, over the extended reals -/

variable (x0 : (⟨S50000x128, .f32⟩ : BufTy).Contents (Elt Ideal)) (x1 : (⟨S256x128, .f32⟩ : BufTy).Contents (Elt Ideal))
  (x2 x3 x4 : (⟨S128, .f32⟩ : BufTy).Contents (Elt Ideal)) (x5 : (⟨S256x64, .f32⟩ : BufTy).Contents (Elt Ideal))
  (x6 : (⟨S64, .f32⟩ : BufTy).Contents (Elt Ideal)) (x7 : (⟨S800000, .f32⟩ : BufTy).Contents (Elt Ideal))
  (x8 x9 : (⟨S800000, .i32⟩ : BufTy).Contents (Elt Ideal))

/-- The first bias, broadcast over the rows, at (n, j) is its entry j. -/
theorem bias1_row (n : Fin 50000) (j : Fin 128) : val_main_v16 (F := Ideal) x2 (ix2 n j) = x2 (ix1 j) := by
  rw [val_main_v16_apply, val_main_v15_apply]
  exact congrArg x2 (funext fun a => by match a with | ⟨0, _⟩ => rfl)

/-- The second bias, broadcast over the rows, at (n, j) is its entry j. -/
theorem bias2_row (n : Fin 50000) (j : Fin 64) : val_main_v60 (F := Ideal) x6 (ix2 n j) = x6 (ix1 j) := by
  rw [val_main_v60_apply, val_main_v59_apply]
  exact congrArg x6 (funext fun a => by match a with | ⟨0, _⟩ => rfl)

/-- The scale γ, broadcast over the rows, at (n, j) is its entry j. -/
theorem gamma_row (n : Fin 50000) (j : Fin 128) : val_main_v32 (F := Ideal) x3 (ix2 n j) = x3 (ix1 j) := by
  rw [val_main_v32_apply, val_main_v31_apply]
  exact congrArg x3 (funext fun a => by match a with | ⟨0, _⟩ => rfl)

/-- The offset β, broadcast over the rows, at (n, j) is its entry j. -/
theorem beta_row (n : Fin 50000) (j : Fin 128) : val_main_v41 (F := Ideal) x4 (ix2 n j) = x4 (ix1 j) := by
  rw [val_main_v41_apply, val_main_v40_apply]
  exact congrArg x4 (funext fun a => by match a with | ⟨0, _⟩ => rfl)

/-- THE FIRST LINEAR MAP at (n, j): the aggregated row n against the top half of the weights, plus the node's own
    row against the bottom half, plus the bias. -/
theorem hlin_apply (n : Fin 50000) (j : Fin 128) :
    val_main_v17 (F := Ideal) x0 x1 x2 x7 x8 x9 (ix2 n j)
      = ((∑ k : Fin 128, val_main_v12 (F := Ideal) x0 x7 x8 x9 (ix2 n k) * x1 (ix2 (⟨k.val, by omega⟩ : Fin 256) j))
          + ∑ k : Fin 128, x0 (ix2 n k) * x1 (ix2 (⟨128 + k.val, by omega⟩ : Fin 256) j))
        + x2 (ix1 j) := by
  rw [val_main_v17_apply, val_main_v14_apply, bias1_row, sum_halves]
  refine congrArg (· + x2 (ix1 j)) (congrArg₂ (· + ·) (Finset.sum_congr rfl fun k _ => ?_) (Finset.sum_congr rfl fun k _ => ?_))
  · refine congrArg₂ (· * ·) ?_ (congrArg x1 (funext fun a => by match a with | ⟨0, _⟩ => rfl | ⟨1, _⟩ => rfl))
    unfold val_main_v13
    exact concat_cols_left _ _ _ _ n k rfl rfl
  · refine congrArg₂ (· * ·) ?_ (congrArg x1 (funext fun a => by match a with | ⟨0, _⟩ => rfl | ⟨1, _⟩ => rfl))
    unfold val_main_v13
    exact concat_cols_right _ _ _ _ n k rfl (Nat.add_comm _ _)

/-- THE COLUMN MEAN at j: the column's sum over the 50000 rows, divided by the row count's word. -/
theorem mean_apply (j : Fin 128) :
    val_main_v20 (F := Ideal) x0 x1 x2 x7 x8 x9 (ix1 j)
      = Ideal.div (∑ n : Fin 50000, val_main_v17 (F := Ideal) x0 x1 x2 x7 x8 x9 (ix2 n j))
          (Ideal.ofBits .f32 0x47435000#32) := by
  have e : ∀ n : Fin 50000, idx_main_v18 (ix1 j) n = ix2 n j :=
    fun n => funext fun a => by match a with | ⟨0, _⟩ => rfl | ⟨1, _⟩ => rfl
  rw [val_main_v20_apply, val_main_v18_apply, val_main_v19_apply, val_main_cst_2_apply, val_main_cst_1_apply,
    Ideal.hostDivf_def, Ideal.ofBits_def, Ideal.ofBits_def, Ideal.ofBits_zero_f32, zero_add]
  exact congrArg (fun s => Ideal.div s (Ideal.ofBits .f32 0x47435000#32)) (Finset.sum_congr rfl fun n _ => by rw [e n])

/-- The mean, broadcast over the rows for the variance, at (n, j) is its entry j. -/
theorem mean_row (n : Fin 50000) (j : Fin 128) :
    val_main_v22 (F := Ideal) x0 x1 x2 x7 x8 x9 (ix2 n j) = val_main_v20 (F := Ideal) x0 x1 x2 x7 x8 x9 (ix1 j) := by
  rw [val_main_v22_apply, val_main_v21_apply]
  exact congrArg _ (funext fun a => by match a with | ⟨0, _⟩ => rfl)

/-- The mean, broadcast over the rows for the normalisation, at (n, j) is its entry j. -/
theorem mean_row' (n : Fin 50000) (j : Fin 128) :
    val_main_v29 (F := Ideal) x0 x1 x2 x7 x8 x9 (ix2 n j) = val_main_v20 (F := Ideal) x0 x1 x2 x7 x8 x9 (ix1 j) := by
  rw [val_main_v29_apply, val_main_v28_apply]
  exact congrArg _ (funext fun a => by match a with | ⟨0, _⟩ => rfl)

/-- THE COLUMN VARIANCE at j: the sum over the rows of the squared deviation from the mean, divided by the row
    count's word. -/
theorem var_apply (j : Fin 128) :
    val_main_v27 (F := Ideal) x0 x1 x2 x7 x8 x9 (ix1 j)
      = Ideal.div (∑ n : Fin 50000,
            (val_main_v17 (F := Ideal) x0 x1 x2 x7 x8 x9 (ix2 n j) - val_main_v20 (F := Ideal) x0 x1 x2 x7 x8 x9 (ix1 j))
              * (val_main_v17 (F := Ideal) x0 x1 x2 x7 x8 x9 (ix2 n j) - val_main_v20 (F := Ideal) x0 x1 x2 x7 x8 x9 (ix1 j)))
          (Ideal.ofBits .f32 0x47435000#32) := by
  have e : ∀ n : Fin 50000, idx_main_v25 (ix1 j) n = ix2 n j :=
    fun n => funext fun a => by match a with | ⟨0, _⟩ => rfl | ⟨1, _⟩ => rfl
  rw [val_main_v27_apply, val_main_v25_apply, val_main_v26_apply, val_main_cst_4_apply, val_main_cst_3_apply,
    Ideal.hostDivf_def, Ideal.ofBits_def, Ideal.ofBits_def, Ideal.ofBits_zero_f32, zero_add]
  refine congrArg (fun s => Ideal.div s (Ideal.ofBits .f32 0x47435000#32)) (Finset.sum_congr rfl fun n _ => ?_)
  rw [e n, val_main_v24_apply, val_main_v23_apply, mean_row]
  rfl

/-- The reciprocal standard deviation, broadcast over the rows, at (n, j): the reciprocal square root of the
    variance plus the stabiliser's word. -/
theorem rstd_row (n : Fin 50000) (j : Fin 128) :
    val_main_v38 (F := Ideal) x0 x1 x2 x7 x8 x9 (ix2 n j)
      = Ideal.rsqrt (val_main_v27 (F := Ideal) x0 x1 x2 x7 x8 x9 (ix1 j) + Ideal.ofBits .f32 0x3727C5AC#32) := by
  rw [val_main_v38_apply, val_main_v37_apply]
  have e : idx_main_v37 (idx_main_v38 (ix2 n j)) = ix1 j := funext fun a => by match a with | ⟨0, _⟩ => rfl
  rw [e, val_main_v36_apply, val_main_v35_apply, val_main_v34_apply, val_main_cst_5_apply]
  rfl

/-- THE ACTIVATION at (n, j): γ times the deviation from the mean, times the reciprocal standard deviation, plus β,
    clipped below at zero. -/
theorem h_apply (n : Fin 50000) (j : Fin 128) :
    val_main_v43 (F := Ideal) x0 x1 x2 x3 x4 x7 x8 x9 (ix2 n j)
      = max (x3 (ix1 j)
              * (val_main_v17 (F := Ideal) x0 x1 x2 x7 x8 x9 (ix2 n j) - val_main_v20 (F := Ideal) x0 x1 x2 x7 x8 x9 (ix1 j))
              * Ideal.rsqrt (val_main_v27 (F := Ideal) x0 x1 x2 x7 x8 x9 (ix1 j) + Ideal.ofBits .f32 0x3727C5AC#32)
            + x4 (ix1 j)) 0 := by
  rw [val_main_v43_apply, val_main_v42_apply, val_main_v39_apply, val_main_v33_apply, gamma_row, val_main_v30_apply,
    mean_row', rstd_row, beta_row, val_main_call0_v0_apply, val_main_call0_cst_apply]
  simp only [Ideal.ofBits_def, Ideal.ofBits_zero_f32]
  rfl

/-- THE SECOND LINEAR MAP at (n, j): the aggregated activations' row n against the top half of the weights, plus
    the node's own activations against the bottom half, plus the bias. -/
theorem out_apply (n : Fin 50000) (j : Fin 64) :
    val_main_v61 (F := Ideal) x0 x1 x2 x3 x4 x5 x6 x7 x8 x9 (ix2 n j)
      = ((∑ k : Fin 128, val_main_v56 (F := Ideal) x0 x1 x2 x3 x4 x7 x8 x9 (ix2 n k) * x5 (ix2 (⟨k.val, by omega⟩ : Fin 256) j))
          + ∑ k : Fin 128, val_main_v43 (F := Ideal) x0 x1 x2 x3 x4 x7 x8 x9 (ix2 n k)
              * x5 (ix2 (⟨128 + k.val, by omega⟩ : Fin 256) j))
        + x6 (ix1 j) := by
  rw [val_main_v61_apply, val_main_v58_apply, bias2_row, sum_halves]
  refine congrArg (· + x6 (ix1 j)) (congrArg₂ (· + ·) (Finset.sum_congr rfl fun k _ => ?_) (Finset.sum_congr rfl fun k _ => ?_))
  · refine congrArg₂ (· * ·) ?_ (congrArg x5 (funext fun a => by match a with | ⟨0, _⟩ => rfl | ⟨1, _⟩ => rfl))
    unfold val_main_v57
    exact concat_cols_left _ _ _ _ n k rfl rfl
  · refine congrArg₂ (· * ·) ?_ (congrArg x5 (funext fun a => by match a with | ⟨0, _⟩ => rfl | ⟨1, _⟩ => rfl))
    unfold val_main_v57
    exact concat_cols_right _ _ _ _ n k rfl (Nat.add_comm _ _)

/-! ## Real inputs give a real aggregation and a real first linear map -/

/-- The aggregation of a real table with real edge values is real, whatever the index arrays hold: a gather moves
    elements, and a destination's entry is a finite sum of products of reals. -/
theorem isReal_spmm {x : (⟨S50000x128, .f32⟩ : BufTy).Contents (Elt Ideal)} (hx : IsReal x) (h7 : IsReal x7) :
    IsReal (spmm (F := Ideal) x x7 x8 x9) := by
  unfold spmm val_main_v10 val_main_cst val_main_v8 val_main_v0
  exact isReal_scatterAdd _ (isReal_broadcastInDim _ _ (isReal_constant_zero S_)) _
    (isReal_mulf (isReal_broadcastInDim _ _ (isReal_broadcastInDim _ _ h7)) (isReal_gather _ hx _))

/-- The first linear map of real features, weights, bias and edge values is real. -/
theorem isReal_hlin (h0 : IsReal x0) (h1 : IsReal x1) (h2 : IsReal x2) (h7 : IsReal x7) :
    IsReal (val_main_v17 (F := Ideal) x0 x1 x2 x7 x8 x9) := by
  unfold val_main_v17 val_main_v14 val_main_v13 val_main_v16 val_main_v15
  refine isReal_addf (isReal_dotGeneral _ _ ?_ h1) (isReal_broadcastInDim _ _ (isReal_broadcastInDim _ _ h2))
  refine isReal_concat_cols rfl _ ?_ h0
  rw [agg_eq_spmm]
  exact isReal_spmm x7 x8 x9 h0 h7

end Cert.ReferenceIdeal.RefValue

end
-- ==== Proof.RefAgree.lean ====
/-
  Agreement with the reference, stage by stage. An array known only through an index formula — a row of sums against
  the two halves of a weight matrix plus a bias, or the folded batch normalisation clipped at zero — is the reference's
  stage of the same name: the index formulas of the reference's stages are the same sums, and the folded and the
  direct spelling of batch normalisation agree on real data.
-/
import proofs.«120849_j36893769073013_1_alg».proof.Proof.RefSide
import proofs.«120849_j36893769073013_1_alg».proof.Proof.LibBatchNorm

noncomputable section

namespace Cert.ReferenceIdeal.RefValue

open Cert.ReferenceIdeal Cert.ReferenceIdeal.Gen Cert.ReferenceIdeal.Read Idealize.ShloMosaic Idealize.ShloMosaic.ValueIdx
  Cert.RealVal
open scoped BigOperators

variable {x0 : (⟨S50000x128, .f32⟩ : BufTy).Contents (Elt Ideal)} {x1 : (⟨S256x128, .f32⟩ : BufTy).Contents (Elt Ideal)}
  {x2 x3 x4 : (⟨S128, .f32⟩ : BufTy).Contents (Elt Ideal)} {x5 : (⟨S256x64, .f32⟩ : BufTy).Contents (Elt Ideal)}
  {x6 : (⟨S64, .f32⟩ : BufTy).Contents (Elt Ideal)} {x7 : (⟨S800000, .f32⟩ : BufTy).Contents (Elt Ideal)}
  {x8 x9 : (⟨S800000, .i32⟩ : BufTy).Contents (Elt Ideal)}

/-- An array each of whose entries is a real number is real (neither infinity anywhere). -/
theorem isReal_of_forall {ι : Type} {v : ι → EReal} (h : ∀ i, Cert.BatchNorm.IsReal (v i)) : IsReal v :=
  fun i => ⟨(h i).ne_top, (h i).ne_bot⟩

/-- (A) An array whose entry (n, j) is the aggregated row n against one 128-row weight block, plus the features' row n
    against another, plus a bias, is the first linear map when the blocks are the top and bottom halves of the weights. -/
theorem hlin_agree (HK agg feat : (⟨S50000x128, .f32⟩ : BufTy).Contents (Elt Ideal))
    (wa wb : (⟨(⟨2, ![128, 128]⟩ : Shape), .f32⟩ : BufTy).Contents (Elt Ideal)) (b : (⟨S128, .f32⟩ : BufTy).Contents (Elt Ideal))
    (hK : ∀ (n : Fin 50000) (j : Fin 128), HK (ix2 n j)
      = ((∑ k : Fin 128, agg (ix2 n k) * wa (ix2 k j)) + (∑ k : Fin 128, feat (ix2 n k) * wb (ix2 k j))) + b (ix1 j))
    (hagg : agg = val_main_v12 (F := Ideal) x0 x7 x8 x9) (hfeat : feat = x0)
    (hwa : ∀ k j : Fin 128, wa (ix2 k j) = x1 (ix2 (⟨k.val, by omega⟩ : Fin 256) j))
    (hwb : ∀ k j : Fin 128, wb (ix2 k j) = x1 (ix2 (⟨128 + k.val, by omega⟩ : Fin 256) j)) (hb : b = x2) :
    HK = val_main_v17 (F := Ideal) x0 x1 x2 x7 x8 x9 := by
  funext i
  obtain ⟨n, j, rfl⟩ : ∃ n j, i = ix2 n j := ⟨i 0, i 1, eq_ix2 i⟩
  rw [hK, hlin_apply, hagg, hfeat, hb]
  exact congrArg (· + x2 (ix1 j)) (congrArg₂ (· + ·) (Finset.sum_congr rfl fun k _ => by rw [hwa])
    (Finset.sum_congr rfl fun k _ => by rw [hwb]))

/-- (B) An array whose entry (n, j) is the folded batch normalisation of the first linear map — the column's sum and
    sum of squares over the row count give the mean and the variance, the scale is γ times the reciprocal square root
    of the variance plus the stabiliser, the shift is β less the mean times the scale — clipped at zero, is the
    reference's activation, on real inputs. -/
theorem h_agree (hKa : (⟨S50000x128, .f32⟩ : BufTy).Contents (Elt Ideal)) (st0 st1 : Fin 128 → EReal)
    (hst0 : ∀ j : Fin 128, st0 j = ∑ n : Fin 50000, val_main_v17 (F := Ideal) x0 x1 x2 x7 x8 x9 (ix2 n j))
    (hst1 : ∀ j : Fin 128, st1 j = ∑ n : Fin 50000,
      val_main_v17 (F := Ideal) x0 x1 x2 x7 x8 x9 (ix2 n j) * val_main_v17 (F := Ideal) x0 x1 x2 x7 x8 x9 (ix2 n j))
    (hK : ∀ (n : Fin 50000) (j : Fin 128), hKa (ix2 n j)
      = max (val_main_v17 (F := Ideal) x0 x1 x2 x7 x8 x9 (ix2 n j)
              * (x3 (ix1 j) * Ideal.rsqrt ((Ideal.div (st1 j) (Ideal.ofBits .f32 0x47435000#32)
                    - Ideal.div (st0 j) (Ideal.ofBits .f32 0x47435000#32) * Ideal.div (st0 j) (Ideal.ofBits .f32 0x47435000#32))
                  + Ideal.ofBits .f32 0x3727C5AC#32))
            + (x4 (ix1 j) - Ideal.div (st0 j) (Ideal.ofBits .f32 0x47435000#32)
                * (x3 (ix1 j) * Ideal.rsqrt ((Ideal.div (st1 j) (Ideal.ofBits .f32 0x47435000#32)
                    - Ideal.div (st0 j) (Ideal.ofBits .f32 0x47435000#32) * Ideal.div (st0 j) (Ideal.ofBits .f32 0x47435000#32))
                  + Ideal.ofBits .f32 0x3727C5AC#32))))
          (Ideal.ofBits .f32 0x00000000#32))
    (h0 : IsReal x0) (h1 : IsReal x1) (h2 : IsReal x2) (h3 : IsReal x3) (h4 : IsReal x4) (h7 : IsReal x7) :
    hKa = val_main_v43 (F := Ideal) x0 x1 x2 x3 x4 x7 x8 x9 := by
  funext i
  obtain ⟨n, j, rfl⟩ : ∃ n j, i = ix2 n j := ⟨i 0, i 1, eq_ix2 i⟩
  have key := Cert.BatchNorm.bn_relu_agree_50000
    (fun n : Fin 50000 => val_main_v17 (F := Ideal) x0 x1 x2 x7 x8 x9 (ix2 n j))
    (fun n => (isReal_hlin x0 x1 x2 x7 x8 x9 h0 h1 h2 h7).exists_real (ix2 n j))
    (x3 (ix1 j)) (x4 (ix1 j)) (h3.exists_real _) (h4.exists_real _) _ _ _ _ _ rfl rfl rfl rfl rfl n
  rw [Cert.BatchNorm.ofBits_zero] at key
  rw [hK, hst0, hst1, Cert.BatchNorm.ofBits_zero, h_apply, var_apply, mean_apply]
  exact key

/-- (C) An array whose entry (n, j) is the aggregated activations' row n against one 128-row weight block, plus the
    activations' row n against another, plus a bias, is the second linear map when the blocks are the top and bottom
    halves of the second weights. -/
theorem out_agree (oK : (⟨S50000x64, .f32⟩ : BufTy).Contents (Elt Ideal))
    (agg2 h : (⟨S50000x128, .f32⟩ : BufTy).Contents (Elt Ideal))
    (wa wb : (⟨(⟨2, ![128, 64]⟩ : Shape), .f32⟩ : BufTy).Contents (Elt Ideal)) (b : (⟨S64, .f32⟩ : BufTy).Contents (Elt Ideal))
    (hK : ∀ (n : Fin 50000) (j : Fin 64), oK (ix2 n j)
      = ((∑ k : Fin 128, agg2 (ix2 n k) * wa (ix2 k j)) + (∑ k : Fin 128, h (ix2 n k) * wb (ix2 k j))) + b (ix1 j))
    (hagg2 : agg2 = val_main_v56 (F := Ideal) x0 x1 x2 x3 x4 x7 x8 x9)
    (hh : h = val_main_v43 (F := Ideal) x0 x1 x2 x3 x4 x7 x8 x9)
    (hwa : ∀ (k : Fin 128) (j : Fin 64), wa (ix2 k j) = x5 (ix2 (⟨k.val, by omega⟩ : Fin 256) j))
    (hwb : ∀ (k : Fin 128) (j : Fin 64), wb (ix2 k j) = x5 (ix2 (⟨128 + k.val, by omega⟩ : Fin 256) j)) (hb : b = x6) :
    oK = val_main_v61 (F := Ideal) x0 x1 x2 x3 x4 x5 x6 x7 x8 x9 := by
  funext i
  obtain ⟨n, j, rfl⟩ : ∃ n j, i = ix2 n j := ⟨i 0, i 1, eq_ix2 i⟩
  rw [hK, out_apply, hagg2, hh, hb]
  exact congrArg (· + x6 (ix1 j)) (congrArg₂ (· + ·) (Finset.sum_congr rfl fun k _ => by rw [hwa])
    (Finset.sum_congr rfl fun k _ => by rw [hwb]))

end Cert.ReferenceIdeal.RefValue

end
-- ==== Proof.Bridge.lean ====
/-
  The kernel's program and the reference compute the same result, on finite inputs. Stage by stage: the sparse
  aggregation is one function in both programs; the first linear map, written in the kernel as two sums over the halves
  of the weight matrix, is the reference's one sum over the concatenated row; the statistics the first region leaves are
  the column sums of that map and of its squares; the folded batch normalisation `x * scale + shift` over those
  statistics, rectified, is the reference's direct `γ * (x − mean) * rsqrt (var + eps) + β`, rectified, because the data
  are real numbers; the second aggregation is again the one function, of equal activations; and the second linear map
  is the first one's argument over again. What the third region leaves in the result array is therefore the
  reference's value.
-/
import proofs.«120849_j36893769073013_1_alg».proof.Proof.KI.Dats
import proofs.«120849_j36893769073013_1_alg».proof.Proof.KI.Host
import proofs.«120849_j36893769073013_1_alg».proof.Proof.KI.HostIdx
import proofs.«120849_j36893769073013_1_alg».proof.Proof.KI.R0Val
import proofs.«120849_j36893769073013_1_alg».proof.Proof.KI.R1Val
import proofs.«120849_j36893769073013_1_alg».proof.Proof.KI.R2Val
import proofs.«120849_j36893769073013_1_alg».proof.Proof.FinitePre
import proofs.«120849_j36893769073013_1_alg».proof.Proof.RefAgree
import Idealize.ShloMosaic.Lib.ValueIdx

noncomputable section

namespace Cert.Bridge

open Cert.KernelIdeal Cert.KernelIdeal.Gen Cert.KernelIdeal.Hand
open Idealize.ShloMosaic Idealize.ShloMosaic.TcCoe Idealize.SL.Sem
open ValueIdx (ix1 ix2)
open scoped BigOperators

/-! ## One aggregation -/

set_option maxHeartbeats 1000000 in
/-- The two programs' sparse aggregations are one function: each is the same chain of gather, scale and
scatter-add, over its own program's copy of the same shape facts. -/
theorem spmm_eq (x : (⟨S50000x128, .f32⟩ : BufTy).Contents (Elt Ideal)) (vals : (⟨S800000, .f32⟩ : BufTy).Contents (Elt Ideal))
    (src dst : (⟨S800000, .i32⟩ : BufTy).Contents (Elt Ideal)) :
    spmm (F := Ideal) x vals src dst = Cert.ReferenceIdeal.RefValue.spmm (F := Ideal) x vals src dst := rfl

/-! ## The ten inputs -/

section Inputs
variable (m : (ℓ : Loc nD τ sig) → Buf (Elt Ideal) ℓ) (c : Dev nD)

/-- The features. -/
abbrev in0 : (⟨S50000x128, .f32⟩ : BufTy).Contents (Elt Ideal) := m ((c.tc : Thread nD τ).loc main_arg0)
/-- The first layer's weights. -/
abbrev in1 : (⟨S256x128, .f32⟩ : BufTy).Contents (Elt Ideal) := m ((c.tc : Thread nD τ).loc main_arg1)
/-- The first layer's bias. -/
abbrev in2 : (⟨S128, .f32⟩ : BufTy).Contents (Elt Ideal) := m ((c.tc : Thread nD τ).loc main_arg2)
/-- The normalisation's gain. -/
abbrev in3 : (⟨S128, .f32⟩ : BufTy).Contents (Elt Ideal) := m ((c.tc : Thread nD τ).loc main_arg3)
/-- The normalisation's offset. -/
abbrev in4 : (⟨S128, .f32⟩ : BufTy).Contents (Elt Ideal) := m ((c.tc : Thread nD τ).loc main_arg4)
/-- The second layer's weights. -/
abbrev in5 : (⟨S256x64, .f32⟩ : BufTy).Contents (Elt Ideal) := m ((c.tc : Thread nD τ).loc main_arg5)
/-- The second layer's bias. -/
abbrev in6 : (⟨S64, .f32⟩ : BufTy).Contents (Elt Ideal) := m ((c.tc : Thread nD τ).loc main_arg6)
/-- The edge values. -/
abbrev in7 : (⟨S800000, .f32⟩ : BufTy).Contents (Elt Ideal) := m ((c.tc : Thread nD τ).loc main_arg7)
/-- The edges' source nodes. -/
abbrev in8 : (⟨S800000, .i32⟩ : BufTy).Contents (Elt Ideal) := m ((c.tc : Thread nD τ).loc main_arg8)
/-- The edges' destination nodes. -/
abbrev in9 : (⟨S800000, .i32⟩ : BufTy).Contents (Elt Ideal) := m ((c.tc : Thread nD τ).loc main_arg9)

end Inputs

/-! ## Stage by stage -/

section Stages
variable (m : (ℓ : Loc nD τ sig) → Buf (Elt Ideal) ℓ) (c : Dev nD)

/-- The first aggregation, as the first region finds it, is the reference's. -/
theorem agg_eq :
    (atTc (Gen.V1 m) c main_v12 : (⟨S50000x128, .f32⟩ : BufTy).Contents (Elt Ideal))
      = Cert.ReferenceIdeal.Read.val_main_v12 (F := Ideal) (in0 m c) (in7 m c) (in8 m c) (in9 m c) :=
  (V1_agg m c).trans ((spmm_eq _ _ _ _).trans (Cert.ReferenceIdeal.RefValue.agg_eq_spmm _ _ _ _).symm)

/-- What the first region leaves in the linear layer's array is the reference's first linear map: the two sums over
the halves of the weights are the one sum over the concatenated row. -/
theorem hlin_eq_ref :
    ((dat0 (atTc (Gen.V1 m)) c).arrAt 5 cfg0.N : (⟨S50000x128, .f32⟩ : BufTy).Contents (Elt Ideal))
      = Cert.ReferenceIdeal.Read.val_main_v17 (F := Ideal) (in0 m c) (in1 m c) (in2 m c) (in7 m c) (in8 m c) (in9 m c) :=
  Cert.ReferenceIdeal.RefValue.hlin_agree _ (atTc (Gen.V1 m) c main_v12) (atTc (Gen.V1 m) c main_arg0)
    (atTc (Gen.V1 m) c main_v13) (atTc (Gen.V1 m) c main_v14) (atTc (Gen.V1 m) c main_arg2)
    (fun n j => hlin_apply (atTc (Gen.V1 m)) c n j) (agg_eq m c) (V1_feat m c)
    (fun k j => (congrFun (V1_w1a m c) (ix2 k j)).trans (w1a_apply _ k j))
    (fun k j => (congrFun (V1_w1b m c) (ix2 k j)).trans (w1b_apply _ k j)) (V1_b1 m c)

/-- Row 0 of the statistics the first region leaves: the column sums of the reference's first linear map. -/
theorem stats0_eq_ref (j : Fin 128) :
    ((dat0 (atTc (Gen.V1 m)) c).arrAt 6 cfg0.N : (⟨S2x128, .f32⟩ : BufTy).Contents (Elt Ideal)) (ix2 0 j)
      = ∑ n : Fin 50000,
          Cert.ReferenceIdeal.Read.val_main_v17 (F := Ideal) (in0 m c) (in1 m c) (in2 m c) (in7 m c) (in8 m c) (in9 m c) (ix2 n j) :=
  (stats0_apply (atTc (Gen.V1 m)) c j).trans
    (Finset.sum_congr rfl fun n _ => congrFun (hlin_eq_ref m c) (ix2 n j))

/-- Row 1 of the statistics: the column sums of its squares. -/
theorem stats1_eq_ref (j : Fin 128) :
    ((dat0 (atTc (Gen.V1 m)) c).arrAt 6 cfg0.N : (⟨S2x128, .f32⟩ : BufTy).Contents (Elt Ideal)) (ix2 1 j)
      = ∑ n : Fin 50000,
          Cert.ReferenceIdeal.Read.val_main_v17 (F := Ideal) (in0 m c) (in1 m c) (in2 m c) (in7 m c) (in8 m c) (in9 m c) (ix2 n j)
            * Cert.ReferenceIdeal.Read.val_main_v17 (F := Ideal) (in0 m c) (in1 m c) (in2 m c) (in7 m c) (in8 m c) (in9 m c) (ix2 n j) :=
  (stats1_apply (atTc (Gen.V1 m)) c j).trans
    (Finset.sum_congr rfl fun n _ => congrArg₂ (fun a b : EReal => a * b)
      (congrFun (hlin_eq_ref m c) (ix2 n j)) (congrFun (hlin_eq_ref m c) (ix2 n j)))

/-- What the second region leaves is the reference's rectified batch normalisation, on real inputs: the folded
normalisation over the statistics' scale and shift against the direct one. -/
theorem act_eq_ref
    (h0 : Cert.RealVal.IsReal (in0 m c)) (h1 : Cert.RealVal.IsReal (in1 m c)) (h2 : Cert.RealVal.IsReal (in2 m c))
    (h3 : Cert.RealVal.IsReal (in3 m c)) (h4 : Cert.RealVal.IsReal (in4 m c)) (h7 : Cert.RealVal.IsReal (in7 m c)) :
    ((dat1 (atTc (Gen.V3 m (outs m))) c).arrAt 3 cfg1.N : (⟨S50000x128, .f32⟩ : BufTy).Contents (Elt Ideal))
      = Cert.ReferenceIdeal.Read.val_main_v43 (F := Ideal) (in0 m c) (in1 m c) (in2 m c) (in3 m c) (in4 m c)
          (in7 m c) (in8 m c) (in9 m c) := by
  have est : (Gen.V2 m (outs m) c main_v15_1 : (⟨S2x128, .f32⟩ : BufTy).Contents (Elt Ideal))
      = (dat0 (atTc (Gen.V1 m)) c).arrAt 6 cfg0.N := V2_main_v15_1 m c
  have e150 : (atTc (Gen.V3 m (outs m)) c main_v15_0 : (⟨S50000x128, .f32⟩ : BufTy).Contents (Elt Ideal))
      = Cert.ReferenceIdeal.Read.val_main_v17 (F := Ideal) (in0 m c) (in1 m c) (in2 m c) (in7 m c) (in8 m c) (in9 m c) :=
    (V3_hlin m (outs m) c).trans ((V2_main_v15_0 m c).trans (hlin_eq_ref m c))
  have e29 : (atTc (Gen.V3 m (outs m)) c main_v29 : (⟨S128, .f32⟩ : BufTy).Contents (Elt Ideal))
      = colScale (Gen.V2 m (outs m) c main_v15_1) (in3 m c) := V3_scale m (outs m) c
  have e31 : (atTc (Gen.V3 m (outs m)) c main_v31 : (⟨S128, .f32⟩ : BufTy).Contents (Elt Ideal))
      = colShift (Gen.V2 m (outs m) c main_v15_1) (in3 m c) (in4 m c) := V3_shift m (outs m) c
  refine Cert.ReferenceIdeal.RefValue.h_agree _
    (fun j => (Gen.V2 m (outs m) c main_v15_1 : (⟨S2x128, .f32⟩ : BufTy).Contents (Elt Ideal)) (ix2 0 j))
    (fun j => (Gen.V2 m (outs m) c main_v15_1 : (⟨S2x128, .f32⟩ : BufTy).Contents (Elt Ideal)) (ix2 1 j))
    (fun j => (congrFun est (ix2 0 j)).trans (stats0_eq_ref m c j))
    (fun j => (congrFun est (ix2 1 j)).trans (stats1_eq_ref m c j))
    (fun n j => ?_) h0 h1 h2 h3 h4 h7
  refine (congrFun (arr1_out (atTc (Gen.V3 m (outs m))) c) (ix2 n j)).trans ?_
  rw [e150, e29, e31, Cert.BatchNorm.ofBits_zero]
  show max (_ * colScale (F := Ideal) _ _ (ix1 j) + colShift (F := Ideal) _ _ _ (ix1 j)) 0 = _
  rw [colShift_apply, colScale_apply, colVar_apply, colMean_apply]

/-- The activations as the third region finds them. -/
theorem act_in (h0 : Cert.RealVal.IsReal (in0 m c)) (h1 : Cert.RealVal.IsReal (in1 m c))
    (h2 : Cert.RealVal.IsReal (in2 m c)) (h3 : Cert.RealVal.IsReal (in3 m c)) (h4 : Cert.RealVal.IsReal (in4 m c))
    (h7 : Cert.RealVal.IsReal (in7 m c)) :
    (Gen.V4 m (outs m) c main_v32 : (⟨S50000x128, .f32⟩ : BufTy).Contents (Elt Ideal))
      = Cert.ReferenceIdeal.Read.val_main_v43 (F := Ideal) (in0 m c) (in1 m c) (in2 m c) (in3 m c) (in4 m c)
          (in7 m c) (in8 m c) (in9 m c) :=
  (V4_main_v32 m c).trans (act_eq_ref m c h0 h1 h2 h3 h4 h7)

/-- The second aggregation, as the third region finds it, is the reference's. -/
theorem agg2_eq (h0 : Cert.RealVal.IsReal (in0 m c)) (h1 : Cert.RealVal.IsReal (in1 m c))
    (h2 : Cert.RealVal.IsReal (in2 m c)) (h3 : Cert.RealVal.IsReal (in3 m c)) (h4 : Cert.RealVal.IsReal (in4 m c))
    (h7 : Cert.RealVal.IsReal (in7 m c)) :
    (atTc (Gen.V5 m (outs m)) c main_v45 : (⟨S50000x128, .f32⟩ : BufTy).Contents (Elt Ideal))
      = Cert.ReferenceIdeal.Read.val_main_v56 (F := Ideal) (in0 m c) (in1 m c) (in2 m c) (in3 m c) (in4 m c)
          (in7 m c) (in8 m c) (in9 m c) :=
  (V5_agg2 m (outs m) c).trans <|
    (congrArg (fun X => spmm (F := Ideal) X (in7 m c) (in8 m c) (in9 m c)) (act_in m c h0 h1 h2 h3 h4 h7)).trans <|
      (spmm_eq _ _ _ _).trans (Cert.ReferenceIdeal.RefValue.agg2_eq_spmm _ _ _ _ _ _ _ _).symm

/-- What the third region leaves is the reference's result. -/
theorem out_eq_ref (h0 : Cert.RealVal.IsReal (in0 m c)) (h1 : Cert.RealVal.IsReal (in1 m c))
    (h2 : Cert.RealVal.IsReal (in2 m c)) (h3 : Cert.RealVal.IsReal (in3 m c)) (h4 : Cert.RealVal.IsReal (in4 m c))
    (h7 : Cert.RealVal.IsReal (in7 m c)) :
    ((dat2 (atTc (Gen.V5 m (outs m))) c).arrAt 5 cfg2.N : (⟨S50000x64, .f32⟩ : BufTy).Contents (Elt Ideal))
      = Cert.ReferenceIdeal.Read.val_main_v61 (F := Ideal) (in0 m c) (in1 m c) (in2 m c) (in3 m c) (in4 m c)
          (in5 m c) (in6 m c) (in7 m c) (in8 m c) (in9 m c) :=
  Cert.ReferenceIdeal.RefValue.out_agree _ (atTc (Gen.V5 m (outs m)) c main_v45) (atTc (Gen.V5 m (outs m)) c main_v32)
    (atTc (Gen.V5 m (outs m)) c main_v46) (atTc (Gen.V5 m (outs m)) c main_v47) (atTc (Gen.V5 m (outs m)) c main_arg6)
    (fun n j => (out_apply (atTc (Gen.V5 m (outs m))) c n j).trans (linear2Array_apply _ _ _ _ _ n j))
    (agg2_eq m c h0 h1 h2 h3 h4 h7) ((V5_h m (outs m) c).trans (act_in m c h0 h1 h2 h3 h4 h7))
    (fun k j => (congrFun (V5_w2a m (outs m) c) (ix2 k j)).trans (w2a_apply _ k j))
    (fun k j => (congrFun (V5_w2b m (outs m) c) (ix2 k j)).trans (w2b_apply _ k j)) (V5_b2 m (outs m) c)

end Stages

/-! ## The result -/

/-- On finite inputs, what the kernel's program leaves in its result array is the reference's result. -/
theorem kernel_eq_reference [Cert.Pre_finite_inputs.Facts] (m : (ℓ : Loc nD τ sig) → Buf (Elt Ideal) ℓ) (c : Dev nD)
    (hpre : Cert.Pre_finite_inputs.fn (F := Ideal) (in0 m c) (in1 m c) (in2 m c) (in3 m c) (in4 m c) (in5 m c)
      (in6 m c) (in7 m c) (in8 m c) (in9 m c) = fun _ => 1#1) :
    (Gen.V6 m (outs m) c main_v48 : (⟨S50000x64, .f32⟩ : BufTy).Contents (Elt Ideal))
      = Cert.ReferenceIdeal.Read.val_main_v61 (F := Ideal) (in0 m c) (in1 m c) (in2 m c) (in3 m c) (in4 m c)
          (in5 m c) (in6 m c) (in7 m c) (in8 m c) (in9 m c) := by
  obtain ⟨r0, r1, r2, r3, r4, -, -, r7⟩ := Cert.FinitePre.finite_of_pre _ _ _ _ _ _ _ _ _ _ hpre
  exact (V6_main_v48 m c).trans (out_eq_ref m c
    (Cert.ReferenceIdeal.RefValue.isReal_of_forall r0) (Cert.ReferenceIdeal.RefValue.isReal_of_forall r1)
    (Cert.ReferenceIdeal.RefValue.isReal_of_forall r2) (Cert.ReferenceIdeal.RefValue.isReal_of_forall r3)
    (Cert.ReferenceIdeal.RefValue.isReal_of_forall r4) (Cert.ReferenceIdeal.RefValue.isReal_of_forall r7))

end Cert.Bridge

end
-- ==== Proof.lean ====
/-
  A two-layer graph network: each layer aggregates the rows of its table along the edges, applies a linear map to the
  aggregated and the own rows, and the first layer is batch-normalised over the rows and clipped at zero. The kernel
  computes the linear maps as two matrix products against the two halves of the weights and folds the normalisation
  into a scale and a shift from running column sums; the reference uses one product against the joined rows and the
  centred variance. Over the extended reals, on finite inputs, the two are equal: sums split over the halves, and the
  folded and the direct normalisation agree on real data.
-/
import proofs.«120849_j36893769073013_1_alg».proof.Defs
import proofs.«120849_j36893769073013_1_alg».proof.Proof.Gen.Kernel
import proofs.«120849_j36893769073013_1_alg».proof.Proof.Gen.Kernel.Skeleton
import proofs.«120849_j36893769073013_1_alg».proof.Proof.Gen.Kernel.Launch
import proofs.«120849_j36893769073013_1_alg».proof.Proof.Gen.Kernel.Regions
import proofs.«120849_j36893769073013_1_alg».proof.Proof.Gen.Kernel.Points
import proofs.«120849_j36893769073013_1_alg».proof.Proof.Gen.KernelIdeal
import proofs.«120849_j36893769073013_1_alg».proof.Proof.Gen.KernelIdeal.Skeleton
import proofs.«120849_j36893769073013_1_alg».proof.Proof.Gen.KernelIdeal.Launch
import proofs.«120849_j36893769073013_1_alg».proof.Proof.Gen.KernelIdeal.Regions
import proofs.«120849_j36893769073013_1_alg».proof.Proof.Gen.KernelIdeal.Points
import proofs.«120849_j36893769073013_1_alg».proof.Proof.Gen.ReferenceIdeal
import proofs.«120849_j36893769073013_1_alg».proof.Proof.Gen.Pre_finite_inputs
import Idealize.ShloMosaic.Adequacy
import Idealize.ShloMosaic.Init
import proofs.«120849_j36893769073013_1_alg».proof.Proof.Gen.ReferenceIdeal.Run
import proofs.«120849_j36893769073013_1_alg».proof.Proof.Gen.ReferenceIdeal.Read
import proofs.«120849_j36893769073013_1_alg».proof.Proof.KB.Run
import proofs.«120849_j36893769073013_1_alg».proof.Proof.KI.Run
import proofs.«120849_j36893769073013_1_alg».proof.Proof.Bridge

noncomputable section

namespace Cert.Proof

open Idealize.ShloMosaic Idealize.SL.Sem Idealize.ShloMosaic.TcCoe

/-- The word-level kernel runs and leaves its arguments unchanged. -/
theorem frame_kernel : Cert.frame_Kernel := fun m ρ _ => Cert.Kernel.Hand.frame m ρ

/-- The kernel over the extended reals runs and leaves its arguments unchanged. -/
theorem frame_kernelIdeal : Cert.frame_KernelIdeal := fun m ρ _ => Cert.KernelIdeal.Hand.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from finite arguments that agree, the kernel's result array and the reference's are one
    array: the kernel ends at the last region's output, the reference at its last stage of the arguments, and the two
    are equal stage by stage (the linear maps are the same sums; the two spellings of batch normalisation agree on
    real data). -/
theorem algebraic : Cert.algebraic_KernelIdeal_ReferenceIdeal := by
  intro m ρ m' ρ' hpre hagree
  refine ⟨fun c => Cert.KernelIdeal.Gen.V6 m (Cert.KernelIdeal.Hand.outs m) c Cert.KernelIdeal.main_v48,
    Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v61_eq, a0, a1, a2, a3, a4, a5, a6, a7, a8, a9]
  exact (Cert.Bridge.kernel_eq_reference m c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
